-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x60 : Shape := ⟨3, ![4096, 128, 60]⟩
abbrev S360x200 : Shape := ⟨2, ![360, 200]⟩
abbrev S200 : Shape := ⟨1, ![200]⟩
abbrev S200x3 : Shape := ⟨2, ![200, 3]⟩
abbrev S3 : Shape := ⟨1, ![3]⟩
abbrev S4096 : Shape := ⟨1, ![4096]⟩
abbrev S4096x3 : Shape := ⟨2, ![4096, 3]⟩
abbrev S_ : Shape := ⟨0, ![]⟩

class Facts : Prop where
  bcast_S_S4096x128x60 : S_.BroadcastsInDim S4096x128x60 (![] : Fin 0 → Fin S4096x128x60.rank)
  reducesTo_S4096x128x60_S_d0_1_2 : S4096x128x60.ReducesTo [0, 1, 2] S_
  h_S_ : 0 < S_.numel
  bcast_S_S360x200 : S_.BroadcastsInDim S360x200 (![] : Fin 0 → Fin S360x200.rank)
  reducesTo_S360x200_S_d0_1 : S360x200.ReducesTo [0, 1] S_
  bcast_S_S200 : S_.BroadcastsInDim S200 (![] : Fin 0 → Fin S200.rank)
  reducesTo_S200_S_d0 : S200.ReducesTo [0] S_
  bcast_S_S200x3 : S_.BroadcastsInDim S200x3 (![] : Fin 0 → Fin S200x3.rank)
  reducesTo_S200x3_S_d0_1 : S200x3.ReducesTo [0, 1] S_
  bcast_S_S3 : S_.BroadcastsInDim S3 (![] : Fin 0 → Fin S3.rank)
  reducesTo_S3_S_d0 : S3.ReducesTo [0] S_
  bcast_S_S4096 : S_.BroadcastsInDim S4096 (![] : Fin 0 → Fin S4096.rank)
  reducesTo_S4096_S_d0 : S4096.ReducesTo [0] S_
  bcast_S_S4096x3 : S_.BroadcastsInDim S4096x3 (![] : Fin 0 → Fin S4096x3.rank)
  reducesTo_S4096x3_S_d0_1 : S4096x3.ReducesTo [0, 1] S_

variable [Facts]

def fn_part2 {F : FTy → Type} [FloatOps F] (main_arg6 : IVec S4096x3 32) (main_v31 : IVec S_ 1) (main_v32 : IVec S4096x3 32) : IVec S_ 1 :=
  let main_v33 : IVec S4096x3 1 := cmpi .sge main_arg6 main_v32
  let main_c_13 : IVec S_ 1 := constantI S_ 1 1#1
  let main_v34 : IVec S_ 1 := (fun x v => Host.reduce IntOp.andi x v reducesTo_S4096x3_S_d0_1 h_S_) main_v33 main_c_13
  let main_v35 : IVec S_ 1 := andi main_v31 main_v34
  let main_c_14 : IVec S_ 32 := constantI S_ 32 127#32
  let main_v36 : IVec S4096x3 32 := broadcastInDim S4096x3 ![] bcast_S_S4096x3 main_c_14
  let main_v37 : IVec S4096x3 1 := cmpi .sle main_arg6 main_v36
  let main_c_15 : IVec S_ 1 := constantI S_ 1 1#1
  let main_v38 : IVec S_ 1 := (fun x v => Host.reduce IntOp.andi x v reducesTo_S4096x3_S_d0_1 h_S_) main_v37 main_c_15
  let main_v39 : IVec S_ 1 := andi main_v35 main_v38
  main_v39

def fn_part1 {F : FTy → Type} [FloatOps F] (main_arg4 : FVec F S3 .f32) (main_arg5 : IVec S4096 32) (main_arg6 : IVec S4096x3 32) (main_v13 : IVec S_ 1) (main_v16 : IVec S200x3 1) : IVec S_ 1 :=
  let main_c_5 : IVec S_ 1 := constantI S_ 1 1#1
  let main_v17 : IVec S_ 1 := (fun x v => Host.reduce IntOp.andi x v reducesTo_S200x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg5 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 125#32
  let main_v28 : IVec S4096 32 := broadcastInDim S4096 ![] bcast_S_S4096 main_c_10
  let main_v29 : IVec S4096 1 := cmpi .sle main_arg5 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  let main_c_12 : IVec S_ 32 := constantI S_ 32 0#32
  let main_v32 : IVec S4096x3 32 := broadcastInDim S4096x3 ![] bcast_S_S4096x3 main_c_12
  fn_part2 (F := F) main_arg6 main_v31 main_v32

def fn {F : FTy → Type} [FloatOps F] (main_arg0 : FVec F S4096x128x60 .f32) (main_arg1 : FVec F S360x200 .f32) (main_arg2 : FVec F S200 .f32) (main_arg3 : FVec F S200x3 .f32) (main_arg4 : FVec F S3 .f32) (main_arg5 : IVec S4096 32) (main_arg6 : IVec S4096x3 32) (main_arg7 : IVec S4096 32) : IVec S_ 1 :=
  let main_v0 : FVec F S4096x128x60 .f32 := Host.absf main_arg0
  let main_cst : FVec F S_ .f32 := constant S_ .f32 0x7F800000#32
  let main_v1 : FVec F S4096x128x60 .f32 := broadcastInDim S4096x128x60 ![] bcast_S_S4096x128x60 main_cst
  let main_v2 : IVec S4096x128x60 1 := cmpf .olt main_v0 main_v1
  let main_c : IVec S_ 1 := constantI S_ 1 1#1
  let main_v3 : IVec S_ 1 := (fun x v => Host.reduce IntOp.andi x v reducesTo_S4096x128x60_S_d0_1_2 h_S_) main_v2 main_c
  let main_v4 : FVec F S360x200 .f32 := Host.absf main_arg1
  let main_cst_0 : FVec F S_ .f32 := constant S_ .f32 0x7F800000#32
  let main_v5 : FVec F S360x200 .f32 := broadcastInDim S360x200 ![] bcast_S_S360x200 main_cst_0
  let main_v6 : IVec S360x200 1 := cmpf .olt main_v4 main_v5
  let main_c_1 : IVec S_ 1 := constantI S_ 1 1#1
  let main_v7 : IVec S_ 1 := (fun x v => Host.reduce IntOp.andi x v reducesTo_S360x200_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200x3 .f32 := Host.absf main_arg3
  let main_cst_4 : FVec F S_ .f32 := constant S_ .f32 0x7F800000#32
  let main_v15 : FVec F S200x3 .f32 := broadcastInDim S200x3 ![] bcast_S_S200x3 main_cst_4
  let main_v16 : IVec S200x3 1 := cmpf .olt main_v14 main_v15
  fn_part1 (F := F) main_arg4 main_arg5 main_arg6 main_v13 main_v16
-- ==== Kernel.lean ====
abbrev S4096x128x60 : Shape := ⟨3, ![4096, 128, 60]⟩
abbrev S360x200 : Shape := ⟨2, ![360, 200]⟩
abbrev S200 : Shape := ⟨1, ![200]⟩
abbrev S200x3 : Shape := ⟨2, ![200, 3]⟩
abbrev S3 : Shape := ⟨1, ![3]⟩
abbrev S4096 : Shape := ⟨1, ![4096]⟩
abbrev S4096x3 : Shape := ⟨2, ![4096, 3]⟩
abbrev S4096x1 : Shape := ⟨2, ![4096, 1]⟩
abbrev S1x3 : Shape := ⟨2, ![1, 3]⟩
abbrev S4096x6 : Shape := ⟨2, ![4096, 6]⟩
abbrev S_ : Shape := ⟨0, ![]⟩
abbrev S6x60x200 : Shape := ⟨3, ![6, 60, 200]⟩
abbrev S128x128x60 : Shape := ⟨3, ![128, 128, 60]⟩
abbrev S128x6 : Shape := ⟨2, ![128, 6]⟩
abbrev S128x3 : Shape := ⟨2, ![128, 3]⟩
abbrev S128x128 : Shape := ⟨2, ![128, 128]⟩
abbrev S128x200 : Shape := ⟨2, ![128, 200]⟩
abbrev S128x1 : Shape := ⟨2, ![128, 1]⟩
abbrev S128 : Shape := ⟨1, ![128]⟩
abbrev S128x128x1 : Shape := ⟨3, ![128, 128, 1]⟩
abbrev S128x60 : Shape := ⟨2, ![128, 60]⟩
abbrev S1x60x200 : Shape := ⟨3, ![1, 60, 200]⟩
abbrev S60x200 : Shape := ⟨2, ![60, 200]⟩
abbrev S1x200 : Shape := ⟨2, ![1, 200]⟩

abbrev nBuf : Space → Nat
  | .hbm => 59
  | .vmem => 10
  | .smem => 0
  | _ => 0

abbrev bufTy : (tb : Table) → Fin (tcTables nBuf tb) → BufTy
  | .hbm, ⟨0, _⟩ => ⟨S4096x128x60, .f32⟩
  | .hbm, ⟨1, _⟩ => ⟨S360x200, .f32⟩
  | .hbm, ⟨2, _⟩ => ⟨S200, .f32⟩
  | .hbm, ⟨3, _⟩ => ⟨S200x3, .f32⟩
  | .hbm, ⟨4, _⟩ => ⟨S3, .f32⟩
  | .hbm, ⟨5, _⟩ => ⟨S4096, .i32⟩
  | .hbm, ⟨6, _⟩ => ⟨S4096x3, .i32⟩
  | .hbm, ⟨7, _⟩ => ⟨S4096, .i32⟩
  | .hbm, ⟨8, _⟩ => ⟨S4096x1, .i32⟩
  | .hbm, ⟨9, _⟩ => ⟨S3, .i32⟩
  | .hbm, ⟨10, _⟩ => ⟨S1x3, .i32⟩
  | .hbm, ⟨11, _⟩ => ⟨S4096x3, .i32⟩
  | .hbm, ⟨12, _⟩ => ⟨S4096x3, .i32⟩
  | .hbm, ⟨13, _⟩ => ⟨S4096x3, .i32⟩
  | .hbm, ⟨14, _⟩ => ⟨S4096x6, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4096x6, .i32⟩
  | .hbm, ⟨19, _⟩ => ⟨S4096x6, .i32⟩
  | .hbm, ⟨20, _⟩ => ⟨S_, .i32⟩
  | .hbm, ⟨21, _⟩ => ⟨S4096x6, .i32⟩
  | .hbm, ⟨22, _⟩ => ⟨S4096x6, .i32⟩
  | .hbm, ⟨23, _⟩ => ⟨S6x60x200, .f32⟩
  | .hbm, ⟨24, _⟩ => ⟨S6x60x200, .bf16⟩
  | .hbm, ⟨25, _⟩ => ⟨S200x3, .bf16⟩
  | .hbm, ⟨26, _⟩ => ⟨S4096x3, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x3, .f32⟩
  | .hbm, ⟨58, _⟩ => ⟨S4096x3, .f32⟩
  | .local _ .vmem, ⟨0, _⟩ => ⟨S128x128x60, .f32⟩
  | .local _ .vmem, ⟨1, _⟩ => ⟨S128x128x60, .f32⟩
  | .local _ .vmem, ⟨2, _⟩ => ⟨S128x6, .i32⟩
  | .local _ .vmem, ⟨3, _⟩ => ⟨S128x6, .i32⟩
  | .local _ .vmem, ⟨4, _⟩ => ⟨S6x60x200, .bf16⟩
  | .local _ .vmem, ⟨5, _⟩ => ⟨S200, .f32⟩
  | .local _ .vmem, ⟨6, _⟩ => ⟨S200x3, .bf16⟩
  | .local _ .vmem, ⟨7, _⟩ => ⟨S3, .f32⟩
  | .local _ .vmem, ⟨8, _⟩ => ⟨S128x3, .f32⟩
  | .local _ .vmem, ⟨9, _⟩ => ⟨S128x3, .f32⟩
  | _, _ => ⟨S4096x128x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_cst_8 : Ref sig .tc := ⟨.hbm, 49, rfl⟩
abbrev main_cst_9 : Ref sig .tc := ⟨.hbm, 50, rfl⟩
abbrev main_call3_v0 : Ref sig .tc := ⟨.hbm, 51, rfl⟩
abbrev main_call3_v1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x60x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S4096_S4096x1_0 : S4096.BroadcastsInDim S4096x1 (![0] : Fin 1 → Fin S4096x1.rank)
  bcast_S3_S1x3_1 : S3.BroadcastsInDim S1x3 (![1] : Fin 1 → Fin S1x3.rank)
  bcast_S4096x1_S4096x3_0_1 : S4096x1.BroadcastsInDim S4096x3 (![0, 1] : Fin 2 → Fin S4096x3.rank)
  bcast_S1x3_S4096x3_0_1 : S1x3.BroadcastsInDim S4096x3 (![0, 1] : Fin 2 → Fin S4096x3.rank)
  concatenates_S4096x3_S4096x3_S4096x6_d1 : Shape.Concatenates [S4096x3, S4096x3] S4096x6 1
  bcast_S_S4096x6 : S_.BroadcastsInDim S4096x6 (![] : Fin 0 → Fin S4096x6.rank)
  shapeCasts_S360x200_S6x60x200 : S360x200.ShapeCasts S6x60x200
  bitsLt_bf16_f32 : FTy.bits .bf16 < FTy.bits .f32
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S128x128x60_S128x128x60_0_0_0 : ∀ a, (![0, 0, 0] : Fin 3 → Nat) a + S128x128x60.size a ≤ S128x128x60.size a
  h_S128x128x60 : 0 < S128x128x60.numel
  iota_S128x128_d1_w32 : S128x128.Iotas .tc 32 [1]
  slices_S128x6_o0_0_S128x1 : S128x6.Slices ![0, 0] S128x1
  shapeCasts_S128x1_S128 : S128x1.ShapeCasts S128
  shapeCasts_S128_S128x1 : S128.ShapeCasts S128x1
  broadcasts_S128x1_S128x128 : S128x1.Broadcasts S128x128
  natLt_1_32 : 1 < 32
  shapeCasts_S128x128_S128x128x1 : S128x128.ShapeCasts S128x128x1
  broadcasts_S128x128x1_S128x128x60 : S128x128x1.Broadcasts S128x128x60
  reduces_S128x128x60_S128x60 : S128x128x60.Reduces [1] S128x60
  inb_S6x60x200_S1x60x200_0_0_0 : ∀ a, (![0, 0, 0] : Fin 3 → Nat) a + S1x60x200.size a ≤ S6x60x200.size a
  h_S1x60x200 : 0 < S1x60x200.numel
  shapeCasts_S1x60x200_S60x200 : S1x60x200.ShapeCasts S60x200
  slices_S128x6_o0_1_S128x1 : S128x6.Slices ![0, 1] S128x1
  inb_S6x60x200_S1x60x200_1_0_0 : ∀ a, (![1, 0, 0] : Fin 3 → Nat) a + S1x60x200.size a ≤ S6x60x200.size a
  slices_S128x6_o0_2_S128x1 : S128x6.Slices ![0, 2] S128x1
  inb_S6x60x200_S1x60x200_2_0_0 : ∀ a, (![2, 0, 0] : Fin 3 → Nat) a + S1x60x200.size a ≤ S6x60x200.size a
  slices_S128x6_o0_3_S128x1 : S128x6.Slices ![0, 3] S128x1
  inb_S6x60x200_S1x60x200_3_0_0 : ∀ a, (![3, 0, 0] : Fin 3 → Nat) a + S1x60x200.size a ≤ S6x60x200.size a
  slices_S128x6_o0_4_S128x1 : S128x6.Slices ![0, 4] S128x1
  inb_S6x60x200_S1x60x200_4_0_0 : ∀ a, (![4, 0, 0] : Fin 3 → Nat) a + S1x60x200.size a ≤ S6x60x200.size a
  slices_S128x6_o0_5_S128x1 : S128x6.Slices ![0, 5] S128x1
  inb_S6x60x200_S1x60x200_5_0_0 : ∀ a, (![5, 0, 0] : Fin 3 → Nat) a + S1x60x200.size a ≤ S6x60x200.size a
  inb_S200_S200_0 : ∀ a, (![0] : Fin 1 → Nat) a + S200.size a ≤ S200.size a
  h_S200 : 0 < S200.numel
  shapeCasts_S200_S1x200 : S200.ShapeCasts S1x200
  broadcasts_S1x200_S128x200 : S1x200.Broadcasts S128x200
  inb_S200x3_S200x3_0_0 : ∀ a, (![0, 0] : Fin 2 → Nat) a + S200x3.size a ≤ S200x3.size a
  h_S200x3 : 0 < S200x3.numel
  shapeCasts_S200x3_S200x3 : S200x3.ShapeCasts S200x3
  inb_S3_S3_0 : ∀ a, (![0] : Fin 1 → Nat) a + S3.size a ≤ S3.size a
  h_S3 : 0 < S3.numel
  shapeCasts_S3_S1x3 : S3.ShapeCasts S1x3
  broadcasts_S1x3_S128x3 : S1x3.Broadcasts S128x3
  inb_S128x3_S128x3_0_0 : ∀ a, (![0, 0] : Fin 2 → Nat) a + S128x3.size a ≤ S128x3.size a
  h_S128x3 : 0 < S128x3.numel
  bcast_S_S4096 : S_.BroadcastsInDim S4096 (![] : Fin 0 → Fin S4096.rank)
  concatenates_S4096x1_S4096x1_S4096x1_S4096x3_d1 : Shape.Concatenates [S4096x1, S4096x1, S4096x1] S4096x3 1
  dot_S128x60_S60x200_S128x200_1_0_0_1_n_n_wf : DotDims.WF S128x60 S60x200 S128x200 [1] [0] [0] [1] [] []
  dot_S128x200_S200x3_S128x3_1_0_0_1_n_n_wf : DotDims.WF S128x200 S200x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x60.size a ≤ S4096x128x60.size a
  hwx0_0 : ∀ i : grid0.Coords, EltTy.bits .f32 = 32 ∨ (Rect.block (s := S4096x128x60) S128x128x60.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x6.size a ≤ S4096x6.size a
  hwx0_1 : ∀ i : grid0.Coords, EltTy.bits .i32 = 32 ∨ (Rect.block (s := S4096x6) S128x6.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x60x200.size a ≤ S6x60x200.size a
  hwx0_2 : ∀ i : grid0.Coords, EltTy.bits .bf16 = 32 ∨ (Rect.block (s := S6x60x200) S6x60x200.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200.size a ≤ S200.size a
  hwx0_3 : ∀ i : grid0.Coords, EltTy.bits .f32 = 32 ∨ (Rect.block (s := S200) S200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x3.size a ≤ S200x3.size a
  hwx0_4 : ∀ i : grid0.Coords, EltTy.bits .bf16 = 32 ∨ (Rect.block (s := S200x3) S200x3.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3.size a ≤ S3.size a
  hwx0_5 : ∀ i : grid0.Coords, EltTy.bits .f32 = 32 ∨ (Rect.block (s := S3) S3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x3.size a ≤ S4096x3.size a
  hwx0_6 : ∀ i : grid0.Coords, EltTy.bits .f32 = 32 ∨ (Rect.block (s := S4096x3) S128x3.size (cc0_transform_6 i) (hinb0_6 i)).WholeWords (EltTy.packing .f32)

variable [Facts₀]

def dot_S128x60_S60x200_S128x200_1_0_0_1_n_n : DotDims S128x60 S60x200 S128x200 where
  lhsContracting := [1]
  rhsContracting := [0]
  lhsNonContracting := [0]
  rhsNonContracting := [1]
  lhsBatch := []
  rhsBatch := []
  wf := dot_S128x60_S60x200_S128x200_1_0_0_1_n_n_wf
def dot_S128x200_S200x3_S128x3_1_0_0_1_n_n : DotDims S128x200 S200x3 S128x3 where
  lhsContracting := [1]
  rhsContracting := [0]
  lhsNonContracting := [0]
  rhsNonContracting := [1]
  lhsBatch := []
  rhsBatch := []
  wf := dot_S128x200_S200x3_S128x3_1_0_0_1_n_n_wf

abbrev win0_0 : Pipeline.Window sig grid0 :=
  Pipeline.Window.ofSpec (Memref.whole main_arg0) S128x128x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S6x60x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S200x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128x60 : Shape := ⟨3, ![4096, 128, 60]⟩
abbrev S360x200 : Shape := ⟨2, ![360, 200]⟩
abbrev S200 : Shape := ⟨1, ![200]⟩
abbrev S200x3 : Shape := ⟨2, ![200, 3]⟩
abbrev S3 : Shape := ⟨1, ![3]⟩
abbrev S4096 : Shape := ⟨1, ![4096]⟩
abbrev S4096x3 : Shape := ⟨2, ![4096, 3]⟩
abbrev S4096x1 : Shape := ⟨2, ![4096, 1]⟩
abbrev S1x3 : Shape := ⟨2, ![1, 3]⟩
abbrev S4096x3x1 : Shape := ⟨3, ![4096, 3, 1]⟩
abbrev S_ : Shape := ⟨0, ![]⟩
abbrev S1 : Shape := ⟨1, ![1]⟩
abbrev S1x1x1 : Shape := ⟨3, ![1, 1, 1]⟩
abbrev S4096x3x60 : Shape := ⟨3, ![4096, 3, 60]⟩
abbrev S4096x180 : Shape := ⟨2, ![4096, 180]⟩
abbrev S4096x360 : Shape := ⟨2, ![4096, 360]⟩
abbrev S4096x200 : Shape := ⟨2, ![4096, 200]⟩
abbrev S1x200 : Shape := ⟨2, ![1, 200]⟩

abbrev nBuf : Space → Nat
  | .hbm => 106
  | .vmem => 0
  | .smem => 0
  | _ => 0

abbrev bufTy : (tb : Table) → Fin (tcTables nBuf tb) → BufTy
  | .hbm, ⟨0, _⟩ => ⟨S4096x128x60, .f32⟩
  | .hbm, ⟨1, _⟩ => ⟨S360x200, .f32⟩
  | .hbm, ⟨2, _⟩ => ⟨S200, .f32⟩
  | .hbm, ⟨3, _⟩ => ⟨S200x3, .f32⟩
  | .hbm, ⟨4, _⟩ => ⟨S3, .f32⟩
  | .hbm, ⟨5, _⟩ => ⟨S4096, .i32⟩
  | .hbm, ⟨6, _⟩ => ⟨S4096x3, .i32⟩
  | .hbm, ⟨7, _⟩ => ⟨S4096, .i32⟩
  | .hbm, ⟨8, _⟩ => ⟨S4096x1, .i32⟩
  | .hbm, ⟨9, _⟩ => ⟨S3, .i32⟩
  | .hbm, ⟨10, _⟩ => ⟨S1x3, .i32⟩
  | .hbm, ⟨11, _⟩ => ⟨S4096x3, .i32⟩
  | .hbm, ⟨12, _⟩ => ⟨S4096x3, .i32⟩
  | .hbm, ⟨13, _⟩ => ⟨S4096x3, .i32⟩
  | .hbm, ⟨14, _⟩ => ⟨S4096x3x1, .i32⟩
  | .hbm, ⟨15, _⟩ => ⟨S_, .i32⟩
  | .hbm, ⟨16, _⟩ => ⟨S4096x3x1, .i32⟩
  | .hbm, ⟨17, _⟩ => ⟨S4096x3x1, .i1⟩
  | .hbm, ⟨18, _⟩ => ⟨S_, .i32⟩
  | .hbm, ⟨19, _⟩ => ⟨S4096x3x1, .i32⟩
  | .hbm, ⟨20, _⟩ => ⟨S4096x3x1, .i32⟩
  | .hbm, ⟨21, _⟩ => ⟨S4096x3x1, .i32⟩
  | .hbm, ⟨22, _⟩ => ⟨S1, .i32⟩
  | .hbm, ⟨23, _⟩ => ⟨S_, .i32⟩
  | .hbm, ⟨24, _⟩ => ⟨S4096x3x1, .i32⟩
  | .hbm, ⟨25, _⟩ => ⟨S4096x3x1, .i1⟩
  | .hbm, ⟨26, _⟩ => ⟨S1x1x1, .i32⟩
  | .hbm, ⟨27, _⟩ => ⟨S4096x3x1, .i32⟩
  | .hbm, ⟨28, _⟩ => ⟨S4096x3x1, .i1⟩
  | .hbm, ⟨29, _⟩ => ⟨S4096x3x1, .i1⟩
  | .hbm, ⟨30, _⟩ => ⟨S_, .i1⟩
  | .hbm, ⟨31, _⟩ => ⟨S4096x3, .i1⟩
  | .hbm, ⟨32, _⟩ => ⟨S4096x3x60, .f32⟩
  | .hbm, ⟨33, _⟩ => ⟨S4096x3x60, .i1⟩
  | .hbm, ⟨34, _⟩ => ⟨S_, .f32⟩
  | .hbm, ⟨35, _⟩ => ⟨S4096x3x60, .f32⟩
  | .hbm, ⟨36, _⟩ => ⟨S4096x3x60, .f32⟩
  | .hbm, ⟨37, _⟩ => ⟨S4096x180, .f32⟩
  | .hbm, ⟨38, _⟩ => ⟨S4096x3x1, .i32⟩
  | .hbm, ⟨39, _⟩ => ⟨S_, .i32⟩
  | .hbm, ⟨40, _⟩ => ⟨S4096x3x1, .i32⟩
  | .hbm, ⟨41, _⟩ => ⟨S4096x3x1, .i1⟩
  | .hbm, ⟨42, _⟩ => ⟨S_, .i32⟩
  | .hbm, ⟨43, _⟩ => ⟨S4096x3x1, .i32⟩
  | .hbm, ⟨44, _⟩ => ⟨S4096x3x1, .i32⟩
  | .hbm, ⟨45, _⟩ => ⟨S4096x3x1, .i32⟩
  | .hbm, ⟨46, _⟩ => ⟨S1, .i32⟩
  | .hbm, ⟨47, _⟩ => ⟨S_, .i32⟩
  | .hbm, ⟨48, _⟩ => ⟨S4096x3x1, .i32⟩
  | .hbm, ⟨49, _⟩ => ⟨S4096x3x1, .i1⟩
  | .hbm, ⟨50, _⟩ => ⟨S1x1x1, .i32⟩
  | .hbm, ⟨51, _⟩ => ⟨S4096x3x1, .i32⟩
  | .hbm, ⟨52, _⟩ => ⟨S4096x3x1, .i1⟩
  | .hbm, ⟨53, _⟩ => ⟨S4096x3x1, .i1⟩
  | .hbm, ⟨54, _⟩ => ⟨S_, .i1⟩
  | .hbm, ⟨55, _⟩ => ⟨S4096x3, .i1⟩
  | .hbm, ⟨56, _⟩ => ⟨S4096x3x60, .f32⟩
  | .hbm, ⟨57, _⟩ => ⟨S4096x3x60, .i1⟩
  | .hbm, ⟨58, _⟩ => ⟨S_, .f32⟩
  | .hbm, ⟨59, _⟩ => ⟨S4096x3x60, .f32⟩
  | .hbm, ⟨60, _⟩ => ⟨S4096x3x60, .f32⟩
  | .hbm, ⟨61, _⟩ => ⟨S4096x180, .f32⟩
  | .hbm, ⟨62, _⟩ => ⟨S4096x360, .f32⟩
  | .hbm, ⟨63, _⟩ => ⟨S4096x200, .f32⟩
  | .hbm, ⟨64, _⟩ => ⟨S1x200, .f32⟩
  | .hbm, ⟨65, _⟩ => ⟨S4096x200, .f32⟩
  | .hbm, ⟨66, _⟩ => ⟨S4096x200, .f32⟩
  | .hbm, ⟨67, _⟩ => ⟨S_, .f32⟩
  | .hbm, ⟨68, _⟩ => ⟨S4096x200, .f32⟩
  | .hbm, ⟨69, _⟩ => ⟨S4096x200, .f32⟩
  | .hbm, ⟨70, _⟩ => ⟨S4096x3, .f32⟩
  | .hbm, ⟨71, _⟩ => ⟨S1x3, .f32⟩
  | .hbm, ⟨72, _⟩ => ⟨S4096x3, .f32⟩
  | .hbm, ⟨73, _⟩ => ⟨S4096x3, .f32⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S_, .i32⟩
  | .hbm, ⟨78, _⟩ => ⟨S4096, .i32⟩
  | .hbm, ⟨79, _⟩ => ⟨S4096, .i1⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S_, .i32⟩
  | .hbm, ⟨86, _⟩ => ⟨S4096, .i32⟩
  | .hbm, ⟨87, _⟩ => ⟨S4096, .i1⟩
  | .hbm, ⟨88, _⟩ => ⟨S_, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S_, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S4096, .f32⟩
  | .hbm, ⟨101, _⟩ => ⟨S4096x1, .f32⟩
  | .hbm, ⟨102, _⟩ => ⟨S4096x1, .f32⟩
  | .hbm, ⟨103, _⟩ => ⟨S4096x1, .f32⟩
  | .hbm, ⟨104, _⟩ => ⟨S4096x3, .f32⟩
  | .hbm, ⟨105, _⟩ => ⟨S4096x3, .f32⟩
  | _, _ => ⟨S4096x128x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_call2_cst : Ref sig .tc := ⟨.hbm, 67, rfl⟩
abbrev main_call2_v0 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_c : Ref sig .tc := ⟨.hbm, 74, rfl⟩
abbrev main_v22 : Ref sig .tc := ⟨.hbm, 75, rfl⟩
abbrev main_v23 : Ref sig .tc := ⟨.hbm, 76, rfl⟩
abbrev main_c_0 : Ref sig .tc := ⟨.hbm, 77, rfl⟩
abbrev main_v24 : Ref sig .tc := ⟨.hbm, 78, rfl⟩
abbrev main_v25 : Ref sig .tc := ⟨.hbm, 79, rfl⟩
abbrev main_cst : Ref sig .tc := ⟨.hbm, 80, rfl⟩
abbrev main_cst_1 : Ref sig .tc := ⟨.hbm, 81, rfl⟩
abbrev main_call3_v0 : Ref sig .tc := ⟨.hbm, 82, rfl⟩
abbrev main_call3_v1 : Ref sig .tc := ⟨.hbm, 83, rfl⟩
abbrev main_v26 : Ref sig .tc := ⟨.hbm, 84, rfl⟩
abbrev main_c_2 : Ref sig .tc := ⟨.hbm, 85, rfl⟩
abbrev main_v27 : Ref sig .tc := ⟨.hbm, 86, rfl⟩
abbrev main_v28 : Ref sig .tc := ⟨.hbm, 87, rfl⟩
abbrev main_cst_3 : Ref sig .tc := ⟨.hbm, 88, rfl⟩
abbrev main_cst_4 : Ref sig .tc := ⟨.hbm, 89, rfl⟩
abbrev main_call4_v0 : Ref sig .tc := ⟨.hbm, 90, rfl⟩
abbrev main_call4_v1 : Ref sig .tc := ⟨.hbm, 91, rfl⟩
abbrev main_v29 : Ref sig .tc := ⟨.hbm, 92, rfl⟩
abbrev main_c_5 : Ref sig .tc := ⟨.hbm, 93, rfl⟩
abbrev main_v30 : Ref sig .tc := ⟨.hbm, 94, rfl⟩
abbrev main_v31 : Ref sig .tc := ⟨.hbm, 95, rfl⟩
abbrev main_cst_6 : Ref sig .tc := ⟨.hbm, 96, rfl⟩
abbrev main_cst_7 : Ref sig .tc := ⟨.hbm, 97, rfl⟩
abbrev main_call5_v0 : Ref sig .tc := ⟨.hbm, 98, rfl⟩
abbrev main_call5_v1 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S3_S1x3_1 : S3.BroadcastsInDim S1x3 (![1] : Fin 1 → Fin S1x3.rank)
  bcast_S4096x1_S4096x3_0_1 : S4096x1.BroadcastsInDim S4096x3 (![0, 1] : Fin 2 → Fin S4096x3.rank)
  bcast_S1x3_S4096x3_0_1 : S1x3.BroadcastsInDim S4096x3 (![0, 1] : Fin 2 → Fin S4096x3.rank)
  bcast_S4096x3_S4096x3x1_0_1 : S4096x3.BroadcastsInDim S4096x3x1 (![0, 1] : Fin 2 → Fin S4096x3x1.rank)
  bcast_S_S4096x3x1 : S_.BroadcastsInDim S4096x3x1 (![] : Fin 0 → Fin S4096x3x1.rank)
  bcast_S1_S1x1x1_2 : S1.BroadcastsInDim S1x1x1 (![2] : Fin 1 → Fin S1x1x1.rank)
  bcast_S1x1x1_S4096x3x1_0_1_2 : S1x1x1.BroadcastsInDim S4096x3x1 (![0, 1, 2] : Fin 3 → Fin S4096x3x1.rank)
  reducesTo_S4096x3x1_S4096x3_d2 : S4096x3x1.ReducesTo [2] S4096x3
  h_S_ : 0 < S_.numel
  bcast_S4096x3_S4096x3x60_0_1 : S4096x3.BroadcastsInDim S4096x3x60 (![0, 1] : Fin 2 → Fin S4096x3x60.rank)
  bcast_S_S4096x3x60 : S_.BroadcastsInDim S4096x3x60 (![] : Fin 0 → Fin S4096x3x60.rank)
  shapeCasts_S4096x3x60_S4096x180 : S4096x3x60.ShapeCasts S4096x180
  concatenates_S4096x180_S4096x180_S4096x360_d1 : Shape.Concatenates [S4096x180, S4096x180] S4096x360 1
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  bcast_S_S4096 : S_.BroadcastsInDim S4096 (![] : Fin 0 → Fin S4096.rank)
  concatenates_S4096x1_S4096x1_S4096x1_S4096x3_d1 : Shape.Concatenates [S4096x1, S4096x1, S4096x1] S4096x3 1
  gather_S4096x128x60_S4096x3x1_S4096x3x60_2_1_0_0_1_2_1160_wf : GatherDims.WF S4096x128x60 S4096x3x1 S4096x3x60 [2] [1] [0] [1] [0] 2 ![1, 1, 60]
  dot_S4096x360_S360x200_S4096x200_1_0_0_1_n_n_wf : DotDims.WF S4096x360 S360x200 S4096x200 [1] [0] [0] [1] [] []
  dot_S4096x200_S200x3_S4096x3_1_0_0_1_n_n_wf : DotDims.WF S4096x200 S200x3 S4096x3 [1] [0] [0] [1] [] []

variable [Facts₀]

def gather_S4096x128x60_S4096x3x1_S4096x3x60_2_1_0_0_1_2_1160 : GatherDims S4096x128x60 S4096x3x1 S4096x3x60 where
  offsetDims := [2]
  collapsedSliceDims := [1]
  operandBatchingDims := [0]
  startIndicesBatchingDims := [0]
  startIndexMap := [1]
  indexVectorDim := 2
  sliceSizes := ![1, 1, 60]
  wf := gather_S4096x128x60_S4096x3x1_S4096x3x60_2_1_0_0_1_2_1160_wf
def dot_S4096x360_S360x200_S4096x200_1_0_0_1_n_n : DotDims S4096x360 S360x200 S4096x200 where
  lhsContracting := [1]
  rhsContracting := [0]
  lhsNonContracting := [0]
  rhsNonContracting := [1]
  lhsBatch := []
  rhsBatch := []
  wf := dot_S4096x360_S360x200_S4096x200_1_0_0_1_n_n_wf
def dot_S4096x200_S200x3_S4096x3_1_0_0_1_n_n : DotDims S4096x200 S200x3 S4096x3 where
  lhsContracting := [1]
  rhsContracting := [0]
  lhsNonContracting := [0]
  rhsNonContracting := [1]
  lhsBatch := []
  rhsBatch := []
  wf := dot_S4096x200_S200x3_S4096x3_1_0_0_1_n_n_wf

class Facts : Prop extends Facts₀ where

variable [Facts]
-- ==== Proof.KEntryB.lean ====
/-
  The contents of the TensorCore's buffers when the one region is entered: the launch memory after the host lines
  before the region (the six index words per state built and clamped, the first weight re-laid as six 60 x 200
  slices, both weights' formats changed).
-/
import proofs.«404969_j24275155157382_3_alg».proof.Proof.Gen.Kernel.Launch

noncomputable section

namespace Cert.Kernel.Fr

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s buffer contents at the region's entry, as a valuation. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

end Cert.Kernel.Fr

end
-- ==== Proof.KOutB.lean ====
/-
  What one grid point's body leaves in the result window's staging buffer, as one term of the six input blocks:
  the body's single store (of the whole 128 x 3 block) holds the payload of the loaded blocks — the 128 x 6 index
  words, the 128 x 128 x 60 slab block, the six 60 x 200 slices of the first weight, the first bias, the second
  weight, the second bias.
-/
import proofs.«404969_j24275155157382_3_alg».proof.Proof.Gen.Kernel.Skeleton
import Idealize.ShloMosaic.Lib.Pipeline.FrameBody

set_option maxRecDepth 16384

noncomputable section

namespace Cert.Kernel.Fr

open Idealize.ShloMosaic Idealize.ShloMosaic.TcCoe
open Cert.Kernel Cert.Kernel.Gen

variable {F : FTy → Type} [FloatOps F]

/-! ## The rectangles the body reads and writes: each a whole buffer, or one 60 x 200 slice of the first weight -/

abbrev rIdx : Rect S128x6 := Rect.unit (s := S128x6) ![0, 0] S128x6.size inb_S128x6_S128x6_0_0
abbrev rSlab : Rect S128x128x60 := Rect.unit (s := S128x128x60) ![0, 0, 0] S128x128x60.size inb_S128x128x60_S128x128x60_0_0_0
abbrev rW0 : Rect S6x60x200 := Rect.unit (s := S6x60x200) ![0, 0, 0] S1x60x200.size inb_S6x60x200_S1x60x200_0_0_0
abbrev rW1 : Rect S6x60x200 := Rect.unit (s := S6x60x200) ![1, 0, 0] S1x60x200.size inb_S6x60x200_S1x60x200_1_0_0
abbrev rW2 : Rect S6x60x200 := Rect.unit (s := S6x60x200) ![2, 0, 0] S1x60x200.size inb_S6x60x200_S1x60x200_2_0_0
abbrev rW3 : Rect S6x60x200 := Rect.unit (s := S6x60x200) ![3, 0, 0] S1x60x200.size inb_S6x60x200_S1x60x200_3_0_0
abbrev rW4 : Rect S6x60x200 := Rect.unit (s := S6x60x200) ![4, 0, 0] S1x60x200.size inb_S6x60x200_S1x60x200_4_0_0
abbrev rW5 : Rect S6x60x200 := Rect.unit (s := S6x60x200) ![5, 0, 0] S1x60x200.size inb_S6x60x200_S1x60x200_5_0_0
abbrev rB1 : Rect S200 := Rect.unit (s := S200) ![0] S200.size inb_S200_S200_0
abbrev rV : Rect S200x3 := Rect.unit (s := S200x3) ![0, 0] S200x3.size inb_S200x3_S200x3_0_0
abbrev rB2 : Rect S3 := Rect.unit (s := S3) ![0] S3.size inb_S3_S3_0
abbrev rOut : Rect S128x3 := Rect.unit (s := S128x3) ![0, 0] S128x3.size inb_S128x3_S128x3_0_0

/-- The stored block as a term of the loads: the payloads of the body's three parts composed (the accumulator after
    gathers 0 and 1, then after 2 and 3 with gather 4's rows, then the rest). -/
def storedBlock (x0 : Vec F S128x128x60 .f32) (x1 : Vec F S128x6 .i32) (x2 : Vec F S6x60x200 .bf16) (x3 : Vec F S200 .f32)
    (x4 : Vec F S200x3 .bf16) (x5 : Vec F S3 .f32) : FVec F S128x3 .f32 :=
  k0_pay1 (k0_pay2 (View.ld x1 rIdx)) (k0_pay3 (View.ld x0 rSlab)) (iota .tc S128x128 32 [1] iota_S128x128_d1_w32)
    (k0_pay6 (k0_pay2 (View.ld x1 rIdx)) (k0_pay3 (View.ld x0 rSlab)) (iota .tc S128x128 32 [1] iota_S128x128_d1_w32)
      (k0_pay4 (View.ld x1 rIdx) (View.ld x0 rSlab) (View.ld x2 rW0) (View.ld x2 rW1)) (k0_pay5 (View.ld x1 rIdx))
      (View.ld x2 rW2) (View.ld x2 rW3))
    (k0_pay7 (k0_pay2 (View.ld x1 rIdx)) (k0_pay3 (View.ld x0 rSlab)) (iota .tc S128x128 32 [1] iota_S128x128_d1_w32))
    (View.ld x2 rW4) (View.ld x2 rW5) (View.ld x3 rB1) (View.ld x4 rV) (View.ld x5 rB2)

/-- The result window's staging buffer after the body: the canon of its one store. -/
def out0_6 (x0 : Vec F S128x128x60 .f32) (x1 : Vec F S128x6 .i32) (x2 : Vec F S6x60x200 .bf16) (x3 : Vec F S200 .f32)
    (x4 : Vec F S200x3 .bf16) (x5 : Vec F S3 .f32) : Vec F S128x3 .f32 :=
  View.canon [⟨rOut, storedBlock x0 x1 x2 x3 x4 x5⟩]

/-- The one store is of the whole buffer, so it covers it. -/
theorem cover0_6 (p0 : Vec F S128x3 .f32) (y : S128x3.Idx) :
    ∃ pc ∈ ([⟨rOut, p0⟩] : List (View.Piece (Elt F) S128x3 .f32)), y ∈ pc.1.set :=
  View.cover_of_tiled [⟨rOut, p0⟩] S128x3.size (by rfl) y

end Cert.Kernel.Fr

end
-- ==== Proof.FrameB.lean ====
/-
  The frame of the program: every weakly fair execution of @main terminates, faults nowhere, and leaves the eight
  argument arrays as launched.  @main is host lines, one region of 32 grid points, host lines.  At a point the body
  loads its six input blocks (and, unused, the result block), and stores the whole 128 x 3 result block once; so the
  result window's staging buffer after the body is one function of the input blocks (`out0_6`), the inputs' buffers
  are left as found, and the launch theorem for a region between two stretches of host lines gives the run.  No host
  line writes an argument array and the region writes only the result array, so each argument ends as launched.
-/
import proofs.«404969_j24275155157382_3_alg».proof.Proof.KEntryB
import proofs.«404969_j24275155157382_3_alg».proof.Proof.KOutB
import proofs.«404969_j24275155157382_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0, hostOps0_1, hostOps0_2] [hostOps1, hostOps1_1, hostOps1_2, hostOps1_3, hostOps1_4, hostOps1_5, hostOps1_6] (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the region's arrays and the buffers that bypass it only. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
set_option maxHeartbeats 1000000 in
/-- And each writes only its own result buffer, which is no array of the region. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_4, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_6, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's block index has not moved), for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's block index has not moved), for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's block index has not moved), for any proof data over the entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the entry contents, a run to the library's post (every array of the region at what the
    proof data compute, every other buffer as the later lines leave it) read at the argument arrays: a staged input
    is its array, any other argument is written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      ((h c).1 3).trans (((dats 0 c).arrAt_in 3 rfl _).trans ((hA c 3).trans (V_main_arg2 m c))),
      (((h c).2 main_arg3 (Pipeline.mem_restRefs_of main_arg3 (by decide) (by decide))).trans (W_main_arg3 m dats c)),
      ((h c).1 5).trans (((dats 0 c).arrAt_in 5 rfl _).trans ((hA c 5).trans (V_main_arg4 m c))),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-! ## The body's triple -/

set_option maxHeartbeats 4000000 in
/-- The body on whole staging memrefs, the six inputs' at contents `x0 … x5` and the result's at anything, runs to
    the continuation holding the inputs' as they were and the result's at `out0_6` of them. -/
theorem sound_kernel (c : Dev nD) (E : Set ℕ) (i : grid0.Coords) (arg1 : Memref sig .tc .vmem S128x128x60 .f32) (harg1 : arg1.IsWhole) (arg2 : Memref sig .tc .vmem S128x6 .i32) (harg2 : arg2.IsWhole) (arg3 : Memref sig .tc .vmem S6x60x200 .bf16) (harg3 : arg3.IsWhole) (arg4 : Memref sig .tc .vmem S200 .f32) (harg4 : arg4.IsWhole) (arg5 : Memref sig .tc .vmem S200x3 .bf16) (harg5 : arg5.IsWhole) (arg6 : Memref sig .tc .vmem S3 .f32) (harg6 : arg6.IsWhole) (arg7 : Memref sig .tc .vmem S128x3 .f32) (harg7 : arg7.IsWhole)
    (x0 : Vec F S128x128x60 .f32) (x1 : Vec F S128x6 .i32) (x2 : Vec F S6x60x200 .bf16) (x3 : Vec F S200 .f32) (x4 : Vec F S200x3 .bf16) (x5 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_gather_kernel i arg1 harg1 arg2 harg2 arg3 harg3 arg4 harg4 arg5 harg5 arg6 harg6 arg7 harg7) K := by
  simp only [cc0__mlp_gather_kernel_eq_skeleton]; unfold cc0__mlp_gather_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the one pipeline on core `c`: the arrays as the region finds them; after the body at point `t`
    each input's buffer at its block and the result's at `out0_6` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data compute and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.KEntryI.lean ====
/-
  The contents of the TensorCore's buffers when the one region is entered: the launch memory after the host lines
  before the region (the six index words per state built and clamped, the first weight re-laid as six 60 x 200
  slices, both weights' formats changed).
-/
import proofs.«404969_j24275155157382_3_alg».proof.Proof.Gen.KernelIdeal.Launch

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s buffer contents at the region's entry, as a valuation. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

end Cert.KernelIdeal.Fr

end
-- ==== Proof.KOutI.lean ====
/-
  What one grid point's body leaves in the result window's staging buffer, as one term of the six input blocks:
  the body's single store (of the whole 128 x 3 block) holds the payload of the loaded blocks — the 128 x 6 index
  words, the 128 x 128 x 60 slab block, the six 60 x 200 slices of the first weight, the first bias, the second
  weight, the second bias.
-/
import proofs.«404969_j24275155157382_3_alg».proof.Proof.Gen.KernelIdeal.Skeleton
import Idealize.ShloMosaic.Lib.Pipeline.FrameBody

set_option maxRecDepth 16384

noncomputable section

namespace Cert.KernelIdeal.Fr

open Idealize.ShloMosaic Idealize.ShloMosaic.TcCoe
open Cert.KernelIdeal Cert.KernelIdeal.Gen

variable {F : FTy → Type} [FloatOps F]

/-! ## The rectangles the body reads and writes: each a whole buffer, or one 60 x 200 slice of the first weight -/

abbrev rIdx : Rect S128x6 := Rect.unit (s := S128x6) ![0, 0] S128x6.size inb_S128x6_S128x6_0_0
abbrev rSlab : Rect S128x128x60 := Rect.unit (s := S128x128x60) ![0, 0, 0] S128x128x60.size inb_S128x128x60_S128x128x60_0_0_0
abbrev rW0 : Rect S6x60x200 := Rect.unit (s := S6x60x200) ![0, 0, 0] S1x60x200.size inb_S6x60x200_S1x60x200_0_0_0
abbrev rW1 : Rect S6x60x200 := Rect.unit (s := S6x60x200) ![1, 0, 0] S1x60x200.size inb_S6x60x200_S1x60x200_1_0_0
abbrev rW2 : Rect S6x60x200 := Rect.unit (s := S6x60x200) ![2, 0, 0] S1x60x200.size inb_S6x60x200_S1x60x200_2_0_0
abbrev rW3 : Rect S6x60x200 := Rect.unit (s := S6x60x200) ![3, 0, 0] S1x60x200.size inb_S6x60x200_S1x60x200_3_0_0
abbrev rW4 : Rect S6x60x200 := Rect.unit (s := S6x60x200) ![4, 0, 0] S1x60x200.size inb_S6x60x200_S1x60x200_4_0_0
abbrev rW5 : Rect S6x60x200 := Rect.unit (s := S6x60x200) ![5, 0, 0] S1x60x200.size inb_S6x60x200_S1x60x200_5_0_0
abbrev rB1 : Rect S200 := Rect.unit (s := S200) ![0] S200.size inb_S200_S200_0
abbrev rV : Rect S200x3 := Rect.unit (s := S200x3) ![0, 0] S200x3.size inb_S200x3_S200x3_0_0
abbrev rB2 : Rect S3 := Rect.unit (s := S3) ![0] S3.size inb_S3_S3_0
abbrev rOut : Rect S128x3 := Rect.unit (s := S128x3) ![0, 0] S128x3.size inb_S128x3_S128x3_0_0

/-- The stored block as a term of the loads: the payloads of the body's three parts composed (the accumulator after
    gathers 0 and 1, then after 2 and 3 with gather 4's rows, then the rest). -/
def storedBlock (x0 : Vec F S128x128x60 .f32) (x1 : Vec F S128x6 .i32) (x2 : Vec F S6x60x200 .bf16) (x3 : Vec F S200 .f32)
    (x4 : Vec F S200x3 .bf16) (x5 : Vec F S3 .f32) : FVec F S128x3 .f32 :=
  k0_pay1 (k0_pay2 (View.ld x1 rIdx)) (k0_pay3 (View.ld x0 rSlab)) (iota .tc S128x128 32 [1] iota_S128x128_d1_w32)
    (k0_pay6 (k0_pay2 (View.ld x1 rIdx)) (k0_pay3 (View.ld x0 rSlab)) (iota .tc S128x128 32 [1] iota_S128x128_d1_w32)
      (k0_pay4 (View.ld x1 rIdx) (View.ld x0 rSlab) (View.ld x2 rW0) (View.ld x2 rW1)) (k0_pay5 (View.ld x1 rIdx))
      (View.ld x2 rW2) (View.ld x2 rW3))
    (k0_pay7 (k0_pay2 (View.ld x1 rIdx)) (k0_pay3 (View.ld x0 rSlab)) (iota .tc S128x128 32 [1] iota_S128x128_d1_w32))
    (View.ld x2 rW4) (View.ld x2 rW5) (View.ld x3 rB1) (View.ld x4 rV) (View.ld x5 rB2)

/-- The result window's staging buffer after the body: the canon of its one store. -/
def out0_6 (x0 : Vec F S128x128x60 .f32) (x1 : Vec F S128x6 .i32) (x2 : Vec F S6x60x200 .bf16) (x3 : Vec F S200 .f32)
    (x4 : Vec F S200x3 .bf16) (x5 : Vec F S3 .f32) : Vec F S128x3 .f32 :=
  View.canon [⟨rOut, storedBlock x0 x1 x2 x3 x4 x5⟩]

/-- The one store is of the whole buffer, so it covers it. -/
theorem cover0_6 (p0 : Vec F S128x3 .f32) (y : S128x3.Idx) :
    ∃ pc ∈ ([⟨rOut, p0⟩] : List (View.Piece (Elt F) S128x3 .f32)), y ∈ pc.1.set :=
  View.cover_of_tiled [⟨rOut, p0⟩] S128x3.size (by rfl) y

end Cert.KernelIdeal.Fr

end
-- ==== Proof.FrameI.lean ====
/-
  The frame of the program: every weakly fair execution of @main terminates, faults nowhere, and leaves the eight
  argument arrays as launched.  @main is host lines, one region of 32 grid points, host lines.  At a point the body
  loads its six input blocks (and, unused, the result block), and stores the whole 128 x 3 result block once; so the
  result window's staging buffer after the body is one function of the input blocks (`out0_6`), the inputs' buffers
  are left as found, and the launch theorem for a region between two stretches of host lines gives the run.  No host
  line writes an argument array and the region writes only the result array, so each argument ends as launched.
-/
import proofs.«404969_j24275155157382_3_alg».proof.Proof.KEntryI
import proofs.«404969_j24275155157382_3_alg».proof.Proof.KOutI
import proofs.«404969_j24275155157382_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0, hostOps0_1, hostOps0_2] [hostOps1, hostOps1_1, hostOps1_2, hostOps1_3, hostOps1_4, hostOps1_5, hostOps1_6] (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the region's arrays and the buffers that bypass it only. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
set_option maxHeartbeats 1000000 in
/-- And each writes only its own result buffer, which is no array of the region. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_4, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_6, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's block index has not moved), for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's block index has not moved), for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's block index has not moved), for any proof data over the entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the entry contents, a run to the library's post (every array of the region at what the
    proof data compute, every other buffer as the later lines leave it) read at the argument arrays: a staged input
    is its array, any other argument is written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      ((h c).1 3).trans (((dats 0 c).arrAt_in 3 rfl _).trans ((hA c 3).trans (V_main_arg2 m c))),
      (((h c).2 main_arg3 (Pipeline.mem_restRefs_of main_arg3 (by decide) (by decide))).trans (W_main_arg3 m dats c)),
      ((h c).1 5).trans (((dats 0 c).arrAt_in 5 rfl _).trans ((hA c 5).trans (V_main_arg4 m c))),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-! ## The body's triple -/

set_option maxHeartbeats 4000000 in
/-- The body on whole staging memrefs, the six inputs' at contents `x0 … x5` and the result's at anything, runs to
    the continuation holding the inputs' as they were and the result's at `out0_6` of them. -/
theorem sound_kernel (c : Dev nD) (E : Set ℕ) (i : grid0.Coords) (arg1 : Memref sig .tc .vmem S128x128x60 .f32) (harg1 : arg1.IsWhole) (arg2 : Memref sig .tc .vmem S128x6 .i32) (harg2 : arg2.IsWhole) (arg3 : Memref sig .tc .vmem S6x60x200 .bf16) (harg3 : arg3.IsWhole) (arg4 : Memref sig .tc .vmem S200 .f32) (harg4 : arg4.IsWhole) (arg5 : Memref sig .tc .vmem S200x3 .bf16) (harg5 : arg5.IsWhole) (arg6 : Memref sig .tc .vmem S3 .f32) (harg6 : arg6.IsWhole) (arg7 : Memref sig .tc .vmem S128x3 .f32) (harg7 : arg7.IsWhole)
    (x0 : Vec F S128x128x60 .f32) (x1 : Vec F S128x6 .i32) (x2 : Vec F S6x60x200 .bf16) (x3 : Vec F S200 .f32) (x4 : Vec F S200x3 .bf16) (x5 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_gather_kernel i arg1 harg1 arg2 harg2 arg3 harg3 arg4 harg4 arg5 harg5 arg6 harg6 arg7 harg7) K := by
  simp only [cc0__mlp_gather_kernel_eq_skeleton]; unfold cc0__mlp_gather_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the one pipeline on core `c`: the arrays as the region finds them; after the body at point `t`
    each input's buffer at its block and the result's at `out0_6` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data compute and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KLegalI.lean ====
/-
  The second result, as a term of the two integer arguments it reads: per state three flags, one where the action is
  legal — a shift unless `buffer_index + 3 ≥ 128`, a left arc unless `stack_len ≤ 3`, a right arc unless
  `stack_len ≤ 4` — laid side by side as a 4096 x 3 array.  Both programs compute it by the same host lines.
-/
import proofs.«404969_j24275155157382_3_alg».proof.Proof.Gen.KernelIdeal

noncomputable section

namespace Cert.KernelIdeal.Fr

open Idealize.ShloMosaic Idealize.ShloMosaic.TcCoe
open Cert.KernelIdeal Cert.KernelIdeal.Gen

variable {F : FTy → Type} [FloatOps F]

/-- The legality flags of every state, from `buffer_index` (`a5`) and `stack_len` (`a7`). -/
def legalTerm (a5 : IVec S4096 32) (a7 : IVec S4096 32) : FVec F S4096x3 .f32 :=
  id (concatenate S4096x3 1 [⟨S4096x1, (broadcastInDim S4096x1 ![0] bcast_S4096_S4096x1_0 (select (cmpi .sge (addi a5 (broadcastInDim S4096 ![] bcast_S_S4096 (constantI S_ 32 3#32))) (broadcastInDim S4096 ![] bcast_S_S4096 (constantI S_ 32 128#32))) (broadcastInDim S4096 ![] bcast_S_S4096 (constant (F := F) S_ .f32 0x00000000#32)) (broadcastInDim S4096 ![] bcast_S_S4096 (constant (F := F) S_ .f32 0x3F800000#32))))⟩, ⟨S4096x1, (broadcastInDim S4096x1 ![0] bcast_S4096_S4096x1_0 (select (cmpi .sle a7 (broadcastInDim S4096 ![] bcast_S_S4096 (constantI S_ 32 3#32))) (broadcastInDim S4096 ![] bcast_S_S4096 (constant (F := F) S_ .f32 0x00000000#32)) (broadcastInDim S4096 ![] bcast_S_S4096 (constant (F := F) S_ .f32 0x3F800000#32))))⟩, ⟨S4096x1, (broadcastInDim S4096x1 ![0] bcast_S4096_S4096x1_0 (select (cmpi .sle a7 (broadcastInDim S4096 ![] bcast_S_S4096 (constantI S_ 32 4#32))) (broadcastInDim S4096 ![] bcast_S_S4096 (constant (F := F) S_ .f32 0x00000000#32)) (broadcastInDim S4096 ![] bcast_S_S4096 (constant (F := F) S_ .f32 0x3F800000#32))))⟩] concatenates_S4096x1_S4096x1_S4096x1_S4096x3_d1)

end Cert.KernelIdeal.Fr

end
-- ==== Proof.LibFlatten.lean ====
/-
  Layout operations of rank three read at an index given by coordinates, and the two operations that carry a sum:
  a stack of rows `[a, b, c]` flattened to `[a * b, c]` and back (row `p * b + q` of the flat array is row `(p, q)`
  of the stack), the three ways a smaller array is stretched over `[a, b, c]` (one row per `a`, one row for all, one
  column per `(a, b)`), the unit-axis casts that precede them, a sum over the middle axis, and a matrix product into
  a zero accumulator as the plain sum over the shared index.
-/
import Idealize.ShloMosaic.Lib.Pipeline.Value
import Idealize.ShloMosaic.Lib.ValueIdx
import Idealize.ShloMosaic.PureOps.Ideal.Laws

namespace Cert.LibFlatten

open Idealize.ShloMosaic Idealize.ShloMosaic.ValueIdx

variable {α : Type}

/-! ## A stack of rows flattened, and a flat array stacked -/

/-- `[a, b, c]` cast to `[n, c]` with `n = a * b`: row `p * b + q` of the result is row `(p, q)` of the operand. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (i : Fin n)
    (hi : i.val = p.val * b + q.val) :
    shapeCast ⟨2, ![n, c]⟩ x h (ix2 i r) = x (ix3 p q r) :=
  shapeCast_apply x h _ _ (by
    rw [Shape.rowMajor_val_three, Shape.rowMajor_val_two]
    show (p.val * b + q.val) * c + r.val = i.val * c + r.val
    rw [hi])

/-- `[n, c]` cast to `[a, b, c]` with `n = a * b`: row `(p, q)` of the result is row `p * b + q` of the operand. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (r : Fin c) (i : Fin n)
    (hi : i.val = p.val * b + q.val) :
    shapeCast ⟨3, ![a, b, c]⟩ y h (ix3 p q r) = y (ix2 i r) :=
  shapeCast_apply y h _ _ (by
    rw [Shape.rowMajor_val_three, Shape.rowMajor_val_two]
    show i.val * c + r.val = (p.val * b + q.val) * c + r.val
    rw [hi])

/-! ## Unit axes put in -/

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[c]` cast to `[1, 1, c]` reads, at `(u, u', r)`, the operand at `r`. -/
theorem shapeCast_c_11c_apply {c : ℕ} (x : (⟨1, ![c]⟩ : Shape).Idx → α)
    (h : (⟨1, ![c]⟩ : Shape).ShapeCasts ⟨3, ![1, 1, c]⟩) (u u' : Fin 1) (r : Fin c) :
    shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    simp [hu, hu'])

/-! ## A smaller array stretched over `[a, b, c]` -/

/-- `[a, 1, c]` broadcast to `[a, b, c]`: every `q` reads row `p`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, 1, c]` broadcast to `[a, b, c]`: every `(p, q)` reads the one row. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` broadcast to `[a, b, c]`: every lane `r` reads the entry of `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A sum over the middle axis -/

/-- The index a reduction of `[a, b, c]` over its middle axis puts back at `(p, r)` and summand `k` is `(p, k, r)`. -/
theorem lift_mid {a b c : ℕ} (h : (⟨3, ![a, b, c]⟩ : Shape).Reduces [1] ⟨2, ![a, c]⟩) (p : Fin a) (r : Fin c) (k : Fin b) :
    h.lift (ix2 p r) k = ix3 p k r :=
  funext fun ax => Fin.ext (by
    match ax with
    | ⟨0, _⟩ => rfl
    | ⟨1, _⟩ => rfl
    | ⟨2, _⟩ => rfl)

/-- A float sum of `[a, b, c]` over its middle axis, on the extended reals, at `(p, r)`: the sum over `k` of the
    entries `(p, k, r)`. -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  rw [Ideal.multiReduction_add_single]
  exact Finset.sum_congr rfl fun k _ => congrArg src (lift_mid h p r k)

/-! ## A matrix product into a zero accumulator -/

/-- `[M, K]` times `[K, N]` into the zero accumulator, on the extended reals, at `(p, q)`: the sum over the shared
    index of the products, whatever the precision key. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun ax => Fin.ext (by
      match ax with
      | ⟨0, _⟩ => exact ((DotDims.plain M K N).rhsIdx_val_of_single rfl (ix2 p q) _).trans hk
      | ⟨1, _⟩ => rfl)
  rw [el, er]

end Cert.LibFlatten
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.KPayload.lean ====
/-
  The kernel body's stored 128 x 3 block read at an index.  Each of the six gathers multiplies the 128 x 128 x 60
  slab by a mask that is 1 where the lane number equals the state's index word and 0 elsewhere, and sums over the
  128 lanes: exactly one lane below 128 carries a given word below 128, so the sum is the slab's row the word names.
  The six gathered 128 x 60 blocks are multiplied by the six 60 x 200 slices of the first weight and added up, the
  first bias is added, the result is clamped below at zero, multiplied by the second weight, and the second bias added.
-/
import proofs.«404969_j24275155157382_3_alg».proof.Proof.KOutI
import proofs.«404969_j24275155157382_3_alg».proof.Proof.LibFlatten
import proofs.«404969_j24275155157382_3_alg».proof.Proof.LibColumn
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin
import Mathlib.Algebra.BigOperators.Group.Finset.Basic
import Mathlib.Data.EReal.Basic

noncomputable section

namespace Cert.KPayload

open Idealize.ShloMosaic Idealize.ShloMosaic.ValueIdx
open Cert.KernelIdeal Cert.KernelIdeal.Gen Cert.KernelIdeal.Fr

/-! ## Sums: 360 = 6 x 60, and a sum against a one-hot mask -/

/-- A sum over 360 entries is the double sum over 6 blocks of 60: entry 60 * j + d is entry d of block j. -/
theorem sum_six_sixty (f : Fin 360 → EReal) :
    ∑ k : Fin 360, f k = ∑ j : Fin 6, ∑ d : Fin 60, f ⟨60 * j.val + d.val, by omega⟩ := by
  rw [← Fintype.sum_prod_type' (f := fun (j : Fin 6) (d : Fin 60) => f ⟨60 * j.val + d.val, by omega⟩)]
  refine (Fintype.sum_equiv (finProdFinEquiv (m := 6) (n := 60)) _ _ fun p => ?_).symm
  refine congrArg f (Fin.ext ?_)
  show 60 * p.1.val + p.2.val = p.2.val + 60 * p.1.val
  omega

/-- The mask's entry as a number: 1 when the two words are equal, 0 when they differ. -/
theorem mask_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h, IntOp.cmpi_eq.2 h]
    have e : ((1#1 : BitVec 1).setWidth 32).toInt = 1 := by decide
    rw [e]; norm_num
  · rw [if_neg h, eq_zero_of_ne_one (fun h1 => h (IntOp.cmpi_eq.1 h1))]
    have e : ((0#1 : BitVec 1).setWidth 32).toInt = 0 := by decide
    rw [e]; norm_num

/-- THE ONE-HOT SUM.  Over the lanes l < n (n at most 2 ^ 32), the sum of [word of l = w] * f l is f at the lane
    w names, when w is below n: one lane carries the word, the others contribute 0 * f l = 0 (at infinite f l too). -/
theorem sum_one_hot {n : ℕ} (hn : n ≤ 2 ^ 32) (w : BitVec 32) (hw : w.toNat < n) (f : Fin n → EReal) :
    ∑ l : Fin n, (if BitVec.ofNat 32 l.val = w then (1 : EReal) else 0) * f l = f ⟨w.toNat, hw⟩ := by
  rw [Finset.sum_eq_single (⟨w.toNat, hw⟩ : Fin n)]
  · rw [if_pos (BitVec.eq_of_toNat_eq (by rw [BitVec.toNat_ofNat]; exact Nat.mod_eq_of_lt w.isLt)), one_mul]
  · intro l _ hl
    rw [if_neg, zero_mul]
    intro h
    apply hl
    apply Fin.ext
    have e := congrArg BitVec.toNat h
    rw [BitVec.toNat_ofNat, Nat.mod_eq_of_lt (by have := l.isLt; omega)] at e
    exact e
  · intro h
    exact absurd (Finset.mem_univ _) h

/-! ## Layout steps of one gather, read at coordinates -/

/-- [a, b] cast to [a, b, 1] reads, at (p, q, u), the operand at (p, q). -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- Column j of the 128 x 6 block of words, cut out as a 128 x 1 column, reads at (r, 0) the word (r, j). -/
theorem column_apply (j : ℕ) (hj : j < 6) (v : IVec S128x6 32) (h : S128x6.Slices ![0, j] S128x1) (r : Fin 128) (u : Fin 1) :
    extractStridedSlice S128x1 ![0, j] v h (ix2 r u) = v (ix2 r ⟨j, hj⟩) :=
  extractStridedSlice_apply _ v h _ _ fun a => by
    match a with
    | ⟨0, _⟩ => show r.val = 0 + r.val; omega
    | ⟨1, _⟩ => show j = j + u.val; omega

/-- Slice j of the first weight, loaded as a 1 x 60 x 200 block, reads at (0, d, h) the weight at (j, d, h). -/
theorem ld_slice_apply (x2 : Vec Ideal S6x60x200 .bf16) (j : ℕ) (hj : j < 6)
    (inb : ∀ a, (![j, 0, 0] : Fin 3 → ℕ) a + S1x60x200.size a ≤ S6x60x200.size a) (u : Fin 1) (d : Fin 60) (h : Fin 200) :
    View.ld x2 (Rect.unit (s := S6x60x200) ![j, 0, 0] S1x60x200.size inb) (ix3 u d h) = x2 (ix3 ⟨j, hj⟩ d h) := by
  refine congrArg x2 (funext fun a => Fin.ext ?_)
  match a with
  | ⟨0, _⟩ => show j + 1 * u.val = j; omega
  | ⟨1, _⟩ => show 0 + 1 * d.val = d.val; omega
  | ⟨2, _⟩ => show 0 + 1 * h.val = h.val; omega

/-! ## One gather: mask, masked slab, lane sum -/

/-- The mask of one gather: at (r, l) the number 1 if the lane word of l is the word of row r of the column, else 0. -/
def mask (v4 : IVec S128x128 32) (c : IVec S128x1 32) : FVec Ideal S128x128 .bf16 :=
  truncf .bf16 (sitofp (F := Ideal) .f32 (extui 32 (cmpi .eq v4
    (broadcastTo S128x128 (shapeCast S128x1 (shapeCast S128 c shapeCasts_S128x1_S128) shapeCasts_S128_S128x1)
      broadcasts_S128x1_S128x128)) natLt_1_32)) bitsLt_bf16_f32

theorem mask_apply (c : IVec S128x1 32) (r l : Fin 128) :
    mask (iota .tc S128x128 32 [1] iota_S128x128_d1_w32) c (ix2 r l)
      = if BitVec.ofNat 32 l.val = c (ix2 r (0 : Fin 1)) then 1 else 0 := by
  show FloatOps.sitofp (F := Ideal) .f32 ((IntOp.cmpi .eq (iota .tc S128x128 32 [1] iota_S128x128_d1_w32 (ix2 r l))
    (broadcastTo S128x128 (shapeCast S128x1 (shapeCast S128 c shapeCasts_S128x1_S128) shapeCasts_S128_S128x1)
      broadcasts_S128x1_S128x128 (ix2 r l))).setWidth 32) = _
  rw [iota_single_apply, shapeCast_shapeCast, LibColumn.broadcastTo_a1_ab_apply, mask_entry]

/-- One gather: the lane sum of the mask, stretched over the 60 entries of a row, times the slab. -/
def gathered (v4 : IVec S128x128 32) (v3 : FVec Ideal S128x128x60 .bf16) (c : IVec S128x1 32) : FVec Ideal S128x60 .bf16 :=
  truncf .bf16 (multiReduction (F := Ideal) .add [1] S128x60 (extf .f32 (mulf
    (broadcastTo S128x128x60 (shapeCast S128x128x1 (mask v4 c) shapeCasts_S128x128_S128x128x1) broadcasts_S128x128x1_S128x128x60)
    v3) bitsLt_bf16_f32) 0x00000000#32 reduces_S128x128x60_S128x60 (.inl rfl) rfl) bitsLt_bf16_f32

/-- A gather reads, at (r, d), entry d of the slab's row that the word of row r names, when that word is below 128. -/
theorem gathered_apply (v3 : FVec Ideal S128x128x60 .bf16) (c : IVec S128x1 32) (r : Fin 128) (d : Fin 60)
    (hc : (c (ix2 r (0 : Fin 1))).toNat < 128) :
    gathered (iota .tc S128x128 32 [1] iota_S128x128_d1_w32) v3 c (ix2 r d)
      = v3 (ix3 r ⟨(c (ix2 r (0 : Fin 1))).toNat, hc⟩ d) := by
  unfold gathered
  refine (truncf_apply (φ := .f32) (ψ := .bf16) _ bitsLt_bf16_f32 (ix2 r d)).trans ?_
  refine (LibFlatten.multiReduction_add_mid_apply _ _ _ _ _ r d).trans ?_
  rw [← sum_one_hot (by norm_num) (c (ix2 r (0 : Fin 1))) hc (fun l => v3 (ix3 r l d))]
  refine Finset.sum_congr rfl fun l _ => ?_
  show (broadcastTo S128x128x60 (shapeCast S128x128x1 (mask _ c) shapeCasts_S128x128_S128x128x1)
    broadcasts_S128x128x1_S128x128x60 (ix3 r l d)) * v3 (ix3 r l d) = _
  rw [LibFlatten.broadcastTo_ab1_abc_apply, shapeCast_ab_ab1_apply, mask_apply]

/-! ## One gather times its slice of the first weight -/

/-- A 128 x 60 block times a loaded 1 x 60 x 200 slice, into a zero accumulator. -/
def mm (g : FVec Ideal S128x60 .bf16) (w : Vec Ideal S1x60x200 .bf16) : FVec Ideal S128x200 .f32 :=
  matmul dot_S128x60_S60x200_S128x200_1_0_0_1_n_n none g
    (shapeCast S60x200 w shapeCasts_S1x60x200_S60x200 : FVec Ideal S60x200 .bf16) (constant S128x200 .f32 0x00000000#32)

theorem mm_apply (g : FVec Ideal S128x60 .bf16) (w : Vec Ideal S1x60x200 .bf16) (r : Fin 128) (h : Fin 200) :
    mm g w (ix2 r h) = ∑ d : Fin 60, g (ix2 r d) * w (ix3 (0 : Fin 1) d h) := by
  show FloatOps.matmul (DotDims.plain 128 60 200) none g
    (shapeCast S60x200 w shapeCasts_S1x60x200_S60x200 : FVec Ideal S60x200 .bf16)
    (constant ⟨2, ![128, 200]⟩ .f32 0x00000000#32) (ix2 r h) = _
  rw [LibFlatten.matmul_plain_zero_apply]
  refine Finset.sum_congr rfl fun d _ => ?_
  rw [LibFlatten.shapeCast_abc_nc_apply w _ (0 : Fin 1) d h d (by simp)]

/-! ## The loads of whole buffers, and the identity payloads -/

theorem ld_idx (x1 : Vec Ideal S128x6 .i32) : View.ld x1 rIdx = x1 :=
  View.ld_unit_zero (funext fun a => by match a with | ⟨0, _⟩ => rfl | ⟨1, _⟩ => rfl) _ x1
theorem ld_slab (x0 : Vec Ideal S128x128x60 .f32) : View.ld x0 rSlab = x0 :=
  View.ld_unit_zero (funext fun a => by match a with | ⟨0, _⟩ => rfl | ⟨1, _⟩ => rfl | ⟨2, _⟩ => rfl) _ x0
theorem ld_b1 (x3 : Vec Ideal S200 .f32) : View.ld x3 rB1 = x3 :=
  View.ld_unit_zero (funext fun a => by match a with | ⟨0, _⟩ => rfl) _ x3
theorem ld_w2 (x4 : Vec Ideal S200x3 .bf16) : View.ld x4 rV = x4 :=
  View.ld_unit_zero (funext fun a => by match a with | ⟨0, _⟩ => rfl | ⟨1, _⟩ => rfl) _ x4
theorem ld_b2 (x5 : Vec Ideal S3 .f32) : View.ld x5 rB2 = x5 :=
  View.ld_unit_zero (funext fun a => by match a with | ⟨0, _⟩ => rfl) _ x5

/-- The word block cast to its own shape is itself. -/
theorem pay2_eq (x1 : Vec Ideal S128x6 .i32) : k0_pay2 (F := Ideal) x1 = x1 := shapeCast_self _ _

/-! ## Gather j times slice j, at (r, h) -/

theorem slot_apply (x0 : FVec Ideal S128x128x60 .bf16) (x1 : IVec S128x6 32) (x2 : Vec Ideal S6x60x200 .bf16)
    (hx1 : ∀ (r : Fin 128) (j : Fin 6), (x1 (ix2 r j)).toNat < 128)
    (j : Fin 6) (jn : ℕ) (hjn : jn = j.val) (hs : S128x6.Slices ![0, jn] S128x1)
    (inb : ∀ a, (![jn, 0, 0] : Fin 3 → ℕ) a + S1x60x200.size a ≤ S6x60x200.size a) (r : Fin 128) (h : Fin 200) :
    mm (gathered (iota .tc S128x128 32 [1] iota_S128x128_d1_w32) x0 (extractStridedSlice S128x1 ![0, jn] x1 hs))
        (View.ld x2 (Rect.unit (s := S6x60x200) ![jn, 0, 0] S1x60x200.size inb)) (ix2 r h)
      = ∑ d : Fin 60, x0 (ix3 r ⟨(x1 (ix2 r j)).toNat, hx1 r j⟩ d) * x2 (ix3 j d h) := by
  subst hjn
  rw [mm_apply]
  refine Finset.sum_congr rfl fun d _ => ?_
  have ec := column_apply j.val j.isLt x1 hs r (0 : Fin 1)
  have hc : (extractStridedSlice S128x1 ![0, j.val] x1 hs (ix2 r (0 : Fin 1))).toNat < 128 := by
    rw [ec]; exact hx1 r j
  have e : (⟨(extractStridedSlice S128x1 ![0, j.val] x1 hs (ix2 r (0 : Fin 1))).toNat, hc⟩ : Fin 128)
      = ⟨(x1 (ix2 r j)).toNat, hx1 r j⟩ := Fin.ext (congrArg BitVec.toNat ec)
  rw [gathered_apply x0 _ r d hc, ld_slice_apply x2 j.val j.isLt, e]

/-! ## The payloads as compositions of gathers and products -/

/-- Gather 4's rows. -/
theorem pay7_eq (v1 : IVec S128x6 32) (v3 : FVec Ideal S128x128x60 .bf16) (v4 : IVec S128x128 32) :
    k0_pay7 (F := Ideal) v1 v3 v4
      = gathered v4 v3 (extractStridedSlice S128x1 ![0, 4] v1 slices_S128x6_o0_4_S128x1) := rfl

/-- The accumulator after gathers 0 and 1: zero plus their two products. -/
theorem pay4_eq (v0 : Vec Ideal S128x6 .i32) (v2 : Vec Ideal S128x128x60 .f32) (v20 v38 : Vec Ideal S1x60x200 .bf16) :
    k0_pay4 (F := Ideal) v0 v2 v20 v38
      = addf (addf (broadcast S128x200 (Scalar.ofBits (F := Ideal) .f32 0x00000000#32))
          (mm (gathered (iota .tc S128x128 32 [1] iota_S128x128_d1_w32) (k0_pay3 v2)
            (extractStridedSlice S128x1 ![0, 0] (k0_pay2 (F := Ideal) v0) slices_S128x6_o0_0_S128x1)) v20))
          (mm (gathered (iota .tc S128x128 32 [1] iota_S128x128_d1_w32) (k0_pay3 v2)
            (extractStridedSlice S128x1 ![0, 1] (k0_pay2 (F := Ideal) v0) slices_S128x6_o0_1_S128x1)) v38) := rfl

/-- Column 2 of the word block. -/
theorem pay5_eq (v0 : Vec Ideal S128x6 .i32) :
    k0_pay5 (F := Ideal) v0 = extractStridedSlice S128x1 ![0, 2] (k0_pay2 (F := Ideal) v0) slices_S128x6_o0_2_S128x1 := rfl

/-- The accumulator after gathers 2 and 3. -/
theorem pay6_eq (v1 : IVec S128x6 32) (v3 : FVec Ideal S128x128x60 .bf16) (v4 : IVec S128x128 32) (v41 : FVec Ideal S128x200 .f32)
    (v42 : IVec S128x1 32) (v56 v74 : Vec Ideal S1x60x200 .bf16) :
    k0_pay6 (F := Ideal) v1 v3 v4 v41 v42 v56 v74
      = addf (addf v41 (mm (gathered v4 v3 v42) v56))
          (mm (gathered v4 v3 (extractStridedSlice S128x1 ![0, 3] v1 slices_S128x6_o0_3_S128x1)) v74) := rfl

/-- The hidden layer and the output layer over a finished accumulator: add the first bias, clamp below at zero, multiply
    by the second weight, add the second bias. -/
def head (acc : FVec Ideal S128x200 .f32) (b1 : Vec Ideal S200 .f32) (w2 : Vec Ideal S200x3 .bf16) (b2 : Vec Ideal S3 .f32) :
    FVec Ideal S128x3 .f32 :=
  addf (matmul dot_S128x200_S200x3_S128x3_1_0_0_1_n_n none
      (truncf .bf16 (maximumf (addf acc (broadcastTo S128x200
          (shapeCast S1x200 b1 shapeCasts_S200_S1x200 : FVec Ideal S1x200 .f32) broadcasts_S1x200_S128x200))
        (broadcast S128x200 (Scalar.ofBits (F := Ideal) .f32 0x00000000#32))) bitsLt_bf16_f32)
      (shapeCast S200x3 w2 shapeCasts_S200x3_S200x3 : FVec Ideal S200x3 .bf16) (constant S128x3 .f32 0x00000000#32))
    (broadcastTo S128x3 (shapeCast S1x3 b2 shapeCasts_S3_S1x3 : FVec Ideal S1x3 .f32) broadcasts_S1x3_S128x3)

/-- The stored block's payload: the last two products added, then the two layers. -/
theorem pay1_eq (v1 : IVec S128x6 32) (v3 : FVec Ideal S128x128x60 .bf16) (v4 : IVec S128x128 32) (v77 : FVec Ideal S128x200 .f32)
    (v91 : FVec Ideal S128x60 .bf16) (v92 v110 : Vec Ideal S1x60x200 .bf16) (v114 : Vec Ideal S200 .f32)
    (v121 : Vec Ideal S200x3 .bf16) (v124 : Vec Ideal S3 .f32) :
    k0_pay1 (F := Ideal) v1 v3 v4 v77 v91 v92 v110 v114 v121 v124
      = head (addf (addf v77 (mm v91 v92))
          (mm (gathered v4 v3 (extractStridedSlice S128x1 ![0, 5] v1 slices_S128x6_o0_5_S128x1)) v110)) v114 v121 v124 := rfl

theorem head_apply (acc : FVec Ideal S128x200 .f32) (b1 : Vec Ideal S200 .f32) (w2 : Vec Ideal S200x3 .bf16)
    (b2 : Vec Ideal S3 .f32) (r : Fin 128) (o : Fin 3) :
    head acc b1 w2 b2 (ix2 r o)
      = (∑ h : Fin 200, max (acc (ix2 r h) + b1 (ix1 h)) 0 * w2 (ix2 h o)) + b2 (ix1 o) := by
  show FloatOps.matmul (DotDims.plain 128 200 3) none
      (truncf .bf16 (maximumf (addf acc (broadcastTo S128x200
          (shapeCast S1x200 b1 shapeCasts_S200_S1x200 : FVec Ideal S1x200 .f32) broadcasts_S1x200_S128x200))
        (broadcast S128x200 (Scalar.ofBits (F := Ideal) .f32 0x00000000#32))) bitsLt_bf16_f32 : FVec Ideal ⟨2, ![128, 200]⟩ .bf16)
      (shapeCast S200x3 w2 shapeCasts_S200x3_S200x3 : FVec Ideal ⟨2, ![200, 3]⟩ .bf16)
      (constant ⟨2, ![128, 3]⟩ .f32 0x00000000#32) (ix2 r o)
    + broadcastTo S128x3 (shapeCast S1x3 b2 shapeCasts_S3_S1x3 : FVec Ideal S1x3 .f32) broadcasts_S1x3_S128x3 (ix2 r o) = _
  rw [LibFlatten.matmul_plain_zero_apply, broadcastTo_1b_ab_apply, shapeCast_a_1a_apply, shapeCast_self]
  refine congrArg (· + b2 (ix1 o)) (Finset.sum_congr rfl fun h _ => ?_)
  show max (acc (ix2 r h) + broadcastTo S128x200 (shapeCast S1x200 b1 shapeCasts_S200_S1x200 : FVec Ideal S1x200 .f32)
      broadcasts_S1x200_S128x200 (ix2 r h)) (Ideal.ofBits .f32 0x00000000#32) * w2 (ix2 h o) = _
  rw [broadcastTo_1b_ab_apply, shapeCast_a_1a_apply, Ideal.ofBits_zero_f32]

/-! ## The stored block at an index -/

theorem storedBlock_apply
    (x0 : Vec Ideal S128x128x60 .f32) (x1 : Vec Ideal S128x6 .i32) (x2 : Vec Ideal S6x60x200 .bf16)
    (x3 : Vec Ideal S200 .f32) (x4 : Vec Ideal S200x3 .bf16) (x5 : Vec Ideal S3 .f32)
    (hx1 : ∀ (r : Fin 128) (j : Fin 6), (x1 (ix2 r j)).toNat < 128) (r : Fin 128) (o : Fin 3) :
    storedBlock (F := Ideal) x0 x1 x2 x3 x4 x5 (ix2 r o)
      = (∑ h : Fin 200, max ((∑ j : Fin 6, ∑ d : Fin 60,
            x0 (ix3 r ⟨(x1 (ix2 r j)).toNat, hx1 r j⟩ d) * x2 (ix3 j d h)) + x3 (ix1 h)) 0 * x4 (ix2 h o)) + x5 (ix1 o) := by
  unfold storedBlock
  rw [ld_idx, ld_slab, ld_b1, ld_w2, ld_b2, pay1_eq, pay6_eq, pay4_eq, pay5_eq, pay7_eq, pay2_eq, head_apply]
  refine congrArg (· + x5 (ix1 o)) (Finset.sum_congr rfl fun h _ => ?_)
  refine congrArg (fun t => max (t + x3 (ix1 h)) 0 * x4 (ix2 h o)) ?_
  have s0 := slot_apply (k0_pay3 x0) x1 x2 hx1 0 0 rfl slices_S128x6_o0_0_S128x1 inb_S6x60x200_S1x60x200_0_0_0 r h
  have s1 := slot_apply (k0_pay3 x0) x1 x2 hx1 1 1 rfl slices_S128x6_o0_1_S128x1 inb_S6x60x200_S1x60x200_1_0_0 r h
  have s2 := slot_apply (k0_pay3 x0) x1 x2 hx1 2 2 rfl slices_S128x6_o0_2_S128x1 inb_S6x60x200_S1x60x200_2_0_0 r h
  have s3 := slot_apply (k0_pay3 x0) x1 x2 hx1 3 3 rfl slices_S128x6_o0_3_S128x1 inb_S6x60x200_S1x60x200_3_0_0 r h
  have s4 := slot_apply (k0_pay3 x0) x1 x2 hx1 4 4 rfl slices_S128x6_o0_4_S128x1 inb_S6x60x200_S1x60x200_4_0_0 r h
  have s5 := slot_apply (k0_pay3 x0) x1 x2 hx1 5 5 rfl slices_S128x6_o0_5_S128x1 inb_S6x60x200_S1x60x200_5_0_0 r h
  rw [Fin.sum_univ_six]
  refine (congrArg₂ (· + ·) (congrArg₂ (· + ·) (congrArg₂ (· + ·) (congrArg₂ (· + ·) (congrArg₂ (· + ·)
    ((congrArg₂ (· + ·) Ideal.ofBits_zero_f32 s0).trans (zero_add _)) s1) s2) s3) s4) s5)

end Cert.KPayload

end
-- ==== Proof.Spec.lean ====
/-
  The function both programs compute, stated once over the argument arrays.

  A state `p` (of 4096) names six rows of its own 128 x 60 slab of `buffer`: the three consecutive
  rows `buffer_index p + 0, + 1, + 2` and the three rows `stack_indexes p 0 .. 2`.  Laid side by side the
  six rows are a feature vector of 360 numbers, `feat p k` with `k = 60 * j + d` the `d`-th entry of the
  `j`-th row.  The result is the two-layer perceptron
      out p o = (sum over h < 200 of max (sum over k < 360 of feat p k * W1 k h + b1 h) 0 * W2 h o) + b2 o
  on the extended reals.
-/
import Idealize.ShloMosaic.PureOps.Ideal
import Idealize.ShloMosaic.Lib.ValueIdx

noncomputable section

namespace Cert.Spec

open Idealize.ShloMosaic Idealize.ShloMosaic.ValueIdx

/-- The index word of the `j`-th gathered row of state `p`: `buffer_index p + j` for `j < 3`, else
    `stack_indexes p (j - 3)`. -/
def rowWord (bi : IVec ⟨1, ![4096]⟩ 32) (si : IVec ⟨2, ![4096, 3]⟩ 32) (p : Fin 4096) (j : Fin 6) : BitVec 32 :=
  if h : j.val < 3 then bi (ix1 p) + BitVec.ofNat 32 j.val else si (ix2 p ⟨j.val - 3, by omega⟩)

/-- The row it names (a row of the 128-row slab; inside the stated index range the word itself). -/
def row (bi : IVec ⟨1, ![4096]⟩ 32) (si : IVec ⟨2, ![4096, 3]⟩ 32) (p : Fin 4096) (j : Fin 6) : Fin 128 :=
  ⟨(rowWord bi si p j).toNat % 128, Nat.mod_lt _ (by norm_num)⟩

/-- Entry `k = 60 * j + d` of state `p`'s feature vector: entry `d` of its `j`-th gathered row. -/
def feat (buf : FVec Ideal ⟨3, ![4096, 128, 60]⟩ .f32) (bi : IVec ⟨1, ![4096]⟩ 32) (si : IVec ⟨2, ![4096, 3]⟩ 32)
    (p : Fin 4096) (k : Fin 360) : EReal :=
  buf (ix3 p (row bi si p ⟨k.val / 60, by omega⟩) ⟨k.val % 60, Nat.mod_lt _ (by norm_num)⟩)

/-- The hidden layer: `max (feat p · W1[:, h] + b1 h) 0`. -/
def hid (buf : FVec Ideal ⟨3, ![4096, 128, 60]⟩ .f32) (W1 : FVec Ideal ⟨2, ![360, 200]⟩ .f32) (b1 : FVec Ideal ⟨1, ![200]⟩ .f32)
    (bi : IVec ⟨1, ![4096]⟩ 32) (si : IVec ⟨2, ![4096, 3]⟩ 32) (p : Fin 4096) (h : Fin 200) : EReal :=
  max ((∑ k : Fin 360, feat buf bi si p k * W1 (ix2 k h)) + b1 (ix1 h)) 0

/-- The output layer at state `p`, class `o`. -/
def outAt (buf : FVec Ideal ⟨3, ![4096, 128, 60]⟩ .f32) (W1 : FVec Ideal ⟨2, ![360, 200]⟩ .f32) (b1 : FVec Ideal ⟨1, ![200]⟩ .f32)
    (W2 : FVec Ideal ⟨2, ![200, 3]⟩ .f32) (b2 : FVec Ideal ⟨1, ![3]⟩ .f32)
    (bi : IVec ⟨1, ![4096]⟩ 32) (si : IVec ⟨2, ![4096, 3]⟩ 32) (p : Fin 4096) (o : Fin 3) : EReal :=
  (∑ h : Fin 200, hid buf W1 b1 bi si p h * W2 (ix2 h o)) + b2 (ix1 o)

/-- The whole result array. -/
def out (buf : FVec Ideal ⟨3, ![4096, 128, 60]⟩ .f32) (W1 : FVec Ideal ⟨2, ![360, 200]⟩ .f32) (b1 : FVec Ideal ⟨1, ![200]⟩ .f32)
    (W2 : FVec Ideal ⟨2, ![200, 3]⟩ .f32) (b2 : FVec Ideal ⟨1, ![3]⟩ .f32)
    (bi : IVec ⟨1, ![4096]⟩ 32) (si : IVec ⟨2, ![4096, 3]⟩ 32) : FVec Ideal ⟨2, ![4096, 3]⟩ .f32 :=
  fun i => outAt buf W1 b1 W2 b2 bi si (i 0) (i 1)

/-- The stated index range: every `buffer_index` word is at most 125 and every `stack_indexes` word at most 127
    (as unsigned numbers, which is what the signed bounds `0 ≤ · ≤ 125`, `0 ≤ · ≤ 127` say). -/
structure InRange (bi : IVec ⟨1, ![4096]⟩ 32) (si : IVec ⟨2, ![4096, 3]⟩ 32) : Prop where
  bi_le : ∀ p : Fin 4096, (bi (ix1 p)).toNat ≤ 125
  si_le : ∀ (p : Fin 4096) (j : Fin 3), (si (ix2 p j)).toNat ≤ 127

/-- Inside the range a row word is its row's number. -/
theorem rowWord_toNat {bi : IVec ⟨1, ![4096]⟩ 32} {si : IVec ⟨2, ![4096, 3]⟩ 32} (h : InRange bi si) (p : Fin 4096) (j : Fin 6) :
    (rowWord bi si p j).toNat = (row bi si p j).val ∧ (rowWord bi si p j).toNat < 128 := by
  have hlt : (rowWord bi si p j).toNat < 128 := by
    unfold rowWord
    split
    · rename_i hj
      have := h.bi_le p
      rw [BitVec.toNat_add, BitVec.toNat_ofNat]
      have hj' : j.val % 2 ^ 32 = j.val := Nat.mod_eq_of_lt (by omega)
      rw [hj', Nat.mod_eq_of_lt (by omega)]
      omega
    · have := h.si_le p ⟨j.val - 3, by omega⟩
      omega
  exact ⟨(Nat.mod_eq_of_lt hlt).symm, hlt⟩

end Cert.Spec

end
-- ==== Proof.LibNaryThree.lean ====
/-
  A host operation that reads three buffers and writes one (a concatenation of three pieces): what it leaves in
  the buffer it writes, with each piece's contents read at that piece's own buffer.
-/
import Idealize.ShloMosaic.Lib.StableHlo.Run

noncomputable section

namespace Cert.LibNaryThree

open Idealize.ShloMosaic Idealize.ShloMosaic.StableHlo

variable {nD : Nat} {τ : Topo} {sig : RefSig} {Val : EltTy → Type}
variable {x a b y : Ref sig .tc}

/-- An operation over a literal family of three buffers leaves, in the buffer it writes, its function applied to
    the three buffers' contents, each contents named at its own buffer (the family `![x, a, b]` at `0`, `1`, `2`),
    so that the contents of each of the three can be rewritten further. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same statement, the written buffer's reference marked as not to be matched structurally. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNaryThree

end
-- ==== Proof.KHostI.lean ====
/-
  The host lines of the idealized kernel program, as values: the three arrays the host prepares for the region
  (the six clamped row words per state, the first weight as six 60 x 200 slices, the second weight) read at an index,
  the argument arrays the host leaves alone, and the second result (the legality flags) after the region.
-/
import proofs.«404969_j24275155157382_3_alg».proof.Proof.KEntryI
import proofs.«404969_j24275155157382_3_alg».proof.Proof.Spec
import Idealize.ShloMosaic.Lib.StableHlo.Run
import proofs.«404969_j24275155157382_3_alg».proof.Proof.LibNaryThree
import proofs.«404969_j24275155157382_3_alg».proof.Proof.KLegalI
import Idealize.ShloMosaic.Lib.StableHlo.Predicate
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KHostI

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-! ## What the host prepares for the region -/

/-- The six row words of every state before the clamp: `buffer_index p + j` in the first three columns, the three
    `stack_indexes p ·` in the last three. -/
def words (bi : IVec S4096 32) (si : IVec S4096x3 32) : IVec S4096x6 32 :=
  concatenate S4096x6 1 [⟨S4096x3, addi (broadcastInDim S4096x3 ![0, 1] bcast_S4096x1_S4096x3_0_1 (broadcastInDim S4096x1 ![0] bcast_S4096_S4096x1_0 bi))
      (broadcastInDim S4096x3 ![0, 1] bcast_S1x3_S4096x3_0_1 (broadcastInDim S1x3 ![1] bcast_S3_S1x3_1 (iotaInDim S3 32 0)))⟩, ⟨S4096x3, si⟩]
    concatenates_S4096x3_S4096x3_S4096x6_d1

/-- The words clamped to the rows `0 .. 127` of a slab (as signed numbers). -/
def clamped (bi : IVec S4096 32) (si : IVec S4096x3 32) : IVec S4096x6 32 :=
  minsi (broadcastInDim S4096x6 ![] bcast_S_S4096x6 (constantI S_ 32 127#32))
    (maxsi (broadcastInDim S4096x6 ![] bcast_S_S4096x6 (constantI S_ 32 0#32)) (words bi si))

/-- A word below 128 is its own clamp to `[0, 127]`. -/
theorem clamp_id (w : BitVec 32) (hw : w.toNat < 128) : IntOp.minsi 127#32 (IntOp.maxsi 0#32 w) = w := by
  have hti : w.toInt = w.toNat := StableHlo.Predicate.toInt_eq_toNat_of_lt (by omega)
  have h0 : (0#32 : BitVec 32).toInt = 0 := by decide
  have h127 : (127#32 : BitVec 32).toInt = 127 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h127, decide_eq_true_eq]; omega

/-- Column `j` of the words at state `p` is the `j`-th row word of the specification. -/
theorem words_apply (bi : IVec S4096 32) (si : IVec S4096x3 32) (p : Fin 4096) (j : Fin 6) :
    words bi si (ix2 p j) = Cert.Spec.rowWord bi si p j := by
  unfold words Cert.Spec.rowWord
  by_cases hj : j.val < 3
  · rw [dif_pos hj]
    refine (concatenate_pair_apply_left (t := S4096x6) (s₁ := S4096x3) (s₂ := S4096x3) (1 : Fin 2) _ _ concatenates_S4096x3_S4096x3_S4096x6_d1 (ix2 p j) rfl
      (ix2 p (⟨j.val, hj⟩ : Fin 3)) (fun b => ?_)).trans ?_
    · match b with
      | ⟨0, _⟩ => rfl
      | ⟨1, _⟩ => rfl
    · show IntOp.addi _ _ = _
      have e1 : broadcastInDim S4096x3 ![0, 1] bcast_S4096x1_S4096x3_0_1 (broadcastInDim S4096x1 ![0] bcast_S4096_S4096x1_0 bi)
          (ix2 p (⟨j.val, hj⟩ : Fin 3)) = bi (ix1 p) := by
        refine (broadcastInDim_apply _ _ _ (ix2 p (⟨j.val, hj⟩ : Fin 3)) (ix2 p (0 : Fin 1)) (fun a => ?_)).trans ?_
        · match a with
          | ⟨0, _⟩ => rfl
          | ⟨1, _⟩ => rfl
        · refine broadcastInDim_apply _ _ _ (ix2 p (0 : Fin 1)) (ix1 p) (fun a => ?_)
          match a with
          | ⟨0, _⟩ => rfl
      have e2 : broadcastInDim S4096x3 ![0, 1] bcast_S1x3_S4096x3_0_1 (broadcastInDim S1x3 ![1] bcast_S3_S1x3_1 (iotaInDim S3 32 0))
          (ix2 p (⟨j.val, hj⟩ : Fin 3)) = BitVec.ofNat 32 j.val := by
        refine (broadcastInDim_apply _ _ _ (ix2 p (⟨j.val, hj⟩ : Fin 3)) (ix2 (0 : Fin 1) (⟨j.val, hj⟩ : Fin 3)) (fun a => ?_)).trans ?_
        · match a with
          | ⟨0, _⟩ => rfl
          | ⟨1, _⟩ => rfl
        · refine (broadcastInDim_apply _ _ _ (ix2 (0 : Fin 1) (⟨j.val, hj⟩ : Fin 3)) (ix1 (⟨j.val, hj⟩ : Fin 3)) (fun a => ?_)).trans ?_
          · match a with
            | ⟨0, _⟩ => rfl
          · rfl
      rw [e1, e2]
      rfl
  · rw [dif_neg hj]
    refine concatenate_pair_apply_right (t := S4096x6) (s₁ := S4096x3) (s₂ := S4096x3) (1 : Fin 2) _ _ concatenates_S4096x3_S4096x3_S4096x6_d1 (ix2 p j) rfl rfl
      (ix2 p (⟨j.val - 3, by omega⟩ : Fin 3)) (fun b hb => ?_) ?_
    · match b with
      | ⟨0, _⟩ => rfl
      | ⟨1, _⟩ => exact absurd rfl hb
    · show (j.val - 3) + 3 = j.val
      omega

/-- Inside the stated index range the clamp changes nothing: the clamped word is the row word. -/
theorem clamped_apply (bi : IVec S4096 32) (si : IVec S4096x3 32) (h : Cert.Spec.InRange bi si) (p : Fin 4096) (j : Fin 6) :
    clamped bi si (ix2 p j) = Cert.Spec.rowWord bi si p j := by
  unfold clamped
  show IntOp.minsi (broadcastInDim S4096x6 ![] bcast_S_S4096x6 (constantI S_ 32 127#32) (ix2 p j))
    (IntOp.maxsi (broadcastInDim S4096x6 ![] bcast_S_S4096x6 (constantI S_ 32 0#32) (ix2 p j)) (words bi si (ix2 p j))) = _
  rw [broadcastInDim_scalar_apply, broadcastInDim_scalar_apply, constantI_apply, constantI_apply, words_apply]
  exact clamp_id _ (Cert.Spec.rowWord_toNat h p j).2

/-- The index array handed to the region is the clamp of the six words. -/
theorem v7_term :
    Cert.KernelIdeal.Fr.V m c main_v7 = clamped (m ((c.tc : Thread nD τ).loc main_arg5)) (m ((c.tc : Thread nD τ).loc main_arg6)) := by
  dsimp only [Cert.KernelIdeal.Fr.V, Cert.KernelIdeal.Fr.V0]
  simp only [hostOps0, hostOps0_1, hostOps0_2, List.flatten_cons, List.flatten_nil, List.append_nil, List.cons_append, List.nil_append]
  after_results
  simp only [StableHlo.TRef.ofBuf, StableHlo.TRef.toBuf, cast_eq]
  rfl

/-- (i) Inside the index range, entry `(p, j)` of the index array handed to the region is the `j`-th row word of state `p`. -/
theorem v7_apply (h : Cert.Spec.InRange (m ((c.tc : Thread nD τ).loc main_arg5)) (m ((c.tc : Thread nD τ).loc main_arg6)))
    (p : Fin 4096) (j : Fin 6) :
    Cert.KernelIdeal.Fr.V m c main_v7 (ix2 p j)
      = Cert.Spec.rowWord (m ((c.tc : Thread nD τ).loc main_arg5)) (m ((c.tc : Thread nD τ).loc main_arg6)) p j := by
  rw [v7_term]
  exact clamped_apply _ _ h p j

/-- (ii) The first weight handed to the region, at slice `j`, row `d`, column `h`, is the weight's row `60 * j + d`. -/
theorem v9_apply (j : Fin 6) (d : Fin 60) (h : Fin 200) :
    Cert.KernelIdeal.Fr.V m c main_v9 (ix3 j d h)
      = m ((c.tc : Thread nD τ).loc main_arg1) (ix2 (⟨60 * j.val + d.val, by omega⟩ : Fin 360) h) := by
  have e : Cert.KernelIdeal.Fr.V m c main_v9
      = (truncf .bf16 (fun i => shapeCast S6x60x200 (m ((c.tc : Thread nD τ).loc main_arg1)) shapeCasts_S360x200_S6x60x200 i) bitsLt_bf16_f32
          : FVec Ideal S6x60x200 .bf16) := by
    dsimp only [Cert.KernelIdeal.Fr.V, Cert.KernelIdeal.Fr.V0]
    simp only [hostOps0, hostOps0_1, hostOps0_2, List.flatten_cons, List.flatten_nil, List.append_nil, List.cons_append, List.nil_append]
    after_results
    rfl
  rw [e]
  show shapeCast S6x60x200 (m ((c.tc : Thread nD τ).loc main_arg1)) shapeCasts_S360x200_S6x60x200 (ix3 j d h) = _
  refine shapeCast_apply _ _ (ix3 j d h) (ix2 (⟨60 * j.val + d.val, by omega⟩ : Fin 360) h) ?_
  rw [Shape.rowMajor_val_two, Shape.rowMajor_val_three]
  show (60 * j.val + d.val) * 200 + h.val = (j.val * 60 + d.val) * 200 + h.val
  omega

/-- (iii) The second weight handed to the region is the argument. -/
theorem v10_eq : Cert.KernelIdeal.Fr.V m c main_v10 = m ((c.tc : Thread nD τ).loc main_arg3) := by
  dsimp only [Cert.KernelIdeal.Fr.V, Cert.KernelIdeal.Fr.V0]
  simp only [hostOps0, hostOps0_1, hostOps0_2, List.flatten_cons, List.flatten_nil, List.append_nil, List.cons_append, List.nil_append]
  after_results
  rfl

/-- The slabs, the first bias and the second bias reach the region as the arguments: no host line writes them. -/
theorem V_arg0 : Cert.KernelIdeal.Fr.V m c main_arg0 = m ((c.tc : Thread nD τ).loc main_arg0) := by
  dsimp only [Cert.KernelIdeal.Fr.V, Cert.KernelIdeal.Fr.V0]
  simp only [hostOps0, hostOps0_1, hostOps0_2, List.flatten_cons, List.flatten_nil, List.append_nil, List.cons_append, List.nil_append]
  after_results

theorem V_arg2 : Cert.KernelIdeal.Fr.V m c main_arg2 = m ((c.tc : Thread nD τ).loc main_arg2) := by
  dsimp only [Cert.KernelIdeal.Fr.V, Cert.KernelIdeal.Fr.V0]
  simp only [hostOps0, hostOps0_1, hostOps0_2, List.flatten_cons, List.flatten_nil, List.append_nil, List.cons_append, List.nil_append]
  after_results

theorem V_arg4 : Cert.KernelIdeal.Fr.V m c main_arg4 = m ((c.tc : Thread nD τ).loc main_arg4) := by
  dsimp only [Cert.KernelIdeal.Fr.V, Cert.KernelIdeal.Fr.V0]
  simp only [hostOps0, hostOps0_1, hostOps0_2, List.flatten_cons, List.flatten_nil, List.append_nil, List.cons_append, List.nil_append]
  after_results

/-- Nor the two index arguments the flags are computed from. -/
theorem V_arg5 : Cert.KernelIdeal.Fr.V m c main_arg5 = m ((c.tc : Thread nD τ).loc main_arg5) := by
  dsimp only [Cert.KernelIdeal.Fr.V, Cert.KernelIdeal.Fr.V0]
  simp only [hostOps0, hostOps0_1, hostOps0_2, List.flatten_cons, List.flatten_nil, List.append_nil, List.cons_append, List.nil_append]
  after_results

theorem V_arg7 : Cert.KernelIdeal.Fr.V m c main_arg7 = m ((c.tc : Thread nD τ).loc main_arg7) := by
  dsimp only [Cert.KernelIdeal.Fr.V, Cert.KernelIdeal.Fr.V0]
  simp only [hostOps0, hostOps0_1, hostOps0_2, List.flatten_cons, List.flatten_nil, List.append_nil, List.cons_append, List.nil_append]
  after_results

/-! ## The legality flags after the region -/

open Idealize.ShloMosaic.Rounds in
set_option maxHeartbeats 2000000 in
/-- The second result after the region is the legality flags of the two index arguments: the region and the host
    lines before it leave those two arguments as they were, and the host lines after it compute the flags. -/
theorem legal_eq (dats : (p : Fin 1) → (c : Dev nD) → Pipeline.Dat τ (Elt Ideal) Unit ℕ (UR sig nD τ) ℕ (cfgs p) c) :
    Pipeline.afterTail₀ cfgs dats 0 (Cert.KernelIdeal.Fr.V0 m)
        [hostOps1, hostOps1_1, hostOps1_2, hostOps1_3, hostOps1_4, hostOps1_5, hostOps1_6] c main_v27
      = Cert.KernelIdeal.Fr.legalTerm (F := Ideal) (m ((c.tc : Thread nD τ).loc main_arg5)) (m ((c.tc : Thread nD τ).loc main_arg7)) := by
  unfold Pipeline.afterTail₀
  show StableHlo.after (List.flatten [hostOps1, hostOps1_1, hostOps1_2, hostOps1_3, hostOps1_4, hostOps1_5, hostOps1_6]) _ (Proc.devRef .tc main_v27) = _
  simp only [hostOps1, hostOps1_1, hostOps1_2, hostOps1_3, hostOps1_4, hostOps1_5, hostOps1_6,
    List.flatten_cons, List.flatten_nil, List.append_nil, List.cons_append, List.nil_append]
  simp only [StableHlo.after_cons, StableHlo.after_nil]
  repeat (first
    | rw [Cert.LibNaryThree.nary3_result] | rw [StableHlo.nullary_result] | rw [StableHlo.unary_result]
    | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.nary_result_ne]; rotate_left; decide))
  have h5 : Pipeline.withArrays (cfgs 0).spec c (Cert.KernelIdeal.Fr.V0 m c) (fun w => (dats 0 c).arrAt w (cfgs 0).N)
      (Proc.devRef .tc main_arg5) = m ((c.tc : Thread nD τ).loc main_arg5) :=
    (Pipeline.withArrays_of_ne (cfgs 0).spec c _ _ main_arg5 (by decide)).trans (V_arg5 m c)
  have h7 : Pipeline.withArrays (cfgs 0).spec c (Cert.KernelIdeal.Fr.V0 m c) (fun w => (dats 0 c).arrAt w (cfgs 0).N)
      (Proc.devRef .tc main_arg7) = m ((c.tc : Thread nD τ).loc main_arg7) :=
    (Pipeline.withArrays_of_ne (cfgs 0).spec c _ _ main_arg7 (by decide)).trans (V_arg7 m c)
  rw [h5, h7]
  unfold Cert.KernelIdeal.Fr.legalTerm
  rfl

end Cert.KHostI

end
-- ==== Proof.KValueI.lean ====
/-
  The idealized kernel program's results as functions of its arguments.  At grid point `t` the six input blocks are
  blocks of the arrays the region finds: rows `128 * t .. 128 * t + 127` of the slab and of the index words, the whole
  re-laid first weight, first bias, second weight and second bias.  Inside the stated index range an index word is a row
  number below 128, so the one-hot sums of the body pick exactly the six named rows, and the six products of 60 terms
  are the specification's one product of 360 terms re-indexed by `k = 60 * j + d`.  Hence what point `t` writes back
  is block `t` of the specification; the 32 blocks tile the 4096 x 3 result, so the array ends at the specification.
  The second result is computed by host lines after the region from two integer arguments only.
-/
import proofs.«404969_j24275155157382_3_alg».proof.Proof.FrameI
import proofs.«404969_j24275155157382_3_alg».proof.Proof.KLegalI
import proofs.«404969_j24275155157382_3_alg».proof.Proof.KPayload
import proofs.«404969_j24275155157382_3_alg».proof.Proof.KHostI
import proofs.«404969_j24275155157382_3_alg».proof.Proof.Spec
import Idealize.ShloMosaic.Lib.Pipeline.Value
import Idealize.ShloMosaic.Lib.ValueIdx

set_option maxRecDepth 16384

noncomputable section

namespace Cert.KValue

open Idealize.ShloMosaic Idealize.ShloMosaic.TcCoe Idealize.ShloMosaic.ValueIdx
open Idealize.SL Idealize.SL.Sem
open Idealize.ShloMosaic.Rounds
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-! ## The six input blocks of a grid point, under their literal types -/

abbrev slabBlk (c : Dev nD) (t : Fin cfg0.N) : Vec Ideal S128x128x60 .f32 := iblk m c 0 t
abbrev wordBlk (c : Dev nD) (t : Fin cfg0.N) : Vec Ideal S128x6 .i32 := iblk m c 1 t
abbrev w1Blk (c : Dev nD) (t : Fin cfg0.N) : Vec Ideal S6x60x200 .bf16 := iblk m c 2 t
abbrev b1Blk (c : Dev nD) (t : Fin cfg0.N) : Vec Ideal S200 .f32 := iblk m c 3 t
abbrev w2Blk (c : Dev nD) (t : Fin cfg0.N) : Vec Ideal S200x3 .bf16 := iblk m c 4 t
abbrev b2Blk (c : Dev nD) (t : Fin cfg0.N) : Vec Ideal S3 .f32 := iblk m c 5 t

/-- The printed index maps, decided over the grid: the slab, the index words and the result move one block of 128
    states per point; the weights and biases stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 32 :=
  lt_of_lt_of_eq t.isLt (show cfg0.N = 32 from N_0)

/-- Row `r` of point `t`'s block is state `128 * t + r`. -/
def stateOf (t : Fin cfg0.N) (r : Fin 128) : Fin 4096 := ⟨128 * t.val + r.val, by have := t_lt t; omega⟩

/-! ## Each block read where the point's rectangle says -/

theorem slabBlk_apply (c : Dev nD) (t : Fin cfg0.N) (r : Fin 128) (l : Fin 128) (d : Fin 60) :
    slabBlk m c t (ix3 r l d) = m ((c : Thread nD τ).loc main_arg0) (ix3 (stateOf t r) l d) := by
  obtain ⟨e0, e1, e2, -⟩ := idx_facts t
  rw [← V_main_arg0 m c]
  show V m c main_arg0 (((cfg0.win 0).blk t).view.emb (ix3 r l d)) = V m c main_arg0 (ix3 (stateOf t r) l d)
  refine congrArg _ ?_
  funext a; apply Fin.ext
  match a with
  | ⟨0, _⟩ => show win0_0.index t (0 : Fin 3) * 128 + 1 * r.val = 128 * t.val + r.val; omega
  | ⟨1, _⟩ => show win0_0.index t (1 : Fin 3) * 128 + 1 * l.val = l.val; omega
  | ⟨2, _⟩ => show win0_0.index t (2 : Fin 3) * 60 + 1 * d.val = d.val; omega

theorem wordBlk_apply (c : Dev nD) (t : Fin cfg0.N) (r : Fin 128) (j : Fin 6) :
    wordBlk m c t (ix2 r j) = V m c main_v7 (ix2 (stateOf t r) j) := by
  obtain ⟨-, -, -, e0, e1, -⟩ := idx_facts t
  show V m c main_v7 (((cfg0.win 1).blk t).view.emb (ix2 r j)) = V m c main_v7 (ix2 (stateOf t r) j)
  refine congrArg _ ?_
  funext a; apply Fin.ext
  match a with
  | ⟨0, _⟩ => show win0_1.index t (0 : Fin 2) * 128 + 1 * r.val = 128 * t.val + r.val; omega
  | ⟨1, _⟩ => show win0_1.index t (1 : Fin 2) * 6 + 1 * j.val = j.val; omega

theorem w1Blk_apply (c : Dev nD) (t : Fin cfg0.N) (j : Fin 6) (d : Fin 60) (h : Fin 200) :
    w1Blk m c t (ix3 j d h) = V m c main_v9 (ix3 j d h) := by
  obtain ⟨-, -, -, -, -, e0, e1, e2, -⟩ := idx_facts t
  show V m c main_v9 (((cfg0.win 2).blk t).view.emb (ix3 j d h)) = V m c main_v9 (ix3 j d h)
  refine congrArg _ ?_
  funext a; apply Fin.ext
  match a with
  | ⟨0, _⟩ => show win0_2.index t (0 : Fin 3) * 6 + 1 * j.val = j.val; omega
  | ⟨1, _⟩ => show win0_2.index t (1 : Fin 3) * 60 + 1 * d.val = d.val; omega
  | ⟨2, _⟩ => show win0_2.index t (2 : Fin 3) * 200 + 1 * h.val = h.val; omega

theorem b1Blk_apply (c : Dev nD) (t : Fin cfg0.N) (h : Fin 200) :
    b1Blk m c t (ix1 h) = m ((c : Thread nD τ).loc main_arg2) (ix1 h) := by
  obtain ⟨-, -, -, -, -, -, -, -, e0, -⟩ := idx_facts t
  rw [← V_main_arg2 m c]
  show V m c main_arg2 (((cfg0.win 3).blk t).view.emb (ix1 h)) = V m c main_arg2 (ix1 h)
  refine congrArg _ ?_
  funext a; apply Fin.ext
  match a with
  | ⟨0, _⟩ => show win0_3.index t (0 : Fin 1) * 200 + 1 * h.val = h.val; omega

theorem w2Blk_apply (c : Dev nD) (t : Fin cfg0.N) (h : Fin 200) (o : Fin 3) :
    w2Blk m c t (ix2 h o) = V m c main_v10 (ix2 h o) := by
  obtain ⟨-, -, -, -, -, -, -, -, -, e0, e1, -⟩ := idx_facts t
  show V m c main_v10 (((cfg0.win 4).blk t).view.emb (ix2 h o)) = V m c main_v10 (ix2 h o)
  refine congrArg _ ?_
  funext a; apply Fin.ext
  match a with
  | ⟨0, _⟩ => show win0_4.index t (0 : Fin 2) * 200 + 1 * h.val = h.val; omega
  | ⟨1, _⟩ => show win0_4.index t (1 : Fin 2) * 3 + 1 * o.val = o.val; omega

theorem b2Blk_apply (c : Dev nD) (t : Fin cfg0.N) (o : Fin 3) :
    b2Blk m c t (ix1 o) = m ((c : Thread nD τ).loc main_arg4) (ix1 o) := by
  obtain ⟨-, -, -, -, -, -, -, -, -, -, -, e0, -⟩ := idx_facts t
  rw [← V_main_arg4 m c]
  show V m c main_arg4 (((cfg0.win 5).blk t).view.emb (ix1 o)) = V m c main_arg4 (ix1 o)
  refine congrArg _ ?_
  funext a; apply Fin.ext
  match a with
  | ⟨0, _⟩ => show win0_5.index t (0 : Fin 1) * 3 + 1 * o.val = o.val; omega

/-! ## What a point stores is the specification's block -/

/-- The specification over the launch memory's argument arrays. -/
abbrev specOut (c : Dev nD) : FVec Ideal ⟨2, ![4096, 3]⟩ .f32 :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Inside the index range, the block's index words are row numbers. -/
theorem wordBlk_lt (c : Dev nD) (hr : Cert.Spec.InRange (m ((c : Thread nD τ).loc main_arg5)) (m ((c : Thread nD τ).loc main_arg6)))
    (t : Fin cfg0.N) (r : Fin 128) (j : Fin 6) : (wordBlk m c t (ix2 r j)).toNat < 128 := by
  rw [wordBlk_apply, Cert.KHostI.v7_apply m c hr]
  exact (Cert.Spec.rowWord_toNat hr (stateOf t r) j).2

/-- Row `r`, class `o` of what point `t` stores is the specification at state `128 * t + r`: the one-hot sums pick
    the six rows, and the six 60-term products are the one 360-term product re-indexed by `k = 60 * j + d`. -/
theorem stored_apply (c : Dev nD) (hr : Cert.Spec.InRange (m ((c : Thread nD τ).loc main_arg5)) (m ((c : Thread nD τ).loc main_arg6)))
    (t : Fin cfg0.N) (r : Fin 128) (o : Fin 3) :
    storedBlock (F := Ideal) (slabBlk m c t) (wordBlk m c t) (w1Blk m c t) (b1Blk m c t) (w2Blk m c t) (b2Blk m c t) (ix2 r o)
      = Cert.Spec.outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (stateOf t r) o := by
  rw [Cert.KPayload.storedBlock_apply _ _ _ _ _ _ (wordBlk_lt m c hr t) r o]
  unfold Cert.Spec.outAt
  rw [b2Blk_apply]
  refine congrArg (· + _) ?_
  refine Finset.sum_congr rfl fun h _ => ?_
  rw [w2Blk_apply, Cert.KHostI.v10_eq m c, b1Blk_apply]
  refine congrArg (· * _) ?_
  unfold Cert.Spec.hid
  refine congrArg (fun z => max (z + _) 0) ?_
  rw [Cert.KPayload.sum_six_sixty]
  refine Finset.sum_congr rfl fun j _ => Finset.sum_congr rfl fun d _ => ?_
  rw [w1Blk_apply, Cert.KHostI.v9_apply m c, slabBlk_apply]
  refine congrArg (· * _) ?_
  unfold Cert.Spec.feat
  refine congrArg _ ?_
  have hw : wordBlk m c t (ix2 r j) = Cert.Spec.rowWord (m ((c : Thread nD τ).loc main_arg5)) (m ((c : Thread nD τ).loc main_arg6)) (stateOf t r) j :=
    (wordBlk_apply m c t r j).trans (Cert.KHostI.v7_apply m c hr (stateOf t r) j)
  have hj : (⟨(60 * j.val + d.val) / 60, by omega⟩ : Fin 6) = j := Fin.ext (by show (60 * j.val + d.val) / 60 = j.val; omega)
  funext a; apply Fin.ext
  match a with
  | ⟨0, _⟩ => rfl
  | ⟨1, _⟩ =>
    show (wordBlk m c t (ix2 r j)).toNat = (Cert.Spec.row _ _ (stateOf t r) ⟨(60 * j.val + d.val) / 60, _⟩).val
    rw [hj, hw]
    exact (Cert.Spec.rowWord_toNat hr (stateOf t r) j).1
  | ⟨2, _⟩ => show d.val = (60 * j.val + d.val) % 60; omega

theorem hz : (![0, 0] : Fin 2 → Nat) = fun _ => 0 := funext fun a => by fin_cases a <;> rfl

/-- What point `t` writes back is block `t` of the specification. -/
theorem flushed_eq (c : Dev nD) (hr : Cert.Spec.InRange (m ((c : Thread nD τ).loc main_arg5)) (m ((c : Thread nD τ).loc main_arg6)))
    (t : Fin cfg0.N) :
    (dats m 0 c).flushed 6 t = ((cfg0.win 6).blk t).view.read (Elt Ideal) (specOut m c) := by
  obtain ⟨-, -, -, -, -, -, -, -, -, -, -, -, e0, e1⟩ := idx_facts t
  show (cfg0.win 6).cut (grid0.coords t) ((dats m 0 c).after 6 t) = _
  rw [after0_6]
  unfold out0_6
  rw [View.canon_unit_zero hz]
  funext y
  obtain ⟨r, o, rfl⟩ : ∃ (r : Fin 128) (o : Fin 3), y = ix2 r o := ⟨y 0, y 1, eq_ix2 y⟩
  refine (stored_apply m c hr t r o).trans ?_
  show _ = Cert.Spec.outAt _ _ _ _ _ _ _ ((((cfg0.win 6).blk t).view.emb (ix2 r o)) 0) ((((cfg0.win 6).blk t).view.emb (ix2 r o)) 1)
  congr 1
  · apply Fin.ext
    show 128 * t.val + r.val = win0_6.index t (0 : Fin 2) * 128 + 1 * r.val
    omega
  · apply Fin.ext
    show o.val = win0_6.index t (1 : Fin 2) * 3 + 1 * o.val
    omega

/-- An index of the result array is in point `t`'s block iff each coordinate is in the block's range on its axis. -/
theorem mem_blk (t : Fin cfg0.N) (i : S4096x3.Idx) :
    i ∈ ((cfg0.win 6).blk t).view.set ↔ ∀ a : Fin 2, win0_6.index t a * S128x3.size a ≤ (i a).val ∧ (i a).val < win0_6.index t a * S128x3.size a + S128x3.size a := by
  show i ∈ ((View.whole main_v11).slice (win0_6.rect t)).set ↔ _
  rw [View.set_slice_whole, Rect.mem_set_unit]
  exact Iff.rfl

/-- Every state's row of the result lies in the block of the point `state / 128`. -/
theorem cover (i : S4096x3.Idx) : ∃ t : Fin cfg0.N, (cfg0.win 6).flush t = true ∧ i ∈ ((cfg0.win 6).blk t).view.set := by
  have hi0 : (i 0).val < 4096 := (i 0).isLt
  have hi1 : (i 1).val < 3 := (i 1).isLt
  let t : Fin cfg0.N := ⟨(i 0).val / 128, by rw [show cfg0.N = 32 from N_0]; omega⟩
  obtain ⟨-, -, -, -, -, -, -, -, -, -, -, -, e0, e1⟩ := idx_facts t
  have ht : t.val = (i 0).val / 128 := rfl
  refine ⟨t, flush0_6 t, ?_⟩
  rw [mem_blk]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 3 ≤ (i 1).val ∧ (i 1).val < win0_6.index t (1 : Fin 2) * 3 + 3; omega

/-- The result array after the run is the specification. -/
theorem final (c : Dev nD) (hr : Cert.Spec.InRange (m ((c : Thread nD τ).loc main_arg5)) (m ((c : Thread nD τ).loc main_arg6))) :
    (dats m 0 c).arrAt 6 cfg0.N = specOut m c :=
  (dats m 0 c).arrAt_eq_of_cover 6 (specOut m c) (fun t _ => flushed_eq m c hr t) cover

/-! ## The run, read -/

/-- The second result as both programs compute it: per state, whether a shift, a left arc and a right arc are legal. -/
abbrev legalOf (a5 a7 : IVec S4096 32) : FVec Ideal S4096x3 .f32 := legalTerm (F := Ideal) a5 a7

/-- The frame run re-posted: the first result is the specification, the second the legality mask, the arguments are
    unchanged. -/
theorem run (hr : ∀ c : Dev nD, Cert.Spec.InRange (m ((c : Thread nD τ).loc main_arg5)) (m ((c : Thread nD τ).loc main_arg6))) :
    θ_run defs (onTc (τ := τ) (main (F := Ideal))) ⟨m, fun _ => 0, ρ⟩ fun r => ∀ c : Dev nD,
      r.2.mem ((c.tc : Thread nD τ).loc main_v11) = specOut m c
      ∧ r.2.mem ((c.tc : Thread nD τ).loc main_v27) = legalOf (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 6).trans (final m c (hr c)),
      ((h c).2 main_v27 (Pipeline.mem_restRefs_of main_v27 (by decide) (by decide))).trans (Cert.KHostI.legal_eq m c (dats m)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KValue

end
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.LibGatherSlab.lean ====
/-
  A batched gather of whole rows of a slab, read at an index given by coordinates.

  The operand is a stack of `B` slabs of `N` rows of `D` entries; for each slab `p` the start indices name `J` rows
  of that same slab, and the result holds them: at `(p, j, d)` it is the operand at slab `p`, row `idx[p, j, 0]` (the
  word read as a signed integer and clamped into `[0, N - 1]`, since a slice is one row), entry `d`.  Axis 0 of the
  operand and of the start indices are the paired batching axes, the operand's axis 1 is collapsed and is the one the
  start index names, and the result's axis 2 is the offset axis over the operand's axis 2.
-/
import Idealize.ShloMosaic.PureOps.ShapeOps
import Idealize.ShloMosaic.Lib.ValueIdx

noncomputable section

namespace Cert.LibGatherSlab

open Idealize.ShloMosaic Idealize.ShloMosaic.ValueIdx

variable {α : Type}

/-- The dimension numbers of a batched gather of rows: operand `[B, N, D]`, start indices `[B, J, 1]`, result
    `[B, J, D]`; the result's axis 2 is the offset axis, axis 0 of the operand and of the start indices are the paired
    batching axes, the operand's axis 1 is collapsed and is the one the start index names, and a slice is one row
    `[1, 1, D]`. -/
abbrev slabDims (B N D J : Nat)
    (wf : GatherDims.WF ⟨3, ![B, N, D]⟩ ⟨3, ![B, J, 1]⟩ ⟨3, ![B, J, D]⟩ [2] [1] [0] [1] [0] 2 ![1, 1, D]) :
    GatherDims ⟨3, ![B, N, D]⟩ ⟨3, ![B, J, 1]⟩ ⟨3, ![B, J, D]⟩ where
  offsetDims := [2]
  collapsedSliceDims := [1]
  operandBatchingDims := [0]
  startIndicesBatchingDims := [0]
  startIndexMap := [1]
  indexVectorDim := 2
  sliceSizes := ![1, 1, D]
  wf := wf

/-- A BATCHED ROW GATHER READ AT `(p, j, d)`: the operand at slab `p`, row `idx[p, j, 0]` (read signed, clamped into
    `[0, N − 1]`) and entry `d`. -/
theorem gather_slab_apply {B N D J w : Nat} (hN : 0 < N)
    (wf : GatherDims.WF ⟨3, ![B, N, D]⟩ ⟨3, ![B, J, 1]⟩ ⟨3, ![B, J, D]⟩ [2] [1] [0] [1] [0] 2 ![1, 1, D])
    (x : (⟨3, ![B, N, D]⟩ : Shape).Idx → α) (idx : IVec ⟨3, ![B, J, 1]⟩ w) (p : Fin B) (j : Fin J) (d : Fin D) :
    Host.gather (slabDims B N D J wf) x idx (ix3 p j d)
      = x (ix3 p (⟨min (idx (ix3 p j (0 : Fin 1))).toInt.toNat (N - 1), by omega⟩ : Fin N) d) := by
  unfold Host.gather
  congr 1
  funext a
  refine Fin.ext ?_
  match a with
  | ⟨0, _⟩ =>
    -- the batching axis: start zero, the result's slab, no offset
    show (slabDims B N D J wf).start (ix3 p j d) idx 0 + (slabDims B N D J wf).batchCoord (ix3 p j d) 0
        + (slabDims B N D J wf).offCoord (ix3 p j d) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (slabDims B N D J wf).operandBatchingDims from List.mem_singleton.mpr rfl)]
    rfl
  | ⟨1, _⟩ =>
    -- the indexed axis: the clamped start, nothing added
    show (slabDims B N D J wf).start (ix3 p j d) idx 1 + (slabDims B N D J wf).batchCoord (ix3 p j d) 1
        + (slabDims B N D J wf).offCoord (ix3 p j d) 1 = _
    rw [GatherDims.batchCoord_eq_zero _ _ _ (fun h => absurd (List.mem_singleton.mp h)
        (show ¬ ((1 : Fin 3) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (slabDims B N D J wf).startIndexMap from List.mem_singleton.mpr rfl)]
    have hsi : (slabDims B N D J wf).siIdx (ix3 p j d) ⟨List.idxOf (1 : Fin 3) (slabDims B N D J wf).startIndexMap,
        List.idxOf_lt_length_iff.2 (List.mem_singleton.mpr rfl)⟩ = ix3 p j (0 : Fin 1) := by
      funext b; refine Fin.ext ?_
      match b with
      | ⟨0, _⟩ => rfl
      | ⟨1, _⟩ => rfl
      | ⟨2, _⟩ => rfl
    rw [hsi]
    rfl
  | ⟨2, _⟩ =>
    -- the offset axis: start zero, no batching, the result's entry
    show (slabDims B N D J wf).start (ix3 p j d) idx 2 + (slabDims B N D J wf).batchCoord (ix3 p j d) 2
        + (slabDims B N D J wf).offCoord (ix3 p j d) 2 = _
    rw [GatherDims.batchCoord_eq_zero _ _ _ (fun h => absurd (List.mem_singleton.mp h)
        (show ¬ ((2 : Fin 3) = 0) by decide))]
    unfold GatherDims.start
    rw [dif_neg (show (2 : Fin 3) ∉ (slabDims B N D J wf).startIndexMap from
      fun h => absurd (List.mem_singleton.mp h) (show ¬ ((2 : Fin 3) = 1) by decide))]
    simp only [Nat.add_zero, Nat.zero_add]
    rfl

end Cert.LibGatherSlab

end
-- ==== Proof.RefValue.lean ====
/-
  The reference's result is the specification.

  The reference gathers, for every state `p`, three rows of its slab twice: at the words `buffer_index p + j` and at
  the words `stack_indexes p j` (`j < 3`).  Each gather first adds 128 to a negative word, tests `0 ≤ · ≤ 127`, reads
  the row at the word clamped into `[0, 127]`, and writes a fill value where the test fails.  Inside the stated index
  range every word is below 128, so the wrap and the clamp do nothing, the test holds everywhere, and the gathered
  array at `(p, j, d)` is entry `d` of row `row p j` of slab `p`.  Flattened to 180 entries and laid side by side the two
  results are the 360 features `feat p k`, `k = 60 * j + d`; the two matrix products with their biases and the
  maximum with zero between them are then the specification's `hid` and `outAt` term by term.
-/
import proofs.«404969_j24275155157382_3_alg».proof.Proof.RefRunP
import proofs.«404969_j24275155157382_3_alg».proof.Proof.RefReadP
import proofs.«404969_j24275155157382_3_alg».proof.Proof.Spec
import proofs.«404969_j24275155157382_3_alg».proof.Proof.LibAllOnes
import proofs.«404969_j24275155157382_3_alg».proof.Proof.LibGatherSlab
import Idealize.ShloMosaic.Lib.Pipeline.Value
import Idealize.ShloMosaic.Lib.ValueIdx
import Idealize.ShloMosaic.PureOps.Ideal
import Idealize.ShloMosaic.PureOps.Ideal.Laws

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx

/-! ## Words below 128 -/

/-- A 32-bit word below 128, read as a signed integer, is its number. -/
theorem toInt_of_lt {w : BitVec 32} (hw : w.toNat < 128) : w.toInt = (w.toNat : Int) := by
  rw [BitVec.toInt_eq_toNat_cond]
  split
  · rfl
  · omega

/-- Adding the extent to negative words leaves a word below 128 alone. -/
theorem wrap_id {w : BitVec 32} (hw : w.toNat < 128) :
    Scalar.select (IntOp.cmpi .slt w 0#32) (IntOp.addi w 128#32) w = w := by
  refine Scalar.select_wrap_of_nonneg (IntOp.cmpi_sge.2 ?_)
  have h0 : (0#32 : BitVec 32).toInt = 0 := by decide
  rw [toInt_of_lt hw, h0]
  omega

/-- A word below 128 passes the test `0 ≤ · ≤ 127` of signed comparisons. -/
theorem in_mask {w : BitVec 32} (hw : w.toNat < 128) :
    IntOp.andi (IntOp.cmpi .sge w 0#32) (IntOp.cmpi .sle w 127#32) = 1#1 := by
  have h0 : (0#32 : BitVec 32).toInt = 0 := by decide
  have h127 : (127#32 : BitVec 32).toInt = 127 := by decide
  refine IntOp.andi_eq_one.2 ⟨IntOp.cmpi_sge.2 ?_, IntOp.cmpi_sle.2 ?_⟩
  · rw [toInt_of_lt hw, h0]; omega
  · rw [toInt_of_lt hw, h127]; omega

/-- Clamping a word below 128 into `[0, 127]` gives its number. -/
theorem clamp_id {w : BitVec 32} (hw : w.toNat < 128) : min w.toInt.toNat (128 - 1) = w.toNat := by
  rw [toInt_of_lt hw, Int.toNat_natCast]
  omega

/-! ## The row words of the specification -/

/-- The first three row words: `buffer_index p + j`. -/
theorem rowWord_lo (bi : IVec ⟨1, ![4096]⟩ 32) (si : IVec ⟨2, ![4096, 3]⟩ 32) (p : Fin 4096) (j : Fin 3) :
    Spec.rowWord bi si p ⟨j.val, by omega⟩ = bi (ix1 p) + BitVec.ofNat 32 j.val := by
  unfold Spec.rowWord
  rw [dif_pos (show (⟨j.val, by omega⟩ : Fin 6).val < 3 from j.isLt)]

/-- The last three row words: `stack_indexes p j`. -/
theorem rowWord_hi (bi : IVec ⟨1, ![4096]⟩ 32) (si : IVec ⟨2, ![4096, 3]⟩ 32) (p : Fin 4096) (j : Fin 3) :
    Spec.rowWord bi si p ⟨j.val + 3, by omega⟩ = si (ix2 p j) := by
  unfold Spec.rowWord
  rw [dif_neg (show ¬ (⟨j.val + 3, by omega⟩ : Fin 6).val < 3 from by show ¬ j.val + 3 < 3; omega)]
  exact congrArg (fun r => si (ix2 p r)) (Fin.ext (by show j.val + 3 - 3 = j.val; omega))

/-! ## The index words the two gathers read -/

/-- The first gather's index array at `(p, j, ·)` is `buffer_index p + j`. -/
theorem idxword0 (x5 : IVec ⟨1, ![4096]⟩ 32) (p : Fin 4096) (j : Fin 3) (u : Fin 1) :
    Read.val_main_v6 (F := Ideal) x5 (ix3 p j u) = x5 (ix1 p) + BitVec.ofNat 32 j.val := by
  rw [Read.val_main_v6_apply, Read.val_main_v5_apply, Read.val_main_v3_apply, Read.val_main_v0_apply,
    Read.val_main_v4_apply, Read.val_main_v2_apply, Read.val_main_v1_apply]
  have e : Read.idx_main_v0 (Read.idx_main_v3 (Read.idx_main_v6 (ix3 p j u))) = ix1 p :=
    funext fun a => Fin.ext (by match a with | ⟨0, _⟩ => rfl)
  rw [e]
  rfl

/-- The second gather's index array at `(p, j, ·)` is `stack_indexes p j`. -/
theorem idxword1 (x6 : IVec ⟨2, ![4096, 3]⟩ 32) (p : Fin 4096) (j : Fin 3) (u : Fin 1) :
    Read.val_main_v9 (F := Ideal) x6 (ix3 p j u) = x6 (ix2 p j) := by
  rw [Read.val_main_v9_apply]
  exact congrArg x6 (funext fun a => Fin.ext (by match a with | ⟨0, _⟩ => rfl | ⟨1, _⟩ => rfl))

/-! ## The first gather: rows `buffer_index p + j` -/

/-- Inside the range the normalised index word of call 0 is the row word itself. -/
theorem wrapped0 (x5 : IVec ⟨1, ![4096]⟩ 32) (p : Fin 4096) (j : Fin 3) (u : Fin 1)
    (hw : (x5 (ix1 p) + BitVec.ofNat 32 j.val).toNat < 128) :
    Read.val_main_call0_v4 (F := Ideal) x5 (ix3 p j u) = x5 (ix1 p) + BitVec.ofNat 32 j.val := by
  rw [Read.val_main_call0_v4_apply, Read.val_main_call0_v1_apply, Read.val_main_call0_v3_apply,
    Read.val_main_call0_v0_apply, Read.val_main_call0_c_apply, Read.val_main_call0_v2_apply,
    Read.val_main_call0_c_0_apply, idxword0 x5 p j u]
  exact wrap_id hw

/-- Inside the range the in-bounds test of call 0 holds at every index word. -/
theorem inb0 (x5 : IVec ⟨1, ![4096]⟩ 32) (p : Fin 4096) (j : Fin 3) (u : Fin 1)
    (hw : (x5 (ix1 p) + BitVec.ofNat 32 j.val).toNat < 128) :
    Read.val_main_call0_v10 (F := Ideal) x5 (ix3 p j u) = 1#1 := by
  rw [Read.val_main_call0_v10_apply, Read.val_main_call0_v6_apply, Read.val_main_call0_v9_apply,
    Read.val_main_call0_v5_apply, Read.val_main_call0_c_2_apply, Read.val_main_call0_v8_apply,
    Read.val_main_call0_v7_apply, Read.val_main_call0_c_1_apply, wrapped0 x5 p j u hw]
  exact in_mask hw

/-- The gather of call 0 at `(p, j, d)`: entry `d` of the row of slab `p` that the row word names. -/
theorem gathered0 (x0 : FVec Ideal ⟨3, ![4096, 128, 60]⟩ .f32) (x5 : IVec ⟨1, ![4096]⟩ 32) (p : Fin 4096) (j : Fin 3) (d : Fin 60)
    (hw : (x5 (ix1 p) + BitVec.ofNat 32 j.val).toNat < 128) :
    Read.val_main_call0_v12 (F := Ideal) x0 x5 (ix3 p j d)
      = x0 (ix3 p (⟨(x5 (ix1 p) + BitVec.ofNat 32 j.val).toNat, hw⟩ : Fin 128) d) := by
  unfold Read.val_main_call0_v12
  refine (LibGatherSlab.gather_slab_apply (B := 4096) (N := 128) (D := 60) (J := 3) (by decide)
    gather_S4096x128x60_S4096x3x1_S4096x3x60_2_1_0_0_1_2_1160.wf x0 _ p j d).trans ?_
  refine congrArg x0 (congrArg (fun r => ix3 p r d) (Fin.ext ?_))
  show min (Read.val_main_call0_v4 (F := Ideal) x5 (ix3 p j (0 : Fin 1))).toInt.toNat (128 - 1) = _
  rw [wrapped0 x5 p j 0 hw]
  exact clamp_id hw

/-- Inside the range the first gather keeps the gathered value: row `row p j` of slab `p`. -/
theorem taken0 (x0 : FVec Ideal ⟨3, ![4096, 128, 60]⟩ .f32) (x5 : IVec ⟨1, ![4096]⟩ 32) (x6 : IVec ⟨2, ![4096, 3]⟩ 32) (h : Spec.InRange x5 x6)
    (p : Fin 4096) (j : Fin 3) (d : Fin 60) :
    Read.val_main_v7 (F := Ideal) x0 x5 (ix3 p j d) = x0 (ix3 p (Spec.row x5 x6 p ⟨j.val, by omega⟩) d) := by
  have hw := Spec.rowWord_toNat h p ⟨j.val, by omega⟩
  rw [rowWord_lo] at hw
  have hm : Read.val_main_call0_v11 (F := Ideal) x5 (Read.idx_main_call0_v13 (ix3 p j d)) = 1#1 := by
    unfold Read.val_main_call0_v11
    refine Host.reduce_andi_of_all _ _ _ _ rfl (fun i => ?_) _
    obtain ⟨p', j', u', rfl⟩ : ∃ (p' : Fin 4096) (j' : Fin 3) (u' : Fin 1), i = ix3 p' j' u' := ⟨i 0, i 1, i 2, eq_ix3 i⟩
    have hw' := Spec.rowWord_toNat h p' ⟨j'.val, by omega⟩
    rw [rowWord_lo] at hw'
    exact inb0 x5 p' j' u' hw'.2
  rw [Read.val_main_v7_apply, Read.val_main_call0_v13_apply, hm, select_one, gathered0 x0 x5 p j d hw.2]
  exact congrArg x0 (congrArg (fun r => ix3 p r d) (Fin.ext hw.1))

/-! ## The second gather: rows `stack_indexes p j` -/

/-- Inside the range the normalised index word of call 1 is the row word itself. -/
theorem wrapped1 (x6 : IVec ⟨2, ![4096, 3]⟩ 32) (p : Fin 4096) (j : Fin 3) (u : Fin 1)
    (hw : (x6 (ix2 p j)).toNat < 128) :
    Read.val_main_call1_v4 (F := Ideal) x6 (ix3 p j u) = x6 (ix2 p j) := by
  rw [Read.val_main_call1_v4_apply, Read.val_main_call1_v1_apply, Read.val_main_call1_v3_apply,
    Read.val_main_call1_v0_apply, Read.val_main_call1_c_apply, Read.val_main_call1_v2_apply,
    Read.val_main_call1_c_0_apply, idxword1 x6 p j u]
  exact wrap_id hw

/-- Inside the range the in-bounds test of call 1 holds at every index word. -/
theorem inb1 (x6 : IVec ⟨2, ![4096, 3]⟩ 32) (p : Fin 4096) (j : Fin 3) (u : Fin 1)
    (hw : (x6 (ix2 p j)).toNat < 128) :
    Read.val_main_call1_v10 (F := Ideal) x6 (ix3 p j u) = 1#1 := by
  rw [Read.val_main_call1_v10_apply, Read.val_main_call1_v6_apply, Read.val_main_call1_v9_apply,
    Read.val_main_call1_v5_apply, Read.val_main_call1_c_2_apply, Read.val_main_call1_v8_apply,
    Read.val_main_call1_v7_apply, Read.val_main_call1_c_1_apply, wrapped1 x6 p j u hw]
  exact in_mask hw

/-- The gather of call 1 at `(p, j, d)`: entry `d` of the row of slab `p` that the row word names. -/
theorem gathered1 (x0 : FVec Ideal ⟨3, ![4096, 128, 60]⟩ .f32) (x6 : IVec ⟨2, ![4096, 3]⟩ 32) (p : Fin 4096) (j : Fin 3) (d : Fin 60)
    (hw : (x6 (ix2 p j)).toNat < 128) :
    Read.val_main_call1_v12 (F := Ideal) x0 x6 (ix3 p j d)
      = x0 (ix3 p (⟨(x6 (ix2 p j)).toNat, hw⟩ : Fin 128) d) := by
  unfold Read.val_main_call1_v12
  refine (LibGatherSlab.gather_slab_apply (B := 4096) (N := 128) (D := 60) (J := 3) (by decide)
    gather_S4096x128x60_S4096x3x1_S4096x3x60_2_1_0_0_1_2_1160.wf x0 _ p j d).trans ?_
  refine congrArg x0 (congrArg (fun r => ix3 p r d) (Fin.ext ?_))
  show min (Read.val_main_call1_v4 (F := Ideal) x6 (ix3 p j (0 : Fin 1))).toInt.toNat (128 - 1) = _
  rw [wrapped1 x6 p j 0 hw]
  exact clamp_id hw

/-- Inside the range the second gather keeps the gathered value: row `row p (j + 3)` of slab `p`. -/
theorem taken1 (x0 : FVec Ideal ⟨3, ![4096, 128, 60]⟩ .f32) (x5 : IVec ⟨1, ![4096]⟩ 32) (x6 : IVec ⟨2, ![4096, 3]⟩ 32) (h : Spec.InRange x5 x6)
    (p : Fin 4096) (j : Fin 3) (d : Fin 60) :
    Read.val_main_v10 (F := Ideal) x0 x6 (ix3 p j d) = x0 (ix3 p (Spec.row x5 x6 p ⟨j.val + 3, by omega⟩) d) := by
  have hw := Spec.rowWord_toNat h p ⟨j.val + 3, by omega⟩
  rw [rowWord_hi] at hw
  have hm : Read.val_main_call1_v11 (F := Ideal) x6 (Read.idx_main_call1_v13 (ix3 p j d)) = 1#1 := by
    unfold Read.val_main_call1_v11
    refine Host.reduce_andi_of_all _ _ _ _ rfl (fun i => ?_) _
    obtain ⟨p', j', u', rfl⟩ : ∃ (p' : Fin 4096) (j' : Fin 3) (u' : Fin 1), i = ix3 p' j' u' := ⟨i 0, i 1, i 2, eq_ix3 i⟩
    have hw' := Spec.rowWord_toNat h p' ⟨j'.val + 3, by omega⟩
    rw [rowWord_hi] at hw'
    exact inb1 x6 p' j' u' hw'.2
  rw [Read.val_main_v10_apply, Read.val_main_call1_v13_apply, hm, select_one, gathered1 x0 x6 p j d hw.2]
  exact congrArg x0 (congrArg (fun r => ix3 p r d) (Fin.ext hw.1))

/-! ## The 360 features -/

/-- The two gathered arrays, each flattened to 180 entries, side by side: entry `k` of state `p` is `feat p k`. -/
theorem feat_eq (x0 : FVec Ideal ⟨3, ![4096, 128, 60]⟩ .f32) (x5 : IVec ⟨1, ![4096]⟩ 32) (x6 : IVec ⟨2, ![4096, 3]⟩ 32) (h : Spec.InRange x5 x6)
    (p : Fin 4096) (k : Fin 360) :
    Read.val_main_v12 (F := Ideal) x0 x5 x6 (ix2 p k) = Spec.feat x0 x5 x6 p k := by
  have hk360 : k.val < 360 := k.isLt
  have hp : p.val < 4096 := p.isLt
  unfold Read.val_main_v12 Spec.feat
  by_cases hk : k.val < 180
  · refine (concatenate_pair_apply_left (t := S4096x360) (s₁ := S4096x180) (s₂ := S4096x180) (1 : Fin 2) _ _ _ (ix2 p k) rfl (ix2 p (⟨k.val, hk⟩ : Fin 180))
      (fun b => by match b with | ⟨0, _⟩ => rfl | ⟨1, _⟩ => rfl)).trans ?_
    have e : Read.idx_main_v8 (ix2 p (⟨k.val, hk⟩ : Fin 180))
        = ix3 p (⟨k.val / 60, by omega⟩ : Fin 3) (⟨k.val % 60, Nat.mod_lt _ (by norm_num)⟩ : Fin 60) :=
      funext fun a => Fin.ext (by
        match a with
        | ⟨0, _⟩ => show (p.val * 180 + k.val) / 180 = p.val; omega
        | ⟨1, _⟩ => show (p.val * 180 + k.val) / 60 % 3 = k.val / 60; omega
        | ⟨2, _⟩ => show (p.val * 180 + k.val) % 60 = k.val % 60; omega)
    rw [Read.val_main_v8_apply, e, taken0 x0 x5 x6 h]
  · refine (concatenate_pair_apply_right (t := S4096x360) (s₁ := S4096x180) (s₂ := S4096x180) (1 : Fin 2) _ _ _ (ix2 p k) rfl rfl (ix2 p (⟨k.val - 180, by omega⟩ : Fin 180))
      (fun b hb => by
        match b, hb with
        | ⟨0, _⟩, _ => rfl
        | ⟨1, _⟩, hb => exact absurd (Fin.ext rfl) hb)
      (by show (k.val - 180) + 180 = k.val; omega)).trans ?_
    have e : Read.idx_main_v11 (ix2 p (⟨k.val - 180, by omega⟩ : Fin 180))
        = ix3 p (⟨k.val / 60 - 3, by omega⟩ : Fin 3) (⟨k.val % 60, Nat.mod_lt _ (by norm_num)⟩ : Fin 60) :=
      funext fun a => Fin.ext (by
        match a with
        | ⟨0, _⟩ => show (p.val * 180 + (k.val - 180)) / 180 = p.val; omega
        | ⟨1, _⟩ => show (p.val * 180 + (k.val - 180)) / 60 % 3 = k.val / 60 - 3; omega
        | ⟨2, _⟩ => show (p.val * 180 + (k.val - 180)) % 60 = k.val % 60; omega)
    rw [Read.val_main_v11_apply, e, taken1 x0 x5 x6 h]
    exact congrArg (fun r => x0 (ix3 p (Spec.row x5 x6 p r) (⟨k.val % 60, Nat.mod_lt _ (by norm_num)⟩ : Fin 60)))
      (Fin.ext (by show k.val / 60 - 3 + 3 = k.val / 60; omega))

/-! ## The two layers -/

/-- The first product, its bias and the maximum with zero: the specification's hidden layer. -/
theorem hid_eq (x0 : FVec Ideal ⟨3, ![4096, 128, 60]⟩ .f32) (x1 : FVec Ideal ⟨2, ![360, 200]⟩ .f32)
    (x2 : FVec Ideal ⟨1, ![200]⟩ .f32) (x5 : IVec ⟨1, ![4096]⟩ 32) (x6 : IVec ⟨2, ![4096, 3]⟩ 32) (h : Spec.InRange x5 x6) (p : Fin 4096) (q : Fin 200) :
    Read.val_main_v17 (F := Ideal) x0 x1 x2 x5 x6 (ix2 p q) = Spec.hid x0 x1 x2 x5 x6 p q := by
  have hs : (∑ k : Fin 360, Read.val_main_v12 (F := Ideal) x0 x5 x6 (Read.lidx_main_v13 (ix2 p q) k)
        * x1 (Read.ridx_main_v13 (ix2 p q) k)) = ∑ k : Fin 360, Spec.feat x0 x5 x6 p k * x1 (ix2 k q) :=
    Finset.sum_congr rfl fun k _ => by
      have el : Read.lidx_main_v13 (ix2 p q) k = ix2 p k :=
        funext fun a => Fin.ext (by match a with | ⟨0, _⟩ => rfl | ⟨1, _⟩ => rfl)
      have er : Read.ridx_main_v13 (ix2 p q) k = ix2 k q :=
        funext fun a => Fin.ext (by match a with | ⟨0, _⟩ => rfl | ⟨1, _⟩ => rfl)
      rw [el, er, feat_eq x0 x5 x6 h]
  have hb : Read.idx_main_v14 (Read.idx_main_v15 (ix2 p q)) = ix1 q :=
    funext fun a => Fin.ext (by match a with | ⟨0, _⟩ => rfl)
  rw [Read.val_main_v17_apply, Read.val_main_v16_apply, Read.val_main_v13_apply, Read.val_main_v15_apply,
    Read.val_main_v14_apply, Read.val_main_call2_v0_apply, Read.val_main_call2_cst_apply, hs, hb]
  simp only [Ideal.maximumf_def, Ideal.addf_def, Ideal.ofBits_def, Ideal.ofBits_zero_f32]
  rfl

/-- The second product and its bias: the specification's result, as whole arrays. -/
theorem out_eq (x0 : FVec Ideal ⟨3, ![4096, 128, 60]⟩ .f32) (x1 : FVec Ideal ⟨2, ![360, 200]⟩ .f32)
    (x2 : FVec Ideal ⟨1, ![200]⟩ .f32) (x3 : FVec Ideal ⟨2, ![200, 3]⟩ .f32) (x4 : FVec Ideal ⟨1, ![3]⟩ .f32)
    (x5 : IVec ⟨1, ![4096]⟩ 32) (x6 : IVec ⟨2, ![4096, 3]⟩ 32) (h : Spec.InRange x5 x6) :
    Read.val_main_v21 (F := Ideal) x0 x1 x2 x3 x4 x5 x6 = Spec.out x0 x1 x2 x3 x4 x5 x6 := by
  funext i
  obtain ⟨p, o, rfl⟩ : ∃ (p : Fin 4096) (o : Fin 3), i = ix2 p o := ⟨i 0, i 1, eq_ix2 i⟩
  have hs : (∑ k : Fin 200, Read.val_main_v17 (F := Ideal) x0 x1 x2 x5 x6 (Read.lidx_main_v18 (ix2 p o) k)
        * x3 (Read.ridx_main_v18 (ix2 p o) k)) = ∑ k : Fin 200, Spec.hid x0 x1 x2 x5 x6 p k * x3 (ix2 k o) :=
    Finset.sum_congr rfl fun k _ => by
      have el : Read.lidx_main_v18 (ix2 p o) k = ix2 p k :=
        funext fun a => Fin.ext (by match a with | ⟨0, _⟩ => rfl | ⟨1, _⟩ => rfl)
      have er : Read.ridx_main_v18 (ix2 p o) k = ix2 k o :=
        funext fun a => Fin.ext (by match a with | ⟨0, _⟩ => rfl | ⟨1, _⟩ => rfl)
      rw [el, er, hid_eq x0 x1 x2 x5 x6 h]
  have hb : Read.idx_main_v19 (Read.idx_main_v20 (ix2 p o)) = ix1 o :=
    funext fun a => Fin.ext (by match a with | ⟨0, _⟩ => rfl)
  rw [Read.val_main_v21_apply, Read.val_main_v18_apply, Read.val_main_v20_apply, Read.val_main_v19_apply, hs, hb]
  simp only [Ideal.addf_def]
  rfl

/-- The reference's result, as its run states it, is the specification of the argument arrays. -/
theorem res_eq (m : (ℓ : Loc Cert.ReferenceIdeal.nD Cert.ReferenceIdeal.τ Cert.ReferenceIdeal.sig) → Buf (Elt Ideal) ℓ)
    (c : Dev Cert.ReferenceIdeal.nD)
    (h : Cert.Spec.InRange (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))) :
    Cert.ReferenceIdeal.Value.res_main_v21 (F := Ideal) m c
      = Cert.Spec.out (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5))
          (m ((c.tc : Thread _ _).loc Cert.ReferenceIdeal.main_arg6)) := by
  rw [Read.val_main_v21_eq]
  exact out_eq _ _ _ _ _ _ _ h

end Cert.RefValue

end
-- ==== Proof.RefOps.lean ====
/-
  The reference's host lines, in order, cut into nine consecutive stretches (a cut before every value that several
  later lines read): the operation list is their concatenation.  Each stretch is small enough to be read on its own.
-/
import proofs.«404969_j24275155157382_3_alg».proof.Proof.RefRunP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 1: the first gather's index: buffer_index + (0, 1, 2), as a 4096 x 3 x 1 array. -/
abbrev C1 : List (HloOp τ sig (Elt F)) :=
  [ unary main_arg5 main_v0 (broadcastInDim S4096x1 ![0] bcast_S4096_S4096x1_0 : (⟨S4096, .i32⟩ : BufTy).Contents (Elt F) → (⟨S4096x1, .i32⟩ : BufTy).Contents (Elt F)),
    nullary main_v1 (iotaInDim S3 32 0),
    unary main_v1 main_v2 (broadcastInDim S1x3 ![1] bcast_S3_S1x3_1 : (⟨S3, .i32⟩ : BufTy).Contents (Elt F) → (⟨S1x3, .i32⟩ : BufTy).Contents (Elt F)),
    unary main_v0 main_v3 (broadcastInDim S4096x3 ![0, 1] bcast_S4096x1_S4096x3_0_1 : (⟨S4096x1, .i32⟩ : BufTy).Contents (Elt F) → (⟨S4096x3, .i32⟩ : BufTy).Contents (Elt F)),
    unary main_v2 main_v4 (broadcastInDim S4096x3 ![0, 1] bcast_S1x3_S4096x3_0_1 : (⟨S1x3, .i32⟩ : BufTy).Contents (Elt F) → (⟨S4096x3, .i32⟩ : BufTy).Contents (Elt F)),
    binary main_v3 main_v4 main_v5 (addi : (⟨S4096x3, .i32⟩ : BufTy).Contents (Elt F) → (⟨S4096x3, .i32⟩ : BufTy).Contents (Elt F) → (⟨S4096x3, .i32⟩ : BufTy).Contents (Elt F)),
    unary main_v5 main_v6 (broadcastInDim S4096x3x1 ![0, 1] bcast_S4096x3_S4096x3x1_0_1 : (⟨S4096x3, .i32⟩ : BufTy).Contents (Elt F) → (⟨S4096x3x1, .i32⟩ : BufTy).Contents (Elt F)) ]

/-- Stretch 2: first gather: the index wrapped (a negative index plus 128). -/
abbrev C2 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096x3x1, .i32⟩) main_call0_v0) (broadcastInDim S4096x3x1 ![] bcast_S_S4096x3x1),
    TRef.binary (TRef.of (T := ⟨S4096x3x1, .i32⟩) main_v6) (TRef.of (T := ⟨S4096x3x1, .i32⟩) main_call0_v0) (TRef.of (T := ⟨S4096x3x1, .i1⟩) main_call0_v1) (cmpi .slt),
    TRef.nullary (TRef.of (T := ⟨S_, .i32⟩) main_call0_c_0) (constantI S_ 32 128#32),
    TRef.unary (TRef.of (T := ⟨S_, .i32⟩) main_call0_c_0) (TRef.of (T := ⟨S4096x3x1, .i32⟩) main_call0_v2) (broadcastInDim S4096x3x1 ![] bcast_S_S4096x3x1),
    TRef.binary (TRef.of (T := ⟨S4096x3x1, .i32⟩) main_v6) (TRef.of (T := ⟨S4096x3x1, .i32⟩) main_call0_v2) (TRef.of (T := ⟨S4096x3x1, .i32⟩) main_call0_v3) addi,
    TRef.ternary (TRef.of (T := ⟨S4096x3x1, .i1⟩) main_call0_v1) (TRef.of (T := ⟨S4096x3x1, .i32⟩) main_call0_v3) (TRef.of (T := ⟨S4096x3x1, .i32⟩) main_v6) (TRef.of (T := ⟨S4096x3x1, .i32⟩) main_call0_v4) select ]

/-- Stretch 3: first gather: the in-range mask, the gathered rows, the fill outside the range. -/
abbrev C3 : List (HloOp τ sig (Elt F)) :=
  [ TRef.nullary (TRef.of (T := ⟨S1, .i32⟩) main_call0_c_1) (constantI S1 32 127#32),
    TRef.nullary (TRef.of (T := ⟨S_, .i32⟩) main_call0_c_2) (constantI S_ 32 0#32),
    TRef.unary (TRef.of (T := ⟨S_, .i32⟩) main_call0_c_2) (TRef.of (T := ⟨S4096x3x1, .i32⟩) main_call0_v5) (broadcastInDim S4096x3x1 ![] bcast_S_S4096x3x1),
    TRef.binary (TRef.of (T := ⟨S4096x3x1, .i32⟩) main_call0_v4) (TRef.of (T := ⟨S4096x3x1, .i32⟩) main_call0_v5) (TRef.of (T := ⟨S4096x3x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4096x3x1, .i32⟩) main_call0_v8) (broadcastInDim S4096x3x1 ![0, 1, 2] bcast_S1x1x1_S4096x3x1_0_1_2),
    TRef.binary (TRef.of (T := ⟨S4096x3x1, .i32⟩) main_call0_v4) (TRef.of (T := ⟨S4096x3x1, .i32⟩) main_call0_v8) (TRef.of (T := ⟨S4096x3x1, .i1⟩) main_call0_v9) (cmpi .sle),
    TRef.binary (TRef.of (T := ⟨S4096x3x1, .i1⟩) main_call0_v6) (TRef.of (T := ⟨S4096x3x1, .i1⟩) main_call0_v9) (TRef.of (T := ⟨S4096x3x1, .i1⟩) main_call0_v10) andi,
    TRef.nullary (TRef.of (T := ⟨S_, .i1⟩) main_call0_c_3) (constantI S_ 1 1#1),
    TRef.binary (TRef.of (T := ⟨S4096x3x1, .i1⟩) main_call0_v10) (TRef.of (T := ⟨S_, .i1⟩) main_call0_c_3) (TRef.of (T := ⟨S4096x3, .i1⟩) main_call0_v11) (fun x v => Host.reduce IntOp.andi x v reducesTo_S4096x3x1_S4096x3_d2 h_S_),
    TRef.binary (TRef.of (T := ⟨S4096x128x60, .f32⟩) main_arg0) (TRef.of (T := ⟨S4096x3x1, .i32⟩) main_call0_v4) (TRef.of (T := ⟨S4096x3x60, .f32⟩) main_call0_v12) (fun x i => Host.gather gather_S4096x128x60_S4096x3x1_S4096x3x60_2_1_0_0_1_2_1160 x i),
    TRef.unary (TRef.of (T := ⟨S4096x3, .i1⟩) main_call0_v11) (TRef.of (T := ⟨S4096x3x60, .i1⟩) main_call0_v13) (broadcastInDim S4096x3x60 ![0, 1] bcast_S4096x3_S4096x3x60_0_1),
    TRef.nullary (TRef.of (T := ⟨S_, .f32⟩) main_call0_cst) (constant S_ .f32 0x7FC00000#32),
    TRef.unary (TRef.of (T := ⟨S_, .f32⟩) main_call0_cst) (TRef.of (T := ⟨S4096x3x60, .f32⟩) main_call0_v14) (broadcastInDim S4096x3x60 ![] bcast_S_S4096x3x60),
    TRef.ternary (TRef.of (T := ⟨S4096x3x60, .i1⟩) main_call0_v13) (TRef.of (T := ⟨S4096x3x60, .f32⟩) main_call0_v12) (TRef.of (T := ⟨S4096x3x60, .f32⟩) main_call0_v14) (TRef.of (T := ⟨S4096x3x60, .f32⟩) main_v7) select ]

/-- Stretch 4: the first three rows side by side (4096 x 180), and the second gather's index (stack_indexes as 4096 x 3 x 1). -/
abbrev C4 : List (HloOp τ sig (Elt F)) :=
  [ reshape main_v7 main_v8 rfl shapeCasts_S4096x3x60_S4096x180,
    unary main_arg6 main_v9 (broadcastInDim S4096x3x1 ![0, 1] bcast_S4096x3_S4096x3x1_0_1 : (⟨S4096x3, .i32⟩ : BufTy).Contents (Elt F) → (⟨S4096x3x1, .i32⟩ : BufTy).Contents (Elt F)) ]

/-- Stretch 5: second gather: the index wrapped. -/
abbrev C5 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096x3x1, .i32⟩) main_call1_v0) (broadcastInDim S4096x3x1 ![] bcast_S_S4096x3x1),
    TRef.binary (TRef.of (T := ⟨S4096x3x1, .i32⟩) main_v9) (TRef.of (T := ⟨S4096x3x1, .i32⟩) main_call1_v0) (TRef.of (T := ⟨S4096x3x1, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S4096x3x1, .i32⟩) main_call1_v2) (broadcastInDim S4096x3x1 ![] bcast_S_S4096x3x1),
    TRef.binary (TRef.of (T := ⟨S4096x3x1, .i32⟩) main_v9) (TRef.of (T := ⟨S4096x3x1, .i32⟩) main_call1_v2) (TRef.of (T := ⟨S4096x3x1, .i32⟩) main_call1_v3) addi,
    TRef.ternary (TRef.of (T := ⟨S4096x3x1, .i1⟩) main_call1_v1) (TRef.of (T := ⟨S4096x3x1, .i32⟩) main_call1_v3) (TRef.of (T := ⟨S4096x3x1, .i32⟩) main_v9) (TRef.of (T := ⟨S4096x3x1, .i32⟩) main_call1_v4) select ]

/-- Stretch 6: second gather: mask, gathered rows, fill. -/
abbrev C6 : List (HloOp τ sig (Elt F)) :=
  [ TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S4096x3x1, .i32⟩) main_call1_v5) (broadcastInDim S4096x3x1 ![] bcast_S_S4096x3x1),
    TRef.binary (TRef.of (T := ⟨S4096x3x1, .i32⟩) main_call1_v4) (TRef.of (T := ⟨S4096x3x1, .i32⟩) main_call1_v5) (TRef.of (T := ⟨S4096x3x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4096x3x1, .i32⟩) main_call1_v8) (broadcastInDim S4096x3x1 ![0, 1, 2] bcast_S1x1x1_S4096x3x1_0_1_2),
    TRef.binary (TRef.of (T := ⟨S4096x3x1, .i32⟩) main_call1_v4) (TRef.of (T := ⟨S4096x3x1, .i32⟩) main_call1_v8) (TRef.of (T := ⟨S4096x3x1, .i1⟩) main_call1_v9) (cmpi .sle),
    TRef.binary (TRef.of (T := ⟨S4096x3x1, .i1⟩) main_call1_v6) (TRef.of (T := ⟨S4096x3x1, .i1⟩) main_call1_v9) (TRef.of (T := ⟨S4096x3x1, .i1⟩) main_call1_v10) andi,
    TRef.nullary (TRef.of (T := ⟨S_, .i1⟩) main_call1_c_3) (constantI S_ 1 1#1),
    TRef.binary (TRef.of (T := ⟨S4096x3x1, .i1⟩) main_call1_v10) (TRef.of (T := ⟨S_, .i1⟩) main_call1_c_3) (TRef.of (T := ⟨S4096x3, .i1⟩) main_call1_v11) (fun x v => Host.reduce IntOp.andi x v reducesTo_S4096x3x1_S4096x3_d2 h_S_),
    TRef.binary (TRef.of (T := ⟨S4096x128x60, .f32⟩) main_arg0) (TRef.of (T := ⟨S4096x3x1, .i32⟩) main_call1_v4) (TRef.of (T := ⟨S4096x3x60, .f32⟩) main_call1_v12) (fun x i => Host.gather gather_S4096x128x60_S4096x3x1_S4096x3x60_2_1_0_0_1_2_1160 x i),
    TRef.unary (TRef.of (T := ⟨S4096x3, .i1⟩) main_call1_v11) (TRef.of (T := ⟨S4096x3x60, .i1⟩) main_call1_v13) (broadcastInDim S4096x3x60 ![0, 1] bcast_S4096x3_S4096x3x60_0_1),
    TRef.nullary (TRef.of (T := ⟨S_, .f32⟩) main_call1_cst) (constant S_ .f32 0x7FC00000#32),
    TRef.unary (TRef.of (T := ⟨S_, .f32⟩) main_call1_cst) (TRef.of (T := ⟨S4096x3x60, .f32⟩) main_call1_v14) (broadcastInDim S4096x3x60 ![] bcast_S_S4096x3x60),
    TRef.ternary (TRef.of (T := ⟨S4096x3x60, .i1⟩) main_call1_v13) (TRef.of (T := ⟨S4096x3x60, .f32⟩) main_call1_v12) (TRef.of (T := ⟨S4096x3x60, .f32⟩) main_call1_v14) (TRef.of (T := ⟨S4096x3x60, .f32⟩) main_v10) select ]

/-- Stretch 7: the last three rows side by side (4096 x 180). -/
abbrev C7 : List (HloOp τ sig (Elt F)) :=
  [ reshape main_v10 main_v11 rfl shapeCasts_S4096x3x60_S4096x180 ]

/-- Stretch 8: the 360 features, the two layers. -/
abbrev C8 : List (HloOp τ sig (Elt F)) :=
  [ binary main_v8 main_v11 main_v12 ((fun a b => concatenate S4096x360 1 [⟨S4096x180, a⟩, ⟨S4096x180, b⟩] concatenates_S4096x180_S4096x180_S4096x360_d1) : (⟨S4096x180, .f32⟩ : BufTy).Contents (Elt F) → (⟨S4096x180, .f32⟩ : BufTy).Contents (Elt F) → (⟨S4096x360, .f32⟩ : BufTy).Contents (Elt F)),
    binary main_v12 main_arg1 main_v13 ((fun l r => Host.dotGeneral dot_S4096x360_S360x200_S4096x200_1_0_0_1_n_n none l r) : (⟨S4096x360, .f32⟩ : BufTy).Contents (Elt F) → (⟨S360x200, .f32⟩ : BufTy).Contents (Elt F) → (⟨S4096x200, .f32⟩ : BufTy).Contents (Elt F)),
    unary main_arg2 main_v14 (broadcastInDim S1x200 ![1] bcast_S200_S1x200_1 : (⟨S200, .f32⟩ : BufTy).Contents (Elt F) → (⟨S1x200, .f32⟩ : BufTy).Contents (Elt F)),
    unary main_v14 main_v15 (broadcastInDim S4096x200 ![0, 1] bcast_S1x200_S4096x200_0_1 : (⟨S1x200, .f32⟩ : BufTy).Contents (Elt F) → (⟨S4096x200, .f32⟩ : BufTy).Contents (Elt F)),
    binary main_v13 main_v15 main_v16 (addf : (⟨S4096x200, .f32⟩ : BufTy).Contents (Elt F) → (⟨S4096x200, .f32⟩ : BufTy).Contents (Elt F) → (⟨S4096x200, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x200, .f32⟩) main_call2_v0) (broadcastInDim S4096x200 ![] bcast_S_S4096x200),
    TRef.binary (TRef.of (T := ⟨S4096x200, .f32⟩) main_v16) (TRef.of (T := ⟨S4096x200, .f32⟩) main_call2_v0) (TRef.of (T := ⟨S4096x200, .f32⟩) main_v17) maximumf,
    binary main_v17 main_arg3 main_v18 ((fun l r => Host.dotGeneral dot_S4096x200_S200x3_S4096x3_1_0_0_1_n_n none l r) : (⟨S4096x200, .f32⟩ : BufTy).Contents (Elt F) → (⟨S200x3, .f32⟩ : BufTy).Contents (Elt F) → (⟨S4096x3, .f32⟩ : BufTy).Contents (Elt F)),
    unary main_arg4 main_v19 (broadcastInDim S1x3 ![1] bcast_S3_S1x3_1 : (⟨S3, .f32⟩ : BufTy).Contents (Elt F) → (⟨S1x3, .f32⟩ : BufTy).Contents (Elt F)),
    unary main_v19 main_v20 (broadcastInDim S4096x3 ![0, 1] bcast_S1x3_S4096x3_0_1 : (⟨S1x3, .f32⟩ : BufTy).Contents (Elt F) → (⟨S4096x3, .f32⟩ : BufTy).Contents (Elt F)),
    binary main_v18 main_v20 main_v21 (addf : (⟨S4096x3, .f32⟩ : BufTy).Contents (Elt F) → (⟨S4096x3, .f32⟩ : BufTy).Contents (Elt F) → (⟨S4096x3, .f32⟩ : BufTy).Contents (Elt F)) ]

/-- Stretch 9: the legality flags. -/
abbrev C9 : List (HloOp τ sig (Elt F)) :=
  [ nullary main_c (constantI S_ 32 3#32),
    unary main_c main_v22 (broadcastInDim S4096 ![] bcast_S_S4096 : (⟨S_, .i32⟩ : BufTy).Contents (Elt F) → (⟨S4096, .i32⟩ : BufTy).Contents (Elt F)),
    binary main_arg5 main_v22 main_v23 (addi : (⟨S4096, .i32⟩ : BufTy).Contents (Elt F) → (⟨S4096, .i32⟩ : BufTy).Contents (Elt F) → (⟨S4096, .i32⟩ : BufTy).Contents (Elt F)),
    nullary main_c_0 (constantI S_ 32 128#32),
    unary main_c_0 main_v24 (broadcastInDim S4096 ![] bcast_S_S4096 : (⟨S_, .i32⟩ : BufTy).Contents (Elt F) → (⟨S4096, .i32⟩ : BufTy).Contents (Elt F)),
    binary main_v23 main_v24 main_v25 (cmpi .sge : (⟨S4096, .i32⟩ : BufTy).Contents (Elt F) → (⟨S4096, .i32⟩ : BufTy).Contents (Elt F) → (⟨S4096, .i1⟩ : BufTy).Contents (Elt F)),
    nullary main_cst (constant S_ .f32 0x00000000#32),
    nullary main_cst_1 (constant S_ .f32 0x3F800000#32),
    TRef.unary (TRef.of (T := ⟨S_, .f32⟩) main_cst) (TRef.of (T := ⟨S4096, .f32⟩) main_call3_v0) (broadcastInDim S4096 ![] bcast_S_S4096),
    TRef.unary (TRef.of (T := ⟨S_, .f32⟩) main_cst_1) (TRef.of (T := ⟨S4096, .f32⟩) main_call3_v1) (broadcastInDim S4096 ![] bcast_S_S4096),
    TRef.ternary (TRef.of (T := ⟨S4096, .i1⟩) main_v25) (TRef.of (T := ⟨S4096, .f32⟩) main_call3_v0) (TRef.of (T := ⟨S4096, .f32⟩) main_call3_v1) (TRef.of (T := ⟨S4096, .f32⟩) main_v26) select,
    nullary main_c_2 (constantI S_ 32 3#32),
    unary main_c_2 main_v27 (broadcastInDim S4096 ![] bcast_S_S4096 : (⟨S_, .i32⟩ : BufTy).Contents (Elt F) → (⟨S4096, .i32⟩ : BufTy).Contents (Elt F)),
    binary main_arg7 main_v27 main_v28 (cmpi .sle : (⟨S4096, .i32⟩ : BufTy).Contents (Elt F) → (⟨S4096, .i32⟩ : BufTy).Contents (Elt F) → (⟨S4096, .i1⟩ : BufTy).Contents (Elt F)),
    nullary main_cst_3 (constant S_ .f32 0x00000000#32),
    nullary main_cst_4 (constant S_ .f32 0x3F800000#32),
    TRef.unary (TRef.of (T := ⟨S_, .f32⟩) main_cst_3) (TRef.of (T := ⟨S4096, .f32⟩) main_call4_v0) (broadcastInDim S4096 ![] bcast_S_S4096),
    TRef.unary (TRef.of (T := ⟨S_, .f32⟩) main_cst_4) (TRef.of (T := ⟨S4096, .f32⟩) main_call4_v1) (broadcastInDim S4096 ![] bcast_S_S4096),
    TRef.ternary (TRef.of (T := ⟨S4096, .i1⟩) main_v28) (TRef.of (T := ⟨S4096, .f32⟩) main_call4_v0) (TRef.of (T := ⟨S4096, .f32⟩) main_call4_v1) (TRef.of (T := ⟨S4096, .f32⟩) main_v29) select,
    nullary main_c_5 (constantI S_ 32 4#32),
    unary main_c_5 main_v30 (broadcastInDim S4096 ![] bcast_S_S4096 : (⟨S_, .i32⟩ : BufTy).Contents (Elt F) → (⟨S4096, .i32⟩ : BufTy).Contents (Elt F)),
    binary main_arg7 main_v30 main_v31 (cmpi .sle : (⟨S4096, .i32⟩ : BufTy).Contents (Elt F) → (⟨S4096, .i32⟩ : BufTy).Contents (Elt F) → (⟨S4096, .i1⟩ : BufTy).Contents (Elt F)),
    nullary main_cst_6 (constant S_ .f32 0x00000000#32),
    nullary main_cst_7 (constant S_ .f32 0x3F800000#32),
    TRef.unary (TRef.of (T := ⟨S_, .f32⟩) main_cst_6) (TRef.of (T := ⟨S4096, .f32⟩) main_call5_v0) (broadcastInDim S4096 ![] bcast_S_S4096),
    TRef.unary (TRef.of (T := ⟨S_, .f32⟩) main_cst_7) (TRef.of (T := ⟨S4096, .f32⟩) main_call5_v1) (broadcastInDim S4096 ![] bcast_S_S4096),
    TRef.ternary (TRef.of (T := ⟨S4096, .i1⟩) main_v31) (TRef.of (T := ⟨S4096, .f32⟩) main_call5_v0) (TRef.of (T := ⟨S4096, .f32⟩) main_call5_v1) (TRef.of (T := ⟨S4096, .f32⟩) main_v32) select,
    unary main_v26 main_v33 (broadcastInDim S4096x1 ![0] bcast_S4096_S4096x1_0 : (⟨S4096, .f32⟩ : BufTy).Contents (Elt F) → (⟨S4096x1, .f32⟩ : BufTy).Contents (Elt F)),
    unary main_v29 main_v34 (broadcastInDim S4096x1 ![0] bcast_S4096_S4096x1_0 : (⟨S4096, .f32⟩ : BufTy).Contents (Elt F) → (⟨S4096x1, .f32⟩ : BufTy).Contents (Elt F)),
    unary main_v32 main_v35 (broadcastInDim S4096x1 ![0] bcast_S4096_S4096x1_0 : (⟨S4096, .f32⟩ : BufTy).Contents (Elt F) → (⟨S4096x1, .f32⟩ : BufTy).Contents (Elt F)),
    nary ![main_v33, main_v34, main_v35] main_v36 (fun u => concatenate S4096x3 1 [⟨S4096x1, u 0⟩, ⟨S4096x1, u 1⟩, ⟨S4096x1, u 2⟩] concatenates_S4096x1_S4096x1_S4096x1_S4096x3_d1),
    unary main_v36 main_v37 (id : (⟨S4096x3, .f32⟩ : BufTy).Contents (Elt F) → (⟨S4096x3, .f32⟩ : BufTy).Contents (Elt F)) ]

/-- The operation list is the nine stretches in order. -/
theorem ops_eq : (Cert.ReferenceIdeal.Value.ops : List (HloOp τ sig (Elt F))) = C1 ++ C2 ++ C3 ++ C4 ++ C5 ++ C6 ++ C7 ++ C8 ++ C9 := rfl

end Cert.RefRun

end
-- ==== Proof.RefRunA.lean ====
/-
  The reference's first result, read off its operation list stretch by stretch.

  The list is nine consecutive stretches.  From ANY buffer contents `W`, each stretch leaves in the buffer later lines
  read a stage function of `W` at the stretch's inputs, and leaves every buffer it does not write as it was.  Chained,
  the contents of the first result's buffer after the whole list are the reference's last stage applied to the seven
  argument arrays: the index arrays and their normalisation, the two gathers (mask, rows, fill), their flattening,
  and the two layers.
-/
import proofs.«404969_j24275155157382_3_alg».proof.Proof.RefRunP
import proofs.«404969_j24275155157382_3_alg».proof.Proof.RefReadP
import proofs.«404969_j24275155157382_3_alg».proof.Proof.RefOps
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of their inputs -/

/-- An index array normalised: 128 added to every negative word. -/
def wrapIdx (iw : (⟨S4096x3x1, .i32⟩ : BufTy).Contents (Elt F)) : (⟨S4096x3x1, .i32⟩ : BufTy).Contents (Elt F) :=
  select (cmpi .slt iw (broadcastInDim S4096x3x1 ![] bcast_S_S4096x3x1 (constantI S_ 32 0#32))) (addi iw (broadcastInDim S4096x3x1 ![] bcast_S_S4096x3x1 (constantI S_ 32 128#32))) iw

/-- The rows of each slab named by a normalised index array `w`: where `0 ≤ w ≤ 127` the gathered row, elsewhere the
    fill value. -/
def rows (x0 : (⟨S4096x128x60, .f32⟩ : BufTy).Contents (Elt F)) (w : (⟨S4096x3x1, .i32⟩ : BufTy).Contents (Elt F)) : (⟨S4096x3x60, .f32⟩ : BufTy).Contents (Elt F) :=
  select (broadcastInDim S4096x3x60 ![0, 1] bcast_S4096x3_S4096x3x60_0_1 (Host.reduce IntOp.andi (andi (cmpi .sge w (broadcastInDim S4096x3x1 ![] bcast_S_S4096x3x1 (constantI S_ 32 0#32))) (cmpi .sle w (broadcastInDim S4096x3x1 ![0, 1, 2] bcast_S1x1x1_S4096x3x1_0_1_2 (broadcastInDim S1x1x1 ![2] bcast_S1_S1x1x1_2 (constantI S1 32 127#32))))) (constantI S_ 1 1#1) reducesTo_S4096x3x1_S4096x3_d2 h_S_)) (Host.gather gather_S4096x128x60_S4096x3x1_S4096x3x60_2_1_0_0_1_2_1160 x0 w) (broadcastInDim S4096x3x60 ![] bcast_S_S4096x3x60 (constant S_ .f32 0x7FC00000#32))

/-- Three rows of 60 entries a state laid end to end. -/
def flat (y : (⟨S4096x3x60, .f32⟩ : BufTy).Contents (Elt F)) : (⟨S4096x180, .f32⟩ : BufTy).Contents (Elt F) :=
  shapeCast _ y shapeCasts_S4096x3x60_S4096x180

/-- The two layers over the two flattened arrays side by side. -/
def layers (a b : (⟨S4096x180, .f32⟩ : BufTy).Contents (Elt F)) (x1 : (⟨S360x200, .f32⟩ : BufTy).Contents (Elt F)) (x2 : (⟨S200, .f32⟩ : BufTy).Contents (Elt F))
    (x3 : (⟨S200x3, .f32⟩ : BufTy).Contents (Elt F)) (x4 : (⟨S3, .f32⟩ : BufTy).Contents (Elt F)) : (⟨S4096x3, .f32⟩ : BufTy).Contents (Elt F) :=
  addf (Host.dotGeneral dot_S4096x200_S200x3_S4096x3_1_0_0_1_n_n none (maximumf (addf (Host.dotGeneral dot_S4096x360_S360x200_S4096x200_1_0_0_1_n_n none (concatenate S4096x360 1 [⟨S4096x180, a⟩, ⟨S4096x180, b⟩] concatenates_S4096x180_S4096x180_S4096x360_d1) x1) (broadcastInDim S4096x200 ![0, 1] bcast_S1x200_S4096x200_0_1 (broadcastInDim S1x200 ![1] bcast_S200_S1x200_1 x2))) (broadcastInDim S4096x200 ![] bcast_S_S4096x200 (constant S_ .f32 0x00000000#32))) x3) (broadcastInDim S4096x3 ![0, 1] bcast_S1x3_S4096x3_0_1 (broadcastInDim S1x3 ![1] bcast_S3_S1x3_1 x4))

/-- The reference's last stage is the layers over the flattened gathers of the normalised index arrays. -/
theorem val_main_v21_unfold (x0 : (⟨S4096x128x60, .f32⟩ : BufTy).Contents (Elt F)) (x1 : (⟨S360x200, .f32⟩ : BufTy).Contents (Elt F)) (x2 : (⟨S200, .f32⟩ : BufTy).Contents (Elt F))
    (x3 : (⟨S200x3, .f32⟩ : BufTy).Contents (Elt F)) (x4 : (⟨S3, .f32⟩ : BufTy).Contents (Elt F)) (x5 : (⟨S4096, .i32⟩ : BufTy).Contents (Elt F)) (x6 : (⟨S4096x3, .i32⟩ : BufTy).Contents (Elt F)) :
    Read.val_main_v21 (F := F) x0 x1 x2 x3 x4 x5 x6
      = layers (flat (rows x0 (wrapIdx (Read.val_main_v6 (F := F) x5)))) (flat (rows x0 (wrapIdx (Read.val_main_v9 (F := F) x6)))) x1 x2 x3 x4 := rfl

/-! ## What each stretch writes, and that it leaves the rest -/

/-- The buffers stretch 1 writes. -/
abbrev C1_W : List (Ref sig .tc) := [main_v0, main_v1, main_v2, main_v3, main_v4, main_v5, main_v6]
set_option maxRecDepth 8192 in
theorem C1_writes : (C1 : List (HloOp τ sig (Elt F))).Forall fun op =>
    op.writes ⊆ (C1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem C1_keep (W : Valuation τ sig (Elt F)) (r : Ref sig .tc) (h : r ∉ C1_W) :
    after (C1 (F := F)) W (Proc.devRef .tc r) = W (Proc.devRef .tc r) :=
  after_of_writes_sub C1 _ C1_writes h

/-- The buffers stretch 2 writes. -/
abbrev C2_W : List (Ref sig .tc) := [main_call0_c, main_call0_v0, main_call0_v1, main_call0_c_0, main_call0_v2, main_call0_v3, main_call0_v4]
set_option maxRecDepth 8192 in
theorem C2_writes : (C2 : List (HloOp τ sig (Elt F))).Forall fun op =>
    op.writes ⊆ (C2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem C2_keep (W : Valuation τ sig (Elt F)) (r : Ref sig .tc) (h : r ∉ C2_W) :
    after (C2 (F := F)) W (Proc.devRef .tc r) = W (Proc.devRef .tc r) :=
  after_of_writes_sub C2 _ C2_writes h

/-- The buffers stretch 3 writes. -/
abbrev C3_W : List (Ref sig .tc) := [main_call0_c_1, main_call0_c_2, main_call0_v5, main_call0_v6, main_call0_v7, main_call0_v8, main_call0_v9, main_call0_v10, main_call0_c_3, main_call0_v11, main_call0_v12, main_call0_v13, main_call0_cst, main_call0_v14, main_v7]
set_option maxRecDepth 8192 in
theorem C3_writes : (C3 : List (HloOp τ sig (Elt F))).Forall fun op =>
    op.writes ⊆ (C3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem C3_keep (W : Valuation τ sig (Elt F)) (r : Ref sig .tc) (h : r ∉ C3_W) :
    after (C3 (F := F)) W (Proc.devRef .tc r) = W (Proc.devRef .tc r) :=
  after_of_writes_sub C3 _ C3_writes h

/-- The buffers stretch 4 writes. -/
abbrev C4_W : List (Ref sig .tc) := [main_v8, main_v9]
set_option maxRecDepth 8192 in
theorem C4_writes : (C4 : List (HloOp τ sig (Elt F))).Forall fun op =>
    op.writes ⊆ (C4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem C4_keep (W : Valuation τ sig (Elt F)) (r : Ref sig .tc) (h : r ∉ C4_W) :
    after (C4 (F := F)) W (Proc.devRef .tc r) = W (Proc.devRef .tc r) :=
  after_of_writes_sub C4 _ C4_writes h

/-- The buffers stretch 5 writes. -/
abbrev C5_W : List (Ref sig .tc) := [main_call1_c, main_call1_v0, main_call1_v1, main_call1_c_0, main_call1_v2, main_call1_v3, main_call1_v4]
set_option maxRecDepth 8192 in
theorem C5_writes : (C5 : List (HloOp τ sig (Elt F))).Forall fun op =>
    op.writes ⊆ (C5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem C5_keep (W : Valuation τ sig (Elt F)) (r : Ref sig .tc) (h : r ∉ C5_W) :
    after (C5 (F := F)) W (Proc.devRef .tc r) = W (Proc.devRef .tc r) :=
  after_of_writes_sub C5 _ C5_writes h

/-- The buffers stretch 6 writes. -/
abbrev C6_W : List (Ref sig .tc) := [main_call1_c_1, main_call1_c_2, main_call1_v5, main_call1_v6, main_call1_v7, main_call1_v8, main_call1_v9, main_call1_v10, main_call1_c_3, main_call1_v11, main_call1_v12, main_call1_v13, main_call1_cst, main_call1_v14, main_v10]
set_option maxRecDepth 8192 in
theorem C6_writes : (C6 : List (HloOp τ sig (Elt F))).Forall fun op =>
    op.writes ⊆ (C6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem C6_keep (W : Valuation τ sig (Elt F)) (r : Ref sig .tc) (h : r ∉ C6_W) :
    after (C6 (F := F)) W (Proc.devRef .tc r) = W (Proc.devRef .tc r) :=
  after_of_writes_sub C6 _ C6_writes h

/-- The buffers stretch 7 writes. -/
abbrev C7_W : List (Ref sig .tc) := [main_v11]
set_option maxRecDepth 8192 in
theorem C7_writes : (C7 : List (HloOp τ sig (Elt F))).Forall fun op =>
    op.writes ⊆ (C7_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer stretch 7 does not write keeps its contents through it. -/
theorem C7_keep (W : Valuation τ sig (Elt F)) (r : Ref sig .tc) (h : r ∉ C7_W) :
    after (C7 (F := F)) W (Proc.devRef .tc r) = W (Proc.devRef .tc r) :=
  after_of_writes_sub C7 _ C7_writes h

/-- The buffers stretch 8 writes. -/
abbrev C8_W : List (Ref sig .tc) := [main_v12, main_v13, main_v14, main_v15, main_v16, main_call2_cst, main_call2_v0, main_v17, main_v18, main_v19, main_v20, main_v21]
set_option maxRecDepth 8192 in
theorem C8_writes : (C8 : List (HloOp τ sig (Elt F))).Forall fun op =>
    op.writes ⊆ (C8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 8 does not write keeps its contents through it. -/
theorem C8_keep (W : Valuation τ sig (Elt F)) (r : Ref sig .tc) (h : r ∉ C8_W) :
    after (C8 (F := F)) W (Proc.devRef .tc r) = W (Proc.devRef .tc r) :=
  after_of_writes_sub C8 _ C8_writes h

/-- The buffers stretch 9 writes. -/
abbrev C9_W : List (Ref sig .tc) := [main_c, main_v22, main_v23, main_c_0, main_v24, main_v25, main_cst, main_cst_1, main_call3_v0, main_call3_v1, main_v26, main_c_2, main_v27, main_v28, main_cst_3, main_cst_4, main_call4_v0, main_call4_v1, main_v29, main_c_5, main_v30, main_v31, main_cst_6, main_cst_7, main_call5_v0, main_call5_v1, main_v32, main_v33, main_v34, main_v35, main_v36, main_v37]
set_option maxRecDepth 8192 in
theorem C9_writes : (C9 : List (HloOp τ sig (Elt F))).Forall fun op =>
    op.writes ⊆ (C9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 9 does not write keeps its contents through it. -/
theorem C9_keep (W : Valuation τ sig (Elt F)) (r : Ref sig .tc) (h : r ∉ C9_W) :
    after (C9 (F := F)) W (Proc.devRef .tc r) = W (Proc.devRef .tc r) :=
  after_of_writes_sub C9 _ C9_writes h

/-! ## What each stretch leaves in the buffer later lines read -/

/-- Stretch 1 leaves the first index array, `buffer_index + iota`. -/
theorem C1_v6 (W : Valuation τ sig (Elt F)) :
    after (C1 (F := F)) W (Proc.devRef .tc main_v6) = Read.val_main_v6 (F := F) (W (Proc.devRef .tc main_arg5)) := by
  simp only [C1]
  after_results_simp
  rfl

/-- Stretch 2 leaves the first index array normalised. -/
theorem C2_v4 (W : Valuation τ sig (Elt F)) :
    after (C2 (F := F)) W (Proc.devRef .tc main_call0_v4) = wrapIdx (W (Proc.devRef .tc main_v6)) := by
  simp only [C2]
  after_results_simp
  rfl

/-- Stretch 3 leaves the rows the first normalised index array names. -/
theorem C3_v7 (W : Valuation τ sig (Elt F)) :
    after (C3 (F := F)) W (Proc.devRef .tc main_v7) = rows (W (Proc.devRef .tc main_arg0)) (W (Proc.devRef .tc main_call0_v4)) := by
  simp only [C3]
  after_results_simp
  rfl

/-- Stretch 4 leaves the first gathered array flattened … -/
theorem C4_v8 (W : Valuation τ sig (Elt F)) :
    after (C4 (F := F)) W (Proc.devRef .tc main_v8) = flat (W (Proc.devRef .tc main_v7)) := by
  simp only [C4]
  after_results_simp
  rfl

/-- … and the second index array, `stack_indexes`. -/
theorem C4_v9 (W : Valuation τ sig (Elt F)) :
    after (C4 (F := F)) W (Proc.devRef .tc main_v9) = Read.val_main_v9 (F := F) (W (Proc.devRef .tc main_arg6)) := by
  simp only [C4]
  after_results_simp
  rfl

/-- Stretch 5 leaves the second index array normalised. -/
theorem C5_v4 (W : Valuation τ sig (Elt F)) :
    after (C5 (F := F)) W (Proc.devRef .tc main_call1_v4) = wrapIdx (W (Proc.devRef .tc main_v9)) := by
  simp only [C5]
  after_results_simp
  rfl

/-- Stretch 6 leaves the rows the second normalised index array names. -/
theorem C6_v10 (W : Valuation τ sig (Elt F)) :
    after (C6 (F := F)) W (Proc.devRef .tc main_v10) = rows (W (Proc.devRef .tc main_arg0)) (W (Proc.devRef .tc main_call1_v4)) := by
  simp only [C6]
  after_results_simp
  rfl

/-- Stretch 7 leaves the second gathered array flattened. -/
theorem C7_v11 (W : Valuation τ sig (Elt F)) :
    after (C7 (F := F)) W (Proc.devRef .tc main_v11) = flat (W (Proc.devRef .tc main_v10)) := by
  simp only [C7]
  after_results_simp
  rfl

/-- Stretch 8 leaves the two layers over the two flattened arrays. -/
theorem C8_v21 (W : Valuation τ sig (Elt F)) :
    after (C8 (F := F)) W (Proc.devRef .tc main_v21) = layers (W (Proc.devRef .tc main_v8)) (W (Proc.devRef .tc main_v11)) (W (Proc.devRef .tc main_arg1)) (W (Proc.devRef .tc main_arg2)) (W (Proc.devRef .tc main_arg3)) (W (Proc.devRef .tc main_arg4)) := by
  simp only [C8]
  after_results_simp
  rfl

/-! ## The first result after the whole list -/

/-- From any buffer contents `V`, the first result's buffer after the 98 operations holds the reference's last stage
    of `V` at the seven argument buffers. -/
theorem v21_eq (V : Valuation τ sig (Elt F)) :
    after (Cert.ReferenceIdeal.Value.ops (F := F)) V (Proc.devRef .tc main_v21)
      = Read.val_main_v21 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_eq, after_append, after_append, after_append, after_append, after_append, after_append, after_append, after_append]
  rw [C9_keep _ main_v21 (by decide),
    C8_v21]
  rw [C7_v11,
    C7_keep _ main_v8 (by decide),
    C7_keep _ main_arg1 (by decide),
    C7_keep _ main_arg2 (by decide),
    C7_keep _ main_arg3 (by decide),
    C7_keep _ main_arg4 (by decide)]
  rw [C6_v10,
    C6_keep _ main_v8 (by decide),
    C6_keep _ main_arg1 (by decide),
    C6_keep _ main_arg2 (by decide),
    C6_keep _ main_arg3 (by decide),
    C6_keep _ main_arg4 (by decide)]
  rw [C5_v4,
    C5_keep _ main_arg0 (by decide),
    C5_keep _ main_v8 (by decide),
    C5_keep _ main_arg1 (by decide),
    C5_keep _ main_arg2 (by decide),
    C5_keep _ main_arg3 (by decide),
    C5_keep _ main_arg4 (by decide)]
  rw [C4_v9,
    C4_v8,
    C4_keep _ main_arg0 (by decide),
    C4_keep _ main_arg1 (by decide),
    C4_keep _ main_arg2 (by decide),
    C4_keep _ main_arg3 (by decide),
    C4_keep _ main_arg4 (by decide)]
  rw [C3_v7,
    C3_keep _ main_arg6 (by decide),
    C3_keep _ main_arg0 (by decide),
    C3_keep _ main_arg1 (by decide),
    C3_keep _ main_arg2 (by decide),
    C3_keep _ main_arg3 (by decide),
    C3_keep _ main_arg4 (by decide)]
  rw [C2_v4,
    C2_keep _ main_arg0 (by decide),
    C2_keep _ main_arg6 (by decide),
    C2_keep _ main_arg1 (by decide),
    C2_keep _ main_arg2 (by decide),
    C2_keep _ main_arg3 (by decide),
    C2_keep _ main_arg4 (by decide)]
  rw [C1_v6,
    C1_keep _ main_arg0 (by decide),
    C1_keep _ main_arg6 (by decide),
    C1_keep _ main_arg1 (by decide),
    C1_keep _ main_arg2 (by decide),
    C1_keep _ main_arg3 (by decide),
    C1_keep _ main_arg4 (by decide)]
  exact (val_main_v21_unfold _ _ _ _ _ _ _).symm

end Cert.RefRun

end
-- ==== Proof.RefRun.lean ====
/-
  The reference's run, read: every weakly fair execution ends with the first result at the last stage of the two-layer
  computation, as a function of the seven arguments it reads, the second result at the legality flags of
  `buffer_index` and `stack_len`, and the eight arguments as launched (no host line writes an argument).  The first
  result is read off the operation list stretch by stretch; the flags are the last stretch, which reads two arguments
  only; an argument is written by no line.
-/
import proofs.«404969_j24275155157382_3_alg».proof.Proof.RefOps
import proofs.«404969_j24275155157382_3_alg».proof.Proof.RefReadP
import proofs.«404969_j24275155157382_3_alg».proof.Proof.RefRunA
import Idealize.ShloMosaic.Lib.StableHlo.Run
import Idealize.ShloMosaic.Lib.Pipeline.Frame

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- No line of the program writes the buffer `b`, given that no line of any stretch does. -/
theorem ops_not_writes {b : DevRef τ sig}
    (hC1 : ∀ op ∈ (C1 : List (HloOp τ sig (Elt F))), b ∉ op.writes)
    (hC2 : ∀ op ∈ (C2 : List (HloOp τ sig (Elt F))), b ∉ op.writes)
    (hC3 : ∀ op ∈ (C3 : List (HloOp τ sig (Elt F))), b ∉ op.writes)
    (hC4 : ∀ op ∈ (C4 : List (HloOp τ sig (Elt F))), b ∉ op.writes)
    (hC5 : ∀ op ∈ (C5 : List (HloOp τ sig (Elt F))), b ∉ op.writes)
    (hC6 : ∀ op ∈ (C6 : List (HloOp τ sig (Elt F))), b ∉ op.writes)
    (hC7 : ∀ op ∈ (C7 : List (HloOp τ sig (Elt F))), b ∉ op.writes)
    (hC8 : ∀ op ∈ (C8 : List (HloOp τ sig (Elt F))), b ∉ op.writes)
    (hC9 : ∀ op ∈ (C9 : List (HloOp τ sig (Elt F))), b ∉ op.writes) :
    ∀ op ∈ (Cert.ReferenceIdeal.Value.ops : List (HloOp τ sig (Elt F))), b ∉ op.writes := by
  intro op hop
  rw [ops_eq] at hop
  simp only [List.mem_append] at hop
  rcases hop with (((((((h | h) | h) | h) | h) | h) | h) | h) | h
  · exact hC1 op h
  · exact hC2 op h
  · exact hC3 op h
  · exact hC4 op h
  · exact hC5 op h
  · exact hC6 op h
  · exact hC7 op h
  · exact hC8 op h
  · exact hC9 op h

/-- No host line writes `main_arg0`. -/
theorem kept_main_arg0 (V : Valuation τ sig (Elt F)) :
    after (Cert.ReferenceIdeal.Value.ops (F := F)) V (Proc.devRef .tc main_arg0) = V (Proc.devRef .tc main_arg0) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg1`. -/
theorem kept_main_arg1 (V : Valuation τ sig (Elt F)) :
    after (Cert.ReferenceIdeal.Value.ops (F := F)) V (Proc.devRef .tc main_arg1) = V (Proc.devRef .tc main_arg1) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg2`. -/
theorem kept_main_arg2 (V : Valuation τ sig (Elt F)) :
    after (Cert.ReferenceIdeal.Value.ops (F := F)) V (Proc.devRef .tc main_arg2) = V (Proc.devRef .tc main_arg2) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg3`. -/
theorem kept_main_arg3 (V : Valuation τ sig (Elt F)) :
    after (Cert.ReferenceIdeal.Value.ops (F := F)) V (Proc.devRef .tc main_arg3) = V (Proc.devRef .tc main_arg3) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg4`. -/
theorem kept_main_arg4 (V : Valuation τ sig (Elt F)) :
    after (Cert.ReferenceIdeal.Value.ops (F := F)) V (Proc.devRef .tc main_arg4) = V (Proc.devRef .tc main_arg4) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg5`. -/
theorem kept_main_arg5 (V : Valuation τ sig (Elt F)) :
    after (Cert.ReferenceIdeal.Value.ops (F := F)) V (Proc.devRef .tc main_arg5) = V (Proc.devRef .tc main_arg5) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg6`. -/
theorem kept_main_arg6 (V : Valuation τ sig (Elt F)) :
    after (Cert.ReferenceIdeal.Value.ops (F := F)) V (Proc.devRef .tc main_arg6) = V (Proc.devRef .tc main_arg6) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

/-- No host line writes `main_arg7`. -/
theorem kept_main_arg7 (V : Valuation τ sig (Elt F)) :
    after (Cert.ReferenceIdeal.Value.ops (F := F)) V (Proc.devRef .tc main_arg7) = V (Proc.devRef .tc main_arg7) :=
  after_of_forall_not_mem _ _ (ops_not_writes
    (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
    (List.forall_iff_forall_mem.mp (by
      simp only [C9, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))))

set_option maxHeartbeats 2000000 in
/-- The last stretch computes the flags from `buffer_index` and `stack_len` alone. -/
theorem legal_stretch (W : Valuation τ sig (Elt F)) :
    after (C9 (F := F)) W (Proc.devRef .tc main_v37)
      = Cert.ReferenceIdeal.Read.val_main_v37 (F := F) (W (Proc.devRef .tc main_arg5)) (W (Proc.devRef .tc main_arg7)) := by
  simp only [C9]
  after_results_simp
  rfl

/-- A buffer the first eight stretches do not write passes through them. -/
theorem pre_kept {b : DevRef τ sig} (V : Valuation τ sig (Elt F))
    (hC1 : ∀ op ∈ (C1 : List (HloOp τ sig (Elt F))), b ∉ op.writes)
    (hC2 : ∀ op ∈ (C2 : List (HloOp τ sig (Elt F))), b ∉ op.writes)
    (hC3 : ∀ op ∈ (C3 : List (HloOp τ sig (Elt F))), b ∉ op.writes)
    (hC4 : ∀ op ∈ (C4 : List (HloOp τ sig (Elt F))), b ∉ op.writes)
    (hC5 : ∀ op ∈ (C5 : List (HloOp τ sig (Elt F))), b ∉ op.writes)
    (hC6 : ∀ op ∈ (C6 : List (HloOp τ sig (Elt F))), b ∉ op.writes)
    (hC7 : ∀ op ∈ (C7 : List (HloOp τ sig (Elt F))), b ∉ op.writes)
    (hC8 : ∀ op ∈ (C8 : List (HloOp τ sig (Elt F))), b ∉ op.writes) :
    after ((C1 ++ C2 ++ C3 ++ C4 ++ C5 ++ C6 ++ C7 ++ C8 : List (HloOp τ sig (Elt F)))) V b = V b :=
  after_of_forall_not_mem _ _ (by
    intro op hop
    simp only [List.mem_append] at hop
    rcases hop with ((((((h | h) | h) | h) | h) | h) | h) | h
    · exact hC1 op h
    · exact hC2 op h
    · exact hC3 op h
    · exact hC4 op h
    · exact hC5 op h
    · exact hC6 op h
    · exact hC7 op h
    · exact hC8 op h)

/-- The second result, read off the whole list. -/
theorem v37_eq (V : Valuation τ sig (Elt F)) :
    after (Cert.ReferenceIdeal.Value.ops (F := F)) V (Proc.devRef .tc main_v37)
      = Cert.ReferenceIdeal.Read.val_main_v37 (F := F) (V (Proc.devRef .tc main_arg5)) (V (Proc.devRef .tc main_arg7)) := by
  rw [ops_eq, after_append, legal_stretch,
    pre_kept (b := Proc.devRef .tc main_arg5) V
      (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide))),
    pre_kept (b := Proc.devRef .tc main_arg7) V
      (List.forall_iff_forall_mem.mp (by
      simp only [C1, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C2, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C3, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C4, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C5, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C6, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C7, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))
      (List.forall_iff_forall_mem.mp (by
      simp only [C8, List.Forall, TRef.nullary, TRef.unary, TRef.binary, TRef.ternary, nullary_writes, unary_writes, binary_writes, ternary_writes, quaternary_writes, reshape_writes, nary_writes, Finset.mem_singleton]
      repeat' apply And.intro
      all_goals exact devRef_ne_of_ne (by decide)))]

/-- THE RUN: from any memory with zero counters every weakly fair execution of the reference terminates with the
    results at these functions of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = Cert.ReferenceIdeal.Read.val_main_v21 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v37) = Cert.ReferenceIdeal.Read.val_main_v37 (F := F) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v21).trans (v21_eq _),
      (h c main_v37).trans (v37_eq _),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _)⟩)
    (run_seq Cert.ReferenceIdeal.Value.scopedRefs_eq Cert.ReferenceIdeal.Value.scopedSems_eq defs main (fun _ => Cert.ReferenceIdeal.Value.ops)
      Cert.ReferenceIdeal.Value.main_eq (fun _ => Cert.ReferenceIdeal.Value.ops_sub) m ρ)

end Cert.RefRun

end
-- ==== Proof.PreRange.lean ====
/-
  The precondition's index range, read back.  The precondition is a conjunction of nine whole-array tests, each
  the "and" of a one-bit array over all of its axes; the last four say of every word of `buffer_index` that it is
  at least 0 and at most 125 as a signed number, and of every word of `stack_indexes` that it is at least 0 and at
  most 127.  A 32-bit word that is signed-nonnegative reads the same signed and unsigned, so these say that the words
  are at most 125 and at most 127 as natural numbers: the index range of the specification.
-/
import proofs.«404969_j24275155157382_3_alg».proof.Pre_finite_inputs
import proofs.«404969_j24275155157382_3_alg».proof.Proof.Spec
import Idealize.ShloMosaic.Lib.ReduceAll

namespace Cert.PreRange

open Idealize.ShloMosaic Idealize.ShloMosaic.ValueIdx Cert.Pre_finite_inputs

/-- A 32-bit word that is at least 0 and at most `hi` as a signed number, where `hi` is the natural number `n`,
    is at most `n` as an unsigned number. -/
theorem toNat_le_of_signed {w hi : BitVec 32} {n : Nat} (hhi : hi.toInt = (n : Int))
    (h0 : IntOp.cmpi .sge w 0#32 = 1#1) (h1 : IntOp.cmpi .sle w hi = 1#1) : w.toNat ≤ n := by
  rw [IntOp.cmpi_sge, show (0#32 : BitVec 32).toInt = 0 from by decide] at h0
  rw [IntOp.cmpi_sle, hhi] at h1
  have hlt : 2 * w.toNat < 2 ^ 32 := BitVec.toInt_pos_iff.1 h0
  rw [BitVec.toInt_eq_toNat_of_lt hlt] at h1
  omega

/-- The array of rank 0 has one index. -/
instance subsingleton_scalar_idx : Subsingleton S_.Idx := ⟨fun _ _ => funext fun d => d.elim0⟩

/-- Where the precondition holds, every `buffer_index` word is at most 125 and every `stack_indexes` word at most 127. -/
theorem inRange [Facts]
    (a0 : FVec Ideal S4096x128x60 .f32) (a1 : FVec Ideal S360x200 .f32)
    (a2 : FVec Ideal S200 .f32) (a3 : FVec Ideal S200x3 .f32)
    (a4 : FVec Ideal S3 .f32) (a5 : IVec S4096 32)
    (a6 : IVec S4096x3 32) (a7 : IVec S4096 32)
    (h : fn (F := Ideal) a0 a1 a2 a3 a4 a5 a6 a7 = fun _ => 1#1) :
    Cert.Spec.InRange a5 a6 := by
  have h' := congrFun h ix0
  dsimp only [fn, fn_part1, fn_part2] at h'
  -- the conjunction, from its last conjunct back to the sixth
  obtain ⟨h', hsiLe⟩ := IntOp.andi_eq_one.1 h'
  obtain ⟨h', hsiGe⟩ := IntOp.andi_eq_one.1 h'
  obtain ⟨h', hbiLe⟩ := IntOp.andi_eq_one.1 h'
  obtain ⟨-, hbiGe⟩ := IntOp.andi_eq_one.1 h'
  refine ⟨fun p => ?_, fun p j => ?_⟩
  · have e0 := Host.reduce_andi_all _ _ _ _ _ hbiGe (ix1 p)
    have e1 := Host.reduce_andi_all _ _ _ _ _ hbiLe (ix1 p)
    exact toNat_le_of_signed (hi := 125#32) (by decide) e0 e1
  · have e0 := Host.reduce_andi_all _ _ _ _ _ hsiGe (ix2 p j)
    have e1 := Host.reduce_andi_all _ _ _ _ _ hsiLe (ix2 p j)
    exact toNat_le_of_signed (hi := 127#32) (by decide) e0 e1

end Cert.PreRange
-- ==== Proof.lean ====
/-
  The certificate: a per-state gather of six rows of a 128 x 60 slab (three consecutive rows from `buffer_index`, three
  rows named by `stack_indexes`), the 360 numbers pushed through a two-layer perceptron (360 -> 200 -> 3, relu between),
  and a 4096 x 3 mask of legal actions.

  The kernel picks each row by a one-hot mask summed over the 128 rows, multiplies it by its 60 x 200 slice of the
  first weight and adds the six products; the reference gathers the rows, lays them side by side and multiplies once by
  the whole 360 x 200 weight.  Over the extended reals a one-hot sum is the picked entry (`0 * x = 0`, `1 * x = x`, also
  at the infinities) and a sum over 360 is the sum over 6 of sums over 60, so both are the function `Cert.Spec.out` of
  the arguments — inside the stated index range `0 ≤ buffer_index ≤ 125`, `0 ≤ stack_indexes ≤ 127`, where the kernel's
  clamp and the reference's wrap-around and out-of-range fill all do nothing.  The mask is computed by the same host
  lines in both programs.  Each program's frame: it runs to the end, faults nowhere, and leaves its arguments unchanged.
-/
import proofs.«404969_j24275155157382_3_alg».proof.Defs
import proofs.«404969_j24275155157382_3_alg».proof.Proof.Gen.Kernel
import proofs.«404969_j24275155157382_3_alg».proof.Proof.Gen.KernelIdeal
import proofs.«404969_j24275155157382_3_alg».proof.Proof.Gen.ReferenceIdeal
import proofs.«404969_j24275155157382_3_alg».proof.Proof.Gen.Pre_finite_inputs
import proofs.«404969_j24275155157382_3_alg».proof.Proof.FrameB
import proofs.«404969_j24275155157382_3_alg».proof.Proof.FrameI
import proofs.«404969_j24275155157382_3_alg».proof.Proof.KValueI
import proofs.«404969_j24275155157382_3_alg».proof.Proof.RefValue
import proofs.«404969_j24275155157382_3_alg».proof.Proof.RefRun
import proofs.«404969_j24275155157382_3_alg».proof.Proof.PreRange
import Idealize.ShloMosaic.Adequacy
import Idealize.ShloMosaic.Init

noncomputable section

namespace Cert.Proof

open Idealize.ShloMosaic Idealize.SL.Sem

/-- The word-level kernel's frame. -/
theorem frame_k : Cert.frame_Kernel (hKernel := Cert.Kernel.Gen.facts) (hPre_finite_inputs := Cert.Pre_finite_inputs.Gen.facts) :=
  fun m ρ _ => Cert.Kernel.Fr.frame m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.RefRun.run (F := Ideal) m ρ)

/-- The two idealized programs end with equal results: the first is the specification on both sides (the reference
    reads it off its own run inside the index range, the kernel off its 32 written blocks), the second the same
    host lines of the same two integer arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ c : Dev Cert.KernelIdeal.nD, Cert.Spec.InRange
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) :=
    fun c => Cert.PreRange.inRange _ _ _ _ _ _ _ _ (hpre c)
  refine ⟨fun c => Cert.KValue.specOut m c,
    fun c => Cert.KernelIdeal.Fr.legalTerm (F := Ideal)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7)),
    Cert.KValue.run m ρ hr, ?_⟩
  refine (θ_run Cert.ReferenceIdeal.defs _ _).mono (fun _ h c => ⟨(h c).1.trans ?_, (h c).2.1.trans ?_, (h c).2.2⟩)
    (Cert.RefRun.run (F := Ideal) m' ρ')
  · obtain ⟨e0, e1, e2, e3, e4, e5, e6, e7⟩ := hagree c
    rw [e0, e1, e2, e3, e4, e5, e6]
    exact Cert.RefValue.out_eq _ _ _ _ _ _ _ (hr c)
  · obtain ⟨e0, e1, e2, e3, e4, e5, e6, e7⟩ := hagree c
    rw [e5, e7]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
